-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x3 : Shape := ⟨2, ![1048576, 3]⟩
abbrev S3x64x512x512 : Shape := ⟨4, ![3, 64, 512, 512]⟩
abbrev S_ : Shape := ⟨0, ![]⟩

class Facts : Prop where
  bcast_S_S1048576x3 : S_.BroadcastsInDim S1048576x3 (![] : Fin 0 → Fin S1048576x3.rank)
  reducesTo_S1048576x3_S_d0_1 : S1048576x3.ReducesTo [0, 1] S_
  h_S_ : 0 < S_.numel
  bcast_S_S3x64x512x512 : S_.BroadcastsInDim S3x64x512x512 (![] : Fin 0 → Fin S3x64x512x512.rank)
  reducesTo_S3x64x512x512_S_d0_1_2_3 : S3x64x512x512.ReducesTo [0, 1, 2, 3] S_

variable [Facts]

def fn {F : FTy → Type} [FloatOps F] (main_arg0 : FVec F S1048576x3 .f32) (main_arg1 : FVec F S3x64x512x512 .f32) : IVec S_ 1 :=
  let main_v0 : FVec F S1048576x3 .f32 := Host.absf main_arg0
  let main_cst : FVec F S_ .f32 := constant S_ .f32 0x7F800000#32
  let main_v1 : FVec F S1048576x3 .f32 := broadcastInDim S1048576x3 ![] bcast_S_S1048576x3 main_cst
  let main_v2 : IVec S1048576x3 1 := cmpf .olt main_v0 main_v1
  let main_c : IVec S_ 1 := constantI S_ 1 1#1
  let main_v3 : IVec S_ 1 := (fun x v => Host.reduce IntOp.andi x v reducesTo_S1048576x3_S_d0_1 h_S_) main_v2 main_c
  let main_v4 : FVec F S3x64x512x512 .f32 := Host.absf main_arg1
  let main_cst_0 : FVec F S_ .f32 := constant S_ .f32 0x7F800000#32
  let main_v5 : FVec F S3x64x512x512 .f32 := broadcastInDim S3x64x512x512 ![] bcast_S_S3x64x512x512 main_cst_0
  let main_v6 : IVec S3x64x512x512 1 := cmpf .olt main_v4 main_v5
  let main_c_1 : IVec S_ 1 := constantI S_ 1 1#1
  let main_v7 : IVec S_ 1 := (fun x v => Host.reduce IntOp.andi x v reducesTo_S3x64x512x512_S_d0_1_2_3 h_S_) main_v6 main_c_1
  let main_v8 : IVec S_ 1 := andi main_v3 main_v7
  main_v8
-- ==== Kernel.lean ====
abbrev S1048576x3 : Shape := ⟨2, ![1048576, 3]⟩
abbrev S3x64x512x512 : Shape := ⟨4, ![3, 64, 512, 512]⟩
abbrev S3x1048576 : Shape := ⟨2, ![3, 1048576]⟩
abbrev S64x1048576 : Shape := ⟨2, ![64, 1048576]⟩
abbrev S3x8x512x512 : Shape := ⟨4, ![3, 8, 512, 512]⟩
abbrev S256x3 : Shape := ⟨2, ![256, 3]⟩
abbrev S3x256 : Shape := ⟨2, ![3, 256]⟩
abbrev S8x256 : Shape := ⟨2, ![8, 256]⟩
abbrev S256x1 : Shape := ⟨2, ![256, 1]⟩
abbrev S1x256 : Shape := ⟨2, ![1, 256]⟩
abbrev S1x512 : Shape := ⟨2, ![1, 512]⟩
abbrev S512x1 : Shape := ⟨2, ![512, 1]⟩
abbrev S256x512 : Shape := ⟨2, ![256, 512]⟩
abbrev S512x256 : Shape := ⟨2, ![512, 256]⟩
abbrev S1x8x512x512 : Shape := ⟨4, ![1, 8, 512, 512]⟩
abbrev S8x512x512 : Shape := ⟨3, ![8, 512, 512]⟩
abbrev S4096x512 : Shape := ⟨2, ![4096, 512]⟩
abbrev S4096x256 : Shape := ⟨2, ![4096, 256]⟩
abbrev S8x512x256 : Shape := ⟨3, ![8, 512, 256]⟩
abbrev S1x512x256 : Shape := ⟨3, ![1, 512, 256]⟩
abbrev S1048576x64 : Shape := ⟨2, ![1048576, 64]⟩

abbrev nBuf : Space → Nat
  | .hbm => 6
  | .vmem => 7
  | .smem => 0
  | _ => 0

abbrev bufTy : (tb : Table) → Fin (tcTables nBuf tb) → BufTy
  | .hbm, ⟨0, _⟩ => ⟨S1048576x3, .f32⟩
  | .hbm, ⟨1, _⟩ => ⟨S3x64x512x512, .f32⟩
  | .hbm, ⟨2, _⟩ => ⟨S3x64x512x512, .bf16⟩
  | .hbm, ⟨3, _⟩ => ⟨S3x1048576, .f32⟩
  | .hbm, ⟨4, _⟩ => ⟨S64x1048576, .f32⟩
  | .hbm, ⟨5, _⟩ => ⟨S1048576x64, .f32⟩
  | .local _ .vmem, ⟨0, _⟩ => ⟨S3x8x512x512, .bf16⟩
  | .local _ .vmem, ⟨1, _⟩ => ⟨S256x3, .f32⟩
  | .local _ .vmem, ⟨2, _⟩ => ⟨S256x3, .f32⟩
  | .local _ .vmem, ⟨3, _⟩ => ⟨S3x256, .f32⟩
  | .local _ .vmem, ⟨4, _⟩ => ⟨S3x256, .f32⟩
  | .local _ .vmem, ⟨5, _⟩ => ⟨S8x256, .f32⟩
  | .local _ .vmem, ⟨6, _⟩ => ⟨S8x256, .f32⟩
  | _, _ => ⟨S1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4096], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S3x8x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  transposes_S1048576x3_S3x1048576_1_0 : S1048576x3.Transposes [1, 0] S3x1048576
  inb_S256x3_S256x1_0_0 : ∀ a, (![0, 0] : Fin 2 → Nat) a + S256x1.size a ≤ S256x3.size a
  h_S256x1 : 0 < S256x1.numel
  inb_S3x256_S1x256_1_0 : ∀ a, (![1, 0] : Fin 2 → Nat) a + S1x256.size a ≤ S3x256.size a
  h_S1x256 : 0 < S1x256.numel
  shapeCasts_S1x256_S1x256 : S1x256.ShapeCasts S1x256
  iota_S1x512_d1_w32 : S1x512.Iotas .tc 32 [1]
  iota_S512x1_d0_w32 : S512x1.Iotas .tc 32 [0]
  broadcasts_S1x512_S256x512 : S1x512.Broadcasts S256x512
  broadcasts_S256x1_S256x512 : S256x1.Broadcasts S256x512
  shapeCasts_S256x1_S256x1 : S256x1.ShapeCasts S256x1
  broadcasts_S512x1_S512x256 : S512x1.Broadcasts S512x256
  broadcasts_S1x256_S512x256 : S1x256.Broadcasts S512x256
  inb_S3x8x512x512_S1x8x512x512_0_0_0_0 : ∀ a, (![0, 0, 0, 0] : Fin 4 → Nat) a + S1x8x512x512.size a ≤ S3x8x512x512.size a
  h_S1x8x512x512 : 0 < S1x8x512x512.numel
  shapeCasts_S1x8x512x512_S8x512x512 : S1x8x512x512.ShapeCasts S8x512x512
  shapeCasts_S8x512x512_S4096x512 : S8x512x512.ShapeCasts S4096x512
  shapeCasts_S4096x256_S8x512x256 : S4096x256.ShapeCasts S8x512x256
  shapeCasts_S512x256_S1x512x256 : S512x256.ShapeCasts S1x512x256
  broadcasts_S1x512x256_S8x512x256 : S1x512x256.Broadcasts S8x512x256
  reduces_S8x512x256_S8x256 : S8x512x256.Reduces [1] S8x256
  inb_S3x256_S1x256_2_0 : ∀ a, (![2, 0] : Fin 2 → Nat) a + S1x256.size a ≤ S3x256.size a
  inb_S3x8x512x512_S1x8x512x512_1_0_0_0 : ∀ a, (![1, 0, 0, 0] : Fin 4 → Nat) a + S1x8x512x512.size a ≤ S3x8x512x512.size a
  inb_S256x3_S256x1_0_1 : ∀ a, (![0, 1] : Fin 2 → Nat) a + S256x1.size a ≤ S256x3.size a
  inb_S3x8x512x512_S1x8x512x512_2_0_0_0 : ∀ a, (![2, 0, 0, 0] : Fin 4 → Nat) a + S1x8x512x512.size a ≤ S3x8x512x512.size a
  inb_S8x256_S8x256_0_0 : ∀ a, (![0, 0] : Fin 2 → Nat) a + S8x256.size a ≤ S8x256.size a
  h_S8x256 : 0 < S8x256.numel
  transposes_S64x1048576_S1048576x64_1_0 : S64x1048576.Transposes [1, 0] S1048576x64
  dot_S4096x512_S256x512_S4096x256_1_1_0_0_n_n_wf : DotDims.WF S4096x512 S256x512 S4096x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x8x512x512.size a ≤ S3x64x512x512.size a
  hwx0_0 : ∀ i : grid0.Coords, EltTy.bits .bf16 = 32 ∨ (Rect.block (s := S3x64x512x512) S3x8x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3.size a ≤ S1048576x3.size a
  hwx0_1 : ∀ i : grid0.Coords, EltTy.bits .f32 = 32 ∨ (Rect.block (s := S1048576x3) S256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x256.size a ≤ S3x1048576.size a
  hwx0_2 : ∀ i : grid0.Coords, EltTy.bits .f32 = 32 ∨ (Rect.block (s := S3x1048576) S3x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S64x1048576.size a
  hwx0_3 : ∀ i : grid0.Coords, EltTy.bits .f32 = 32 ∨ (Rect.block (s := S64x1048576) S8x256.size (cc0_transform_3 i) (hinb0_3 i)).WholeWords (EltTy.packing .f32)

variable [Facts₀]

def dot_S4096x512_S256x512_S4096x256_1_1_0_0_n_n : DotDims S4096x512 S256x512 S4096x256 where
  lhsContracting := [1]
  rhsContracting := [1]
  lhsNonContracting := [0]
  rhsNonContracting := [0]
  lhsBatch := []
  rhsBatch := []
  wf := dot_S4096x512_S256x512_S4096x256_1_1_0_0_n_n_wf

abbrev win0_0 : Pipeline.Window sig grid0 :=
  Pipeline.Window.ofSpec (Memref.whole main_v0) S3x8x512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x3 : Shape := ⟨2, ![1048576, 3]⟩
abbrev S3x64x512x512 : Shape := ⟨4, ![3, 64, 512, 512]⟩
abbrev S2 : Shape := ⟨1, ![2]⟩
abbrev S_ : Shape := ⟨0, ![]⟩
abbrev S2x1 : Shape := ⟨2, ![2, 1]⟩
abbrev S1048576x2 : Shape := ⟨2, ![1048576, 2]⟩
abbrev S1x1048576x2 : Shape := ⟨3, ![1, 1048576, 2]⟩
abbrev S3x1048576x2 : Shape := ⟨3, ![3, 1048576, 2]⟩
abbrev S3x1048576x1 : Shape := ⟨3, ![3, 1048576, 1]⟩
abbrev S3x1048576 : Shape := ⟨2, ![3, 1048576]⟩
abbrev S3x64x262144 : Shape := ⟨3, ![3, 64, 262144]⟩
abbrev S3x64x1048576 : Shape := ⟨3, ![3, 64, 1048576]⟩
abbrev S3x1x1048576 : Shape := ⟨3, ![3, 1, 1048576]⟩
abbrev S64x1048576 : Shape := ⟨2, ![64, 1048576]⟩
abbrev S1048576x64 : Shape := ⟨2, ![1048576, 64]⟩

abbrev nBuf : Space → Nat
  | .hbm => 179
  | .vmem => 0
  | .smem => 0
  | _ => 0

abbrev hbmTy0_0 (i : Nat) : BufTy := match i % 128 with
  | 0 => ⟨S1048576x3, .f32⟩
  | 1 => ⟨S3x64x512x512, .f32⟩
  | 2 => ⟨S2, .i32⟩
  | 3 => ⟨S2, .i32⟩
  | 4 => ⟨S2, .i32⟩
  | 5 => ⟨S_, .i32⟩
  | 6 => ⟨S2, .i32⟩
  | 7 => ⟨S2, .i1⟩
  | 8 => ⟨S_, .i32⟩
  | 9 => ⟨S2, .i32⟩
  | 10 => ⟨S2, .i32⟩
  | 11 => ⟨S2, .i32⟩
  | 12 => ⟨S2x1, .i32⟩
  | 13 => ⟨S1048576x2, .f32⟩
  | 14 => ⟨S_, .i32⟩
  | 15 => ⟨S2, .i32⟩
  | 16 => ⟨S2, .i1⟩
  | 17 => ⟨S_, .i32⟩
  | 18 => ⟨S2, .i32⟩
  | 19 => ⟨S2, .i32⟩
  | 20 => ⟨S2, .i32⟩
  | 21 => ⟨S2x1, .i32⟩
  | 22 => ⟨S1048576x2, .f32⟩
  | 23 => ⟨S_, .i32⟩
  | 24 => ⟨S2, .i32⟩
  | 25 => ⟨S2, .i1⟩
  | 26 => ⟨S_, .i32⟩
  | 27 => ⟨S2, .i32⟩
  | 28 => ⟨S2, .i32⟩
  | 29 => ⟨S2, .i32⟩
  | 30 => ⟨S2x1, .i32⟩
  | 31 => ⟨S1048576x2, .f32⟩
  | 32 => ⟨S1x1048576x2, .f32⟩
  | 33 => ⟨S1x1048576x2, .f32⟩
  | 34 => ⟨S1x1048576x2, .f32⟩
  | 35 => ⟨S3x1048576x2, .f32⟩
  | 36 => ⟨S3x1048576x1, .f32⟩
  | 37 => ⟨S3x1048576, .f32⟩
  | 38 => ⟨S_, .f32⟩
  | 39 => ⟨S3x1048576, .f32⟩
  | 40 => ⟨S3x1048576, .f32⟩
  | 41 => ⟨S_, .f32⟩
  | 42 => ⟨S3x1048576, .f32⟩
  | 43 => ⟨S3x1048576, .f32⟩
  | 44 => ⟨S_, .f32⟩
  | 45 => ⟨S3x1048576, .f32⟩
  | 46 => ⟨S3x1048576, .f32⟩
  | 47 => ⟨S_, .f32⟩
  | 48 => ⟨S_, .i32⟩
  | 49 => ⟨S_, .f32⟩
  | 50 => ⟨S3x1048576, .f32⟩
  | 51 => ⟨S3x1048576, .f32⟩
  | 52 => ⟨S_, .f32⟩
  | 53 => ⟨S3x1048576, .f32⟩
  | 54 => ⟨S3x1048576, .f32⟩
  | 55 => ⟨S3x1048576x1, .f32⟩
  | 56 => ⟨S3x1048576, .f32⟩
  | 57 => ⟨S_, .f32⟩
  | 58 => ⟨S3x1048576, .f32⟩
  | 59 => ⟨S3x1048576, .f32⟩
  | 60 => ⟨S_, .f32⟩
  | 61 => ⟨S3x1048576, .f32⟩
  | 62 => ⟨S3x1048576, .f32⟩
  | 63 => ⟨S_, .f32⟩
  | 64 => ⟨S3x1048576, .f32⟩
  | 65 => ⟨S3x1048576, .f32⟩
  | 66 => ⟨S_, .f32⟩
  | 67 => ⟨S_, .i32⟩
  | 68 => ⟨S_, .f32⟩
  | 69 => ⟨S3x1048576, .f32⟩
  | 70 => ⟨S3x1048576, .f32⟩
  | 71 => ⟨S_, .f32⟩
  | 72 => ⟨S3x1048576, .f32⟩
  | 73 => ⟨S3x1048576, .f32⟩
  | 74 => ⟨S3x1048576, .f32⟩
  | 75 => ⟨S3x1048576, .f32⟩
  | 76 => ⟨S3x1048576, .f32⟩
  | 77 => ⟨S3x1048576, .f32⟩
  | 78 => ⟨S3x1048576, .i32⟩
  | 79 => ⟨S3x1048576, .i32⟩
  | 80 => ⟨S_, .i32⟩
  | 81 => ⟨S3x1048576, .i32⟩
  | 82 => ⟨S3x1048576, .i32⟩
  | 83 => ⟨S_, .i32⟩
  | 84 => ⟨S3x1048576, .i32⟩
  | 85 => ⟨S3x1048576, .i32⟩
  | 86 => ⟨S_, .i32⟩
  | 87 => ⟨S3x1048576, .i32⟩
  | 88 => ⟨S3x1048576, .i32⟩
  | 89 => ⟨S_, .i32⟩
  | 90 => ⟨S3x1048576, .i32⟩
  | 91 => ⟨S3x1048576, .i32⟩
  | 92 => ⟨S3x64x262144, .f32⟩
  | 93 => ⟨S_, .i32⟩
  | 94 => ⟨S3x1048576, .i32⟩
  | 95 => ⟨S3x1048576, .i32⟩
  | 96 => ⟨S3x1048576, .i32⟩
  | 97 => ⟨S_, .i32⟩
  | 98 => ⟨S3x1048576, .i32⟩
  | 99 => ⟨S3x1048576, .i1⟩
  | 100 => ⟨S_, .i32⟩
  | 101 => ⟨S3x1048576, .i32⟩
  | 102 => ⟨S3x1048576, .i32⟩
  | 103 => ⟨S3x1048576, .i32⟩
  | 104 => ⟨S3x1048576x1, .i32⟩
  | 105 => ⟨S3x64x1048576, .f32⟩
  | 106 => ⟨S_, .f32⟩
  | 107 => ⟨S3x1048576, .f32⟩
  | 108 => ⟨S3x1048576, .f32⟩
  | 109 => ⟨S_, .f32⟩
  | 110 => ⟨S3x1048576, .f32⟩
  | 111 => ⟨S3x1048576, .f32⟩
  | 112 => ⟨S3x1048576, .f32⟩
  | 113 => ⟨S3x1x1048576, .f32⟩
  | 114 => ⟨S3x64x1048576, .f32⟩
  | 115 => ⟨S3x64x1048576, .f32⟩
  | 116 => ⟨S_, .i32⟩
  | 117 => ⟨S3x1048576, .i32⟩
  | 118 => ⟨S3x1048576, .i32⟩
  | 119 => ⟨S3x1048576, .i32⟩
  | 120 => ⟨S_, .i32⟩
  | 121 => ⟨S3x1048576, .i32⟩
  | 122 => ⟨S3x1048576, .i1⟩
  | 123 => ⟨S_, .i32⟩
  | 124 => ⟨S3x1048576, .i32⟩
  | 125 => ⟨S3x1048576, .i32⟩
  | 126 => ⟨S3x1048576, .i32⟩
  | 127 => ⟨S3x1048576x1, .i32⟩
  | _ => ⟨S1048576x3, .f32⟩

abbrev hbmTy0_1 (i : Nat) : BufTy := match i % 128 with
  | 0 => ⟨S3x64x1048576, .f32⟩
  | 1 => ⟨S_, .f32⟩
  | 2 => ⟨S3x1048576, .f32⟩
  | 3 => ⟨S3x1048576, .f32⟩
  | 4 => ⟨S3x1048576, .f32⟩
  | 5 => ⟨S3x1x1048576, .f32⟩
  | 6 => ⟨S3x64x1048576, .f32⟩
  | 7 => ⟨S3x64x1048576, .f32⟩
  | 8 => ⟨S3x64x1048576, .f32⟩
  | 9 => ⟨S_, .i32⟩
  | 10 => ⟨S3x1048576, .i32⟩
  | 11 => ⟨S3x1048576, .i32⟩
  | 12 => ⟨S3x1048576, .i32⟩
  | 13 => ⟨S_, .i32⟩
  | 14 => ⟨S3x1048576, .i32⟩
  | 15 => ⟨S3x1048576, .i1⟩
  | 16 => ⟨S_, .i32⟩
  | 17 => ⟨S3x1048576, .i32⟩
  | 18 => ⟨S3x1048576, .i32⟩
  | 19 => ⟨S3x1048576, .i32⟩
  | 20 => ⟨S3x1048576x1, .i32⟩
  | 21 => ⟨S3x64x1048576, .f32⟩
  | 22 => ⟨S_, .f32⟩
  | 23 => ⟨S3x1048576, .f32⟩
  | 24 => ⟨S3x1048576, .f32⟩
  | 25 => ⟨S3x1048576, .f32⟩
  | 26 => ⟨S3x1x1048576, .f32⟩
  | 27 => ⟨S3x64x1048576, .f32⟩
  | 28 => ⟨S3x64x1048576, .f32⟩
  | 29 => ⟨S3x64x1048576, .f32⟩
  | 30 => ⟨S_, .i32⟩
  | 31 => ⟨S3x1048576, .i32⟩
  | 32 => ⟨S3x1048576, .i32⟩
  | 33 => ⟨S3x1048576, .i32⟩
  | 34 => ⟨S_, .i32⟩
  | 35 => ⟨S3x1048576, .i32⟩
  | 36 => ⟨S3x1048576, .i1⟩
  | 37 => ⟨S_, .i32⟩
  | 38 => ⟨S3x1048576, .i32⟩
  | 39 => ⟨S3x1048576, .i32⟩
  | 40 => ⟨S3x1048576, .i32⟩
  | 41 => ⟨S3x1048576x1, .i32⟩
  | 42 => ⟨S3x64x1048576, .f32⟩
  | 43 => ⟨S3x1048576, .f32⟩
  | 44 => ⟨S3x1x1048576, .f32⟩
  | 45 => ⟨S3x64x1048576, .f32⟩
  | 46 => ⟨S3x64x1048576, .f32⟩
  | 47 => ⟨S3x64x1048576, .f32⟩
  | 48 => ⟨S_, .f32⟩
  | 49 => ⟨S64x1048576, .f32⟩
  | 50 => ⟨S1048576x64, .f32⟩
  | _ => ⟨S1048576x3, .f32⟩

abbrev hbmTy (i : Nat) : BufTy := match i / 128 with
  | 0 => hbmTy0_0 i
  | 1 => hbmTy0_1 i
  | _ => ⟨S1048576x3, .f32⟩

abbrev bufTy : (tb : Table) → Fin (tcTables nBuf tb) → BufTy
  | .hbm, ⟨i, _⟩ => hbmTy i
  | _, _ => ⟨S1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_c_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_4 : Ref sig .tc := ⟨.hbm, 14, rfl⟩
abbrev main_v7 : Ref sig .tc := ⟨.hbm, 15, rfl⟩
abbrev main_v8 : Ref sig .tc := ⟨.hbm, 16, rfl⟩
abbrev main_c_5 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_6 : Ref sig .tc := ⟨.hbm, 23, rfl⟩
abbrev main_v14 : Ref sig .tc := ⟨.hbm, 24, rfl⟩
abbrev main_v15 : Ref sig .tc := ⟨.hbm, 25, rfl⟩
abbrev main_c_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_cst_10 : Ref sig .tc := ⟨.hbm, 47, rfl⟩
abbrev main_c_11 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_cst_13 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_cst_15 : Ref sig .tc := ⟨.hbm, 66, rfl⟩
abbrev main_c_16 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_17 : Ref sig .tc := ⟨.hbm, 80, rfl⟩
abbrev main_v49 : Ref sig .tc := ⟨.hbm, 81, rfl⟩
abbrev main_v50 : Ref sig .tc := ⟨.hbm, 82, rfl⟩
abbrev main_c_18 : Ref sig .tc := ⟨.hbm, 83, rfl⟩
abbrev main_v51 : Ref sig .tc := ⟨.hbm, 84, rfl⟩
abbrev main_v52 : Ref sig .tc := ⟨.hbm, 85, rfl⟩
abbrev main_c_19 : Ref sig .tc := ⟨.hbm, 86, rfl⟩
abbrev main_v53 : Ref sig .tc := ⟨.hbm, 87, rfl⟩
abbrev main_v54 : Ref sig .tc := ⟨.hbm, 88, rfl⟩
abbrev main_c_20 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_21 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_22 : Ref sig .tc := ⟨.hbm, 97, rfl⟩
abbrev main_v61 : Ref sig .tc := ⟨.hbm, 98, rfl⟩
abbrev main_v62 : Ref sig .tc := ⟨.hbm, 99, rfl⟩
abbrev main_c_23 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_24 : Ref sig .tc := ⟨.hbm, 106, rfl⟩
abbrev main_v68 : Ref sig .tc := ⟨.hbm, 107, rfl⟩
abbrev main_v69 : Ref sig .tc := ⟨.hbm, 108, rfl⟩
abbrev main_cst_25 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_26 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_27 : Ref sig .tc := ⟨.hbm, 120, rfl⟩
abbrev main_v79 : Ref sig .tc := ⟨.hbm, 121, rfl⟩
abbrev main_v80 : Ref sig .tc := ⟨.hbm, 122, rfl⟩
abbrev main_c_28 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_29 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_30 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_31 : Ref sig .tc := ⟨.hbm, 141, rfl⟩
abbrev main_v96 : Ref sig .tc := ⟨.hbm, 142, rfl⟩
abbrev main_v97 : Ref sig .tc := ⟨.hbm, 143, rfl⟩
abbrev main_c_32 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_33 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_34 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_c_35 : Ref sig .tc := ⟨.hbm, 162, rfl⟩
abbrev main_v113 : Ref sig .tc := ⟨.hbm, 163, rfl⟩
abbrev main_v114 : Ref sig .tc := ⟨.hbm, 164, rfl⟩
abbrev main_c_36 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_37 : Ref sig .tc := ⟨.hbm, 176, rfl⟩
abbrev main_v125 : Ref sig .tc := ⟨.hbm, 177, rfl⟩
abbrev main_v126 : Ref sig .tc := ⟨.hbm, 178, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S2x1_0 : S2.BroadcastsInDim S2x1 (![0] : Fin 1 → Fin S2x1.rank)
  bcast_S1048576x2_S1x1048576x2_1_2 : S1048576x2.BroadcastsInDim S1x1048576x2 (![1, 2] : Fin 2 → Fin S1x1048576x2.rank)
  concatenates_S1x1048576x2_S1x1048576x2_S1x1048576x2_S3x1048576x2_d0 : Shape.Concatenates [S1x1048576x2, S1x1048576x2, S1x1048576x2] S3x1048576x2 0
  slices_S3x1048576x2_S3x1048576x1_0_0_0 : S3x1048576x2.Slices ![0, 0, 0] S3x1048576x1
  shapeCasts_S3x1048576x1_S3x1048576 : S3x1048576x1.ShapeCasts S3x1048576
  bcast_S_S3x1048576 : S_.BroadcastsInDim S3x1048576 (![] : Fin 0 → Fin S3x1048576.rank)
  slices_S3x1048576x2_S3x1048576x1_0_0_1 : S3x1048576x2.Slices ![0, 0, 1] S3x1048576x1
  shapeCasts_S3x64x512x512_S3x64x262144 : S3x64x512x512.ShapeCasts S3x64x262144
  bcast_S3x1048576_S3x1048576x1_0_1 : S3x1048576.BroadcastsInDim S3x1048576x1 (![0, 1] : Fin 2 → Fin S3x1048576x1.rank)
  bcast_S3x1048576_S3x1x1048576_0_2 : S3x1048576.BroadcastsInDim S3x1x1048576 (![0, 2] : Fin 2 → Fin S3x1x1048576.rank)
  bcast_S3x1x1048576_S3x64x1048576_0_1_2 : S3x1x1048576.BroadcastsInDim S3x64x1048576 (![0, 1, 2] : Fin 3 → Fin S3x64x1048576.rank)
  reducesTo_S3x64x1048576_S64x1048576_d0 : S3x64x1048576.ReducesTo [0] S64x1048576
  h_S_ : 0 < S_.numel
  transposes_S64x1048576_S1048576x64_1_0 : S64x1048576.Transposes [1, 0] S1048576x64
  gather_S1048576x3_S2x1_S1048576x2_0_1_n_n_1_1_10485761_wf : GatherDims.WF S1048576x3 S2x1 S1048576x2 [0] [1] [] [1] [] 1 ![1048576, 1]
  gather_S3x64x262144_S3x1048576x1_S3x64x1048576_1_2_0_0_2_2_1641_wf : GatherDims.WF S3x64x262144 S3x1048576x1 S3x64x1048576 [1] [2] [0] [2] [0] 2 ![1, 64, 1]

variable [Facts₀]

def gather_S1048576x3_S2x1_S1048576x2_0_1_n_n_1_1_10485761 : GatherDims S1048576x3 S2x1 S1048576x2 where
  offsetDims := [0]
  collapsedSliceDims := [1]
  operandBatchingDims := []
  startIndicesBatchingDims := []
  startIndexMap := [1]
  indexVectorDim := 1
  sliceSizes := ![1048576, 1]
  wf := gather_S1048576x3_S2x1_S1048576x2_0_1_n_n_1_1_10485761_wf
def gather_S3x64x262144_S3x1048576x1_S3x64x1048576_1_2_0_0_2_2_1641 : GatherDims S3x64x262144 S3x1048576x1 S3x64x1048576 where
  offsetDims := [1]
  collapsedSliceDims := [2]
  operandBatchingDims := [0]
  startIndicesBatchingDims := [0]
  startIndexMap := [2]
  indexVectorDim := 2
  sliceSizes := ![1, 64, 1]
  wf := gather_S3x64x262144_S3x1048576x1_S3x64x1048576_1_2_0_0_2_2_1641_wf

class Facts : Prop extends Facts₀ where

variable [Facts]
-- ==== Proof.Spec.lean ====
/-
  Tri-plane bilinear sampling as a function of the two argument arrays, at the extended reals.

  A point `n` has three coordinates; plane `p` uses two of them (planes 0, 1, 2 use the pairs (0,1), (0,2), (1,2)).
  A coordinate `v` becomes a pixel coordinate in [0, 511] (`pixK`: (v + 1) · 255.5 clamped; `pixR`: ((v + 1) · 0.5) · 511
  clamped), which splits into its floor (`lo`, as a 32-bit word), the next pixel capped at 511 (`hi`) and the
  fractional part (`frac`).  One program contracts the coefficient plane with two one-hot weight vectors
  (`hot`, `planeK`: a sum over all 512 × 512 pixels in which at most four terms are non-zero); the other reads the four
  corner pixels and weights them (`planeR`).  The two agree on finite inputs (`outK_eq_outR`): the clamp makes the
  fractional part zero exactly where `lo = hi`, and the rest is distributivity over the reals.
-/
import Idealize.ShloMosaic.PureOps.Ideal
import Idealize.ShloMosaic.PureOps.Ideal.Laws
import Idealize.ShloMosaic.Lib.ValueIdx

noncomputable section

open scoped BigOperators

namespace Cert.TriPlane

open Idealize.ShloMosaic Idealize.ShloMosaic.ValueIdx

/-- The points array [1048576, 3], the coefficient array [3, 64, 512, 512] and the result [1048576, 64]. -/
abbrev SPts : Shape := ⟨2, ![1048576, 3]⟩
abbrev SCoef : Shape := ⟨4, ![3, 64, 512, 512]⟩
abbrev SOut : Shape := ⟨2, ![1048576, 64]⟩

/-- The float words the programs use, as the extended reals they denote: 0, 1, 0.5, 255.5, 511. -/
abbrev c0 : EReal := Ideal.ofBits .f32 0x00000000#32
abbrev c1 : EReal := Ideal.ofBits .f32 0x3F800000#32
abbrev cHalf : EReal := Ideal.ofBits .f32 0x3F000000#32
abbrev cMid : EReal := Ideal.ofBits .f32 0x437F8000#32
abbrev cMax : EReal := Ideal.ofBits .f32 0x43FF8000#32

/-- The pixel coordinate of a point coordinate, with ONE product by 255.5. -/
def pixK (v : EReal) : EReal := min cMax (max c0 ((v + c1) * cMid))

/-- The same with the product by 0.5 and then by 511, the upper bound being the integer 511 converted. -/
def pixR (v : EReal) : EReal :=
  min (((511#32 : BitVec 32).toInt : ℝ) : EReal) (max c0 (((v + c1) * cHalf) * cMax))

/-- The floor of a pixel coordinate, its fractional part, the floor as a word, and the next pixel capped at 511. -/
def fl (f : EReal) : EReal := Ideal.liftRound Int.floor f
def frac (f : EReal) : EReal := f - fl f
def lo (f : EReal) : BitVec 32 := Ideal.fptosi 32 (fl f)
def hi (f : EReal) : BitVec 32 := IntOp.minsi (IntOp.addi (lo f) 1#32) 511#32

/-- The weight pixel `k` gets from a pixel coordinate `f`: `1 - frac` at `lo`, else `frac` at `hi`, else 0. -/
def hot (f : EReal) (k : Fin 512) : EReal :=
  Scalar.select (IntOp.cmpi .eq (BitVec.ofNat 32 k.val) (lo f)) (c1 - frac f)
    (Scalar.select (IntOp.cmpi .eq (BitVec.ofNat 32 k.val) (hi f)) (frac f) c0)

/-- One plane by contraction: rows `y`, columns `x` of the plane `K` against the two weight vectors. -/
def planeK (K : ℕ → ℕ → EReal) (fx fy : EReal) : EReal :=
  ∑ y : Fin 512, (∑ x : Fin 512, K y.val x.val * hot fx x) * hot fy y

/-- One plane by its four corners. -/
def planeR (K : ℕ → ℕ → EReal) (fx fy : EReal) : EReal :=
  ((K (lo fy).toNat (lo fx).toNat * ((c1 - frac fx) * (c1 - frac fy))
      + K (lo fy).toNat (hi fx).toNat * (frac fx * (c1 - frac fy)))
    + K (hi fy).toNat (lo fx).toNat * ((c1 - frac fx) * frac fy))
  + K (hi fy).toNat (hi fx).toNat * (frac fx * frac fy)

/-- The flat pixel number `y · 512 + x` as the second program computes it, a negative one wrapped by 262144. -/
def flat (yy xx : BitVec 32) : BitVec 32 :=
  Scalar.select (IntOp.cmpi .slt (IntOp.addi (IntOp.muli yy 512#32) xx) 0#32)
    (IntOp.addi (IntOp.addi (IntOp.muli yy 512#32) xx) 262144#32)
    (IntOp.addi (IntOp.muli yy 512#32) xx)

/-- Plane `p`, channel `c` of the coefficient array as a function of a row and a column (zero outside 512 × 512). -/
def coefAt (coef : SCoef.Idx → EReal) (p : Fin 3) (c : Fin 64) (y x : ℕ) : EReal :=
  if h : y < 512 ∧ x < 512 then coef (ix4 p c ⟨y, h.1⟩ ⟨x, h.2⟩) else 0

/-- Which point coordinate is plane `p`'s column coordinate, and which its row coordinate. -/
def axA : Fin 3 → Fin 3 := ![0, 0, 1]
def axB : Fin 3 → Fin 3 := ![1, 2, 2]

/-- Point `n`, channel `c` by contraction, the three planes added in order onto zero. -/
def outK (pts : SPts.Idx → EReal) (coef : SCoef.Idx → EReal) (n : Fin 1048576) (c : Fin 64) : EReal :=
  ((c0 + planeK (coefAt coef 0 c) (pixK (pts (ix2 n (0 : Fin 3)))) (pixK (pts (ix2 n (1 : Fin 3)))))
      + planeK (coefAt coef 1 c) (pixK (pts (ix2 n (0 : Fin 3)))) (pixK (pts (ix2 n (2 : Fin 3)))))
    + planeK (coefAt coef 2 c) (pixK (pts (ix2 n (1 : Fin 3)))) (pixK (pts (ix2 n (2 : Fin 3))))

/-- Point `n`, channel `c` by corners, the three planes summed onto zero. -/
def outR (pts : SPts.Idx → EReal) (coef : SCoef.Idx → EReal) (n : Fin 1048576) (c : Fin 64) : EReal :=
  c0 + ∑ p : Fin 3, planeR (coefAt coef p c) (pixR (pts (ix2 n (axA p)))) (pixR (pts (ix2 n (axB p))))

/-- The result array. -/
def out (pts : SPts.Idx → EReal) (coef : SCoef.Idx → EReal) : SOut.Idx → EReal :=
  fun i => outK pts coef (i 0) (i 1)

/-! ## The float words as reals -/

theorem ofBits_c0 : Ideal.ofBits .f32 0x00000000#32 = 0 := by simp [Ideal.ofBits, Ideal.ieee]
theorem ofBits_c1 : Ideal.ofBits .f32 0x3F800000#32 = 1 := by
  simp [Ideal.ofBits, Ideal.ieee, -EReal.coe_mul]; norm_num
theorem ofBits_cHalf : Ideal.ofBits .f32 0x3F000000#32 = ((1 / 2 : ℝ) : EReal) := by
  simp [Ideal.ofBits, Ideal.ieee, -EReal.coe_mul]; norm_num
theorem ofBits_cMid : Ideal.ofBits .f32 0x437F8000#32 = ((255.5 : ℝ) : EReal) := by
  simp [Ideal.ofBits, Ideal.ieee, -EReal.coe_mul]; norm_num
theorem ofBits_cMax : Ideal.ofBits .f32 0x43FF8000#32 = ((511 : ℝ) : EReal) := by
  simp [Ideal.ofBits, Ideal.ieee, -EReal.coe_mul]; norm_num

theorem c0_eq : c0 = 0 := ofBits_c0
theorem c1_eq : c1 = 1 := ofBits_c1
theorem cHalf_eq : cHalf = ((1 / 2 : ℝ) : EReal) := ofBits_cHalf
theorem cMid_eq : cMid = ((255.5 : ℝ) : EReal) := ofBits_cMid
theorem cMax_eq : cMax = ((511 : ℝ) : EReal) := ofBits_cMax

theorem toInt_511 : (((511#32 : BitVec 32).toInt : ℝ) : EReal) = ((511 : ℝ) : EReal) := by
  simp [BitVec.toInt]

/-- The pixel coordinate written with the reals the words denote. -/
theorem pixK_def' (v : EReal) :
    pixK v = min ((511 : ℝ) : EReal) (max 0 ((v + 1) * ((255.5 : ℝ) : EReal))) := by
  show min cMax (max c0 ((v + c1) * cMid)) = _
  rw [c0_eq, c1_eq, cMid_eq, cMax_eq]

/-- Whatever the coordinate, infinite ones included, the pixel coordinate is a real in [0, 511]: the two clamps
    bound it on both sides. -/
theorem pixK_real (v : EReal) : ∃ r : ℝ, pixK v = (r : EReal) ∧ 0 ≤ r ∧ r ≤ 511 := by
  have h0 : (0 : EReal) ≤ pixK v := by
    rw [pixK_def']
    exact le_min (by exact_mod_cast (by norm_num : (0 : ℝ) ≤ 511)) (le_max_left _ _)
  have h1 : pixK v ≤ ((511 : ℝ) : EReal) := by
    rw [pixK_def']
    exact min_le_left _ _
  have hbot : pixK v ≠ ⊥ := fun h => by rw [h] at h0; exact absurd h0 (by simp)
  have htop : pixK v ≠ ⊤ := fun h => by rw [h] at h1; exact absurd h1 (by simp)
  refine ⟨(pixK v).toReal, (EReal.coe_toReal htop hbot).symm, ?_, ?_⟩
  · have := h0
    rw [← EReal.coe_toReal htop hbot] at this
    exact_mod_cast this
  · have := h1
    rw [← EReal.coe_toReal htop hbot] at this
    exact_mod_cast this

/-! ## Floor, cap and fractional part of a real pixel coordinate -/

/-- The floor of a real in [0, 511] as a word: no clamping happens. -/
theorem lo_coe (r : ℝ) (n : ℕ) (hn : ⌊r⌋ = (n : ℤ)) (hn511 : n ≤ 511) :
    lo ((r : EReal)) = BitVec.ofNat 32 n := by
  show Ideal.fptosi 32 (Ideal.liftRound Int.floor (r : EReal)) = _
  rw [Ideal.liftRound_coe, hn]
  unfold Ideal.fptosi
  rw [Ideal.toIntClamped_coe]
  have h0 : (0 : ℝ) ≤ (((n : ℤ)) : ℝ) := by exact_mod_cast Nat.zero_le n
  rw [if_pos h0, Int.floor_intCast]
  have h1 : min (((2 ^ (32 - 1) : ℕ) : ℤ) - 1) (n : ℤ) = (n : ℤ) := by
    apply min_eq_right; norm_num <;> omega
  have h2 : max (-((2 ^ (32 - 1) : ℕ) : ℤ)) (n : ℤ) = (n : ℤ) := by
    apply max_eq_right; norm_num <;> omega
  rw [h1, h2, BitVec.ofInt_natCast]

/-- The next pixel capped at 511, as a word. -/
theorem hi_of_lo (f : EReal) (n : ℕ) (hlo : lo f = BitVec.ofNat 32 n) (hn511 : n ≤ 511) :
    hi f = BitVec.ofNat 32 (min (n + 1) 511) := by
  unfold hi IntOp.minsi IntOp.addi
  rw [hlo]
  have hadd : BitVec.ofNat 32 n + 1#32 = BitVec.ofNat 32 (n + 1) := by
    rw [BitVec.ofNat_add]
  rw [hadd]
  have hslt : (BitVec.ofNat 32 (n + 1)).slt 511#32 = decide (n + 1 < 511) := by
    unfold BitVec.slt
    have e1 : (BitVec.ofNat 32 (n + 1)).toInt = ((n + 1 : ℕ) : ℤ) := by
      rw [BitVec.toInt_eq_toNat_of_lt]
      · simp only [BitVec.toNat_ofNat]; congr 1; omega
      · simp only [BitVec.toNat_ofNat]; omega
    have e2 : (511#32 : BitVec 32).toInt = 511 := by decide
    rw [e1, e2]
    congr 1
    apply propext
    constructor <;> intro h <;> omega
  rw [hslt]
  by_cases h : n + 1 < 511
  · rw [decide_eq_true h, if_pos rfl, min_eq_left (le_of_lt h)]
  · rw [decide_eq_false h, if_neg (by simp), min_eq_right (by omega)]

/-- Every pixel coordinate splits into a pixel number `n ≤ 511` and a fractional part `t ∈ [0, 1)`; the
    cap is reached only at the coordinate 511 itself, where the fractional part vanishes. -/
theorem pix_split (v : EReal) : ∃ (n : ℕ) (t : ℝ), n ≤ 511 ∧ 0 ≤ t ∧ t < 1 ∧ (n = 511 → t = 0) ∧
    lo (pixK v) = BitVec.ofNat 32 n ∧ hi (pixK v) = BitVec.ofNat 32 (min (n + 1) 511) ∧
    frac (pixK v) = (t : EReal) := by
  obtain ⟨r, hr, hr0, hr1⟩ := pixK_real v
  have hfl0 : 0 ≤ ⌊r⌋ := Int.floor_nonneg.mpr hr0
  have hfl1 : ⌊r⌋ ≤ 511 := by
    have : ((⌊r⌋ : ℤ) : ℝ) ≤ 511 := le_trans (Int.floor_le r) hr1
    exact_mod_cast this
  obtain ⟨n, hn⟩ := Int.eq_ofNat_of_zero_le hfl0
  have hn511 : n ≤ 511 := by omega
  have hlo : lo (pixK v) = BitVec.ofNat 32 n := by rw [hr]; exact lo_coe r n hn hn511
  refine ⟨n, Int.fract r, hn511, Int.fract_nonneg r, Int.fract_lt_one r, ?_, hlo, hi_of_lo _ n hlo hn511, ?_⟩
  · intro h
    have h511 : (511 : ℝ) ≤ r := by
      have := Int.floor_le r
      rw [hn, h] at this
      exact_mod_cast this
    have : r = 511 := le_antisymm hr1 h511
    rw [this]
    norm_num
  · rw [hr]
    show (r : EReal) - Ideal.liftRound Int.floor (r : EReal) = _
    rw [Ideal.liftRound_coe, ← EReal.coe_sub]
    rfl

theorem toNat_ofNat_lt (n : ℕ) (hn : n < 512) : (BitVec.ofNat 32 n).toNat = n := by
  simp only [BitVec.toNat_ofNat]; omega

/-! ## The one-hot weights and the sums they collapse -/

theorem select_cmpi_eq {α : Type} (a b : BitVec 32) (x y : α) :
    Scalar.select (IntOp.cmpi .eq a b) x y = if a = b then x else y := by
  unfold Scalar.select IntOp.cmpi
  by_cases h : a = b
  · simp [h]
  · have hb : (a == b) = false := beq_eq_false_iff_ne.mpr h
    rw [if_neg h]
    show (if BitVec.ofBool (a == b) = 1 then x else y) = y
    rw [hb]
    exact if_neg (by decide)

theorem ofNat_inj_lt (k n : ℕ) (hk : k < 512) (hn : n < 512) :
    BitVec.ofNat 32 k = BitVec.ofNat 32 n ↔ k = n := by
  constructor
  · intro h
    have := congrArg BitVec.toNat h
    rwa [toNat_ofNat_lt k hk, toNat_ofNat_lt n hn] at this
  · intro h; rw [h]

/-- The weight vector of a pixel coordinate with floor `n`, cap `m` and fractional part `t`. -/
theorem hot_eq (f : EReal) (n m : ℕ) (t : ℝ) (hn : n < 512) (hm : m < 512)
    (hlo : lo f = BitVec.ofNat 32 n) (hhi : hi f = BitVec.ofNat 32 m) (hfr : frac f = (t : EReal))
    (k : Fin 512) :
    hot f k = if k.val = n then ((1 - t : ℝ) : EReal) else if k.val = m then (t : EReal) else 0 := by
  unfold hot
  rw [select_cmpi_eq, select_cmpi_eq, hlo, hhi, hfr, c0_eq, c1_eq]
  simp only [ofNat_inj_lt k.val n k.isLt hn, ofNat_inj_lt k.val m k.isLt hm]
  rw [EReal.coe_sub, EReal.coe_one]

/-- A sum against a weight vector with at most two non-zero entries keeps those two terms; where the two places
    coincide the second weight is zero, so the formula is the same. -/
theorem sum_two (G : ℕ → EReal) (n m : ℕ) (hn : n < 512) (hm : m < 512) (a b : EReal) (hb : n = m → b = 0) :
    ∑ k : Fin 512, G k.val * (if k.val = n then a else if k.val = m then b else 0) = G n * a + G m * b := by
  by_cases h : n = m
  · subst h
    rw [hb rfl, mul_zero, add_zero, Fintype.sum_eq_single (⟨n, hn⟩ : Fin 512)]
    · simp
    · intro x hx
      have : x.val ≠ n := fun e => hx (Fin.ext e)
      simp [this]
  · rw [Fintype.sum_eq_add (⟨n, hn⟩ : Fin 512) ⟨m, hm⟩]
    · simp [Ne.symm h]
    · intro e; exact h (congrArg Fin.val e)
    · intro x hx
      have h1 : x.val ≠ n := fun e => hx.1 (Fin.ext e)
      have h2 : x.val ≠ m := fun e => hx.2 (Fin.ext e)
      simp [h1, h2]

/-- A plane of a finite coefficient array is finite everywhere (and zero outside the 512 × 512 pixels). -/
theorem coefAt_real (coef : SCoef.Idx → EReal) (hc : ∀ i, ∃ r : ℝ, coef i = (r : EReal)) (p : Fin 3) (c : Fin 64) :
    ∀ y x, ∃ r : ℝ, coefAt coef p c y x = (r : EReal) := by
  intro y x
  unfold coefAt
  split
  · exact hc _
  · exact ⟨0, rfl⟩

/-! ## What the two sides need of these -/

/-- The two pixel coordinates are one function: 0.5 · 511 = 255.5 and the converted 511 is 511. -/
theorem pixR_eq_pixK (v : EReal) : pixR v = pixK v := by
  rw [pixK_def']
  show min (((511#32 : BitVec 32).toInt : ℝ) : EReal) (max c0 (((v + c1) * cHalf) * cMax)) = _
  rw [toInt_511, c0_eq, c1_eq, cHalf_eq, cMax_eq, mul_assoc, ← EReal.coe_mul]
  norm_num

/-- A pixel coordinate's floor and its cap are pixels. -/
theorem lo_pixK_lt (v : EReal) : (lo (pixK v)).toNat < 512 := by
  obtain ⟨n, t, hn, -, -, -, hlo, -, -⟩ := pix_split v
  rw [hlo, toNat_ofNat_lt n (by omega)]; omega
theorem hi_pixK_lt (v : EReal) : (hi (pixK v)).toNat < 512 := by
  obtain ⟨n, t, hn, -, -, -, -, hhi, -⟩ := pix_split v
  rw [hhi, toNat_ofNat_lt _ (by omega)]; omega

/-- The flat number of a pixel is `y · 512 + x`, not negative. -/
theorem flat_toInt (yy xx : BitVec 32) (hy : yy.toNat < 512) (hx : xx.toNat < 512) :
    (flat yy xx).toInt = ((yy.toNat * 512 + xx.toNat : ℕ) : ℤ) := by
  have hs : (yy * 512#32 + xx).toNat = yy.toNat * 512 + xx.toNat := by
    rw [BitVec.toNat_add, BitVec.toNat_mul]
    have : (512#32 : BitVec 32).toNat = 512 := rfl
    rw [this]
    omega
  have hI : (yy * 512#32 + xx).toInt = ((yy.toNat * 512 + xx.toNat : ℕ) : ℤ) := by
    rw [BitVec.toInt_eq_toNat_of_lt (by rw [hs]; omega), hs]
  have hneg : (yy * 512#32 + xx).slt 0#32 = false := by
    unfold BitVec.slt
    rw [hI]
    have h0 : ¬ (((yy.toNat * 512 + xx.toNat : ℕ) : ℤ) < (0#32 : BitVec 32).toInt) := by
      rw [show (0#32 : BitVec 32).toInt = 0 from rfl]; omega
    exact decide_eq_false h0
  unfold flat IntOp.muli IntOp.addi
  rw [show IntOp.cmpi .slt (yy * 512#32 + xx) 0#32 = BitVec.ofBool ((yy * 512#32 + xx).slt 0#32) from rfl, hneg]
  unfold Scalar.select
  rw [if_neg (by decide)]
  exact hI

/-- On finite coefficients and for any pixel coordinates in range the contraction is the four corners. -/
theorem planeK_eq_planeR (K : ℕ → ℕ → EReal) (hK : ∀ y x, ∃ r : ℝ, K y x = (r : EReal)) (u v : EReal) :
    planeK K (pixK u) (pixK v) = planeR K (pixK u) (pixK v) := by
  obtain ⟨nx, tx, hnx, -, -, hex, hlox, hhix, hfx⟩ := pix_split u
  obtain ⟨ny, ty, hny, -, -, hey, hloy, hhiy, hfy⟩ := pix_split v
  have hnx' : nx < 512 := by omega
  have hny' : ny < 512 := by omega
  have hmx : min (nx + 1) 511 < 512 := by omega
  have hmy : min (ny + 1) 511 < 512 := by omega
  have hbx : nx = min (nx + 1) 511 → ((tx : ℝ) : EReal) = 0 := fun h => by
    rw [hex (by omega)]; rfl
  have hby : ny = min (ny + 1) 511 → ((ty : ℝ) : EReal) = 0 := fun h => by
    rw [hey (by omega)]; rfl
  have inner : ∀ y : ℕ, ∑ x : Fin 512, K y x.val * hot (pixK u) x
      = K y nx * ((1 - tx : ℝ) : EReal) + K y (min (nx + 1) 511) * (tx : EReal) := by
    intro y
    simp only [hot_eq (pixK u) nx _ tx hnx' hmx hlox hhix hfx]
    exact sum_two (K y) nx _ hnx' hmx _ _ hbx
  have outer : planeK K (pixK u) (pixK v)
      = (K ny nx * ((1 - tx : ℝ) : EReal) + K ny (min (nx + 1) 511) * (tx : EReal)) * ((1 - ty : ℝ) : EReal)
        + (K (min (ny + 1) 511) nx * ((1 - tx : ℝ) : EReal)
            + K (min (ny + 1) 511) (min (nx + 1) 511) * (tx : EReal)) * (ty : EReal) := by
    unfold planeK
    simp only [inner, hot_eq (pixK v) ny _ ty hny' hmy hloy hhiy hfy]
    exact sum_two (fun y => K y nx * ((1 - tx : ℝ) : EReal) + K y (min (nx + 1) 511) * (tx : EReal))
      ny _ hny' hmy _ _ hby
  rw [outer]
  unfold planeR
  rw [hlox, hhix, hloy, hhiy, hfx, hfy, c1_eq, toNat_ofNat_lt nx hnx', toNat_ofNat_lt ny hny',
    toNat_ofNat_lt _ hmx, toNat_ofNat_lt _ hmy]
  obtain ⟨k00, h00⟩ := hK ny nx
  obtain ⟨k01, h01⟩ := hK ny (min (nx + 1) 511)
  obtain ⟨k10, h10⟩ := hK (min (ny + 1) 511) nx
  obtain ⟨k11, h11⟩ := hK (min (ny + 1) 511) (min (nx + 1) 511)
  rw [h00, h01, h10, h11, ← EReal.coe_one, ← EReal.coe_sub, ← EReal.coe_sub]
  simp only [← EReal.coe_mul, ← EReal.coe_add]
  congr 1
  ring

/-- The two forms of the result agree on finite arrays. -/
theorem outK_eq_outR (pts : SPts.Idx → EReal) (coef : SCoef.Idx → EReal)
    (hc : ∀ i, ∃ r : ℝ, coef i = (r : EReal)) (n : Fin 1048576) (c : Fin 64) :
    outK pts coef n c = outR pts coef n c := by
  have e : ∀ p : Fin 3, planeR (coefAt coef p c) (pixR (pts (ix2 n (axA p)))) (pixR (pts (ix2 n (axB p))))
      = planeK (coefAt coef p c) (pixK (pts (ix2 n (axA p)))) (pixK (pts (ix2 n (axB p)))) := fun p => by
    rw [pixR_eq_pixK, pixR_eq_pixK, planeK_eq_planeR _ (coefAt_real coef hc p c)]
  have hA0 : axA 0 = 0 := rfl
  have hA1 : axA 1 = 0 := rfl
  have hA2 : axA 2 = 1 := rfl
  have hB0 : axB 0 = 1 := rfl
  have hB1 : axB 1 = 2 := rfl
  have hB2 : axB 2 = 2 := rfl
  unfold outK outR
  simp only [e]
  rw [Fin.sum_univ_three, hA0, hA1, hA2, hB0, hB1, hB2]
  simp only [add_assoc]

end Cert.TriPlane

end
-- ==== Proof.Finite.lean ====
/-
  The precondition, read: when the printed predicate "every entry of both arrays has absolute value below +inf" is
  all ones, every entry of the coefficient array is a real number.  The predicate is the `and` of two reductions by
  `and` over one-bit comparisons; a reduction by `and` that is 1 had a 1 at every index; and an extended real whose
  absolute value max x (-x) is below the top element is neither infinity.
-/
import proofs.«109239_j18605798326298_1_alg».proof.Defs
import proofs.«109239_j18605798326298_1_alg».proof.Proof.Gen.Pre_finite_inputs
import Idealize.ShloMosaic.PureOps.Ideal.Laws
import Idealize.ShloMosaic.Lib.ValueIdx
import Idealize.ShloMosaic.Lib.ReduceAll
import Idealize.ShloMosaic.Lib.Affine

noncomputable section

namespace Cert.Proof.Finite

open Idealize.ShloMosaic Idealize.ShloMosaic.ValueIdx Cert.Pre_finite_inputs

/-- The rank-0 shape has one index. -/
instance : Subsingleton S_.Idx := ⟨fun a b => funext fun d => d.elim0⟩

/-- The word 0x7F800000 is the top element. -/
theorem ofBits_inf : Ideal.ofBits .f32 0x7F800000#32 = (⊤ : EReal) := by
  simp [Ideal.ofBits, Ideal.ieee]

/-- An extended real whose absolute value compares below the top element is a real. -/
theorem real_of_abs_lt (x : EReal) (h : max x (-x) < (⊤ : EReal)) : ∃ r : ℝ, x = (r : EReal) := by
  induction x using EReal.rec with
  | bot => simp at h
  | coe r => exact ⟨r, rfl⟩
  | top => simp at h

/-- Under the precondition every entry of the second argument array is a real. -/
theorem coef_real (a0 : FVec Ideal S1048576x3 .f32) (a1 : FVec Ideal S3x64x512x512 .f32)
    (h : Cert.Pre_finite_inputs.fn (F := Ideal) a0 a1 = fun _ => 1#1) (i : S3x64x512x512.Idx) :
    ∃ r : ℝ, a1 i = (r : EReal) := by
  have h0 := congrFun h ix0
  dsimp only [Cert.Pre_finite_inputs.fn] at h0
  have h1 := (IntOp.andi_eq_one.1 h0).2
  have h2 := Host.reduce_andi_all _ _ _ _ _ h1 i
  have h3 : Ideal.cmp .olt (max (a1 i) (-(a1 i))) (Ideal.ofBits .f32 0x7F800000#32) = 1#1 := h2
  rw [ofBits_inf] at h3
  refine real_of_abs_lt _ ?_
  by_contra hc
  simp [Ideal.cmp, hc] at h3

end Cert.Proof.Finite

end
-- ==== Proof.KDefs.lean ====
/-
  One grid point of the contraction program: what an output block [8, 256] holds as a function of the point's three
  input blocks — the coefficient block [3, 8, 512, 512] (planes × channels of this block × rows × columns), the points
  block [256, 3] and the transposed points block [3, 256] — and the seven rectangles the body loads through.
-/
import proofs.«109239_j18605798326298_1_alg».proof.Proof.Gen.KernelIdeal.Skeleton
import proofs.«109239_j18605798326298_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

open scoped BigOperators

namespace Cert.KernelIdeal.TriK

open Idealize.ShloMosaic Idealize.ShloMosaic.TcCoe Idealize.SL.Sem Idealize.ShloMosaic.ValueIdx
open Cert.KernelIdeal Cert.KernelIdeal.Gen Cert.TriPlane

/-- The body's loads: columns 0 and 1 of the points block, rows 1 and 2 of the transposed points block, and the three
    planes of the coefficient block. -/
abbrev ptsCol0 : Rect S256x3 := Rect.unit (s := S256x3) ![0, 0] S256x1.size inb_S256x3_S256x1_0_0
abbrev ptsCol1 : Rect S256x3 := Rect.unit (s := S256x3) ![0, 1] S256x1.size inb_S256x3_S256x1_0_1
abbrev ptsRow1 : Rect S3x256 := Rect.unit (s := S3x256) ![1, 0] S1x256.size inb_S3x256_S1x256_1_0
abbrev ptsRow2 : Rect S3x256 := Rect.unit (s := S3x256) ![2, 0] S1x256.size inb_S3x256_S1x256_2_0
abbrev coefPl0 : Rect S3x8x512x512 :=
  Rect.unit (s := S3x8x512x512) ![0, 0, 0, 0] S1x8x512x512.size inb_S3x8x512x512_S1x8x512x512_0_0_0_0
abbrev coefPl1 : Rect S3x8x512x512 :=
  Rect.unit (s := S3x8x512x512) ![1, 0, 0, 0] S1x8x512x512.size inb_S3x8x512x512_S1x8x512x512_1_0_0_0
abbrev coefPl2 : Rect S3x8x512x512 :=
  Rect.unit (s := S3x8x512x512) ![2, 0, 0, 0] S1x8x512x512.size inb_S3x8x512x512_S1x8x512x512_2_0_0_0

/-- Plane `p`, channel `cb` of a coefficient block as a function of a row and a column (zero outside 512 × 512). -/
def slab (x0 : Vec Ideal S3x8x512x512 .bf16) (p : Fin 3) (cb : Fin 8) (y x : ℕ) : EReal :=
  if h : y < 512 ∧ x < 512 then x0 (ix4 p cb ⟨y, h.1⟩ ⟨x, h.2⟩) else 0

/-- Channel `cb`, point `j` of the block: the three planes' contractions added in order onto zero; a plane's column
    coordinate comes from the points block, its row coordinate from the transposed one. -/
def blockK (x0 : Vec Ideal S3x8x512x512 .bf16) (x1 : Vec Ideal S256x3 .f32) (x2 : Vec Ideal S3x256 .f32)
    (cb : Fin 8) (j : Fin 256) : EReal :=
  ((c0 + planeK (slab x0 0 cb) (pixK (x1 (ix2 j (0 : Fin 3)))) (pixK (x2 (ix2 (1 : Fin 3) j))))
      + planeK (slab x0 1 cb) (pixK (x1 (ix2 j (0 : Fin 3)))) (pixK (x2 (ix2 (2 : Fin 3) j))))
    + planeK (slab x0 2 cb) (pixK (x1 (ix2 j (1 : Fin 3)))) (pixK (x2 (ix2 (2 : Fin 3) j)))

end Cert.KernelIdeal.TriK

end
-- ==== Proof.KP0.lean ====
/-
  The first plane's contribution to an output block, read at one entry: zero plus the contraction of plane 0 of the
  coefficient block with the weights of point coordinates 0 (columns) and 1 (rows).
-/
import proofs.«109239_j18605798326298_1_alg».proof.Proof.Gen.KernelIdeal.Skeleton
import proofs.«109239_j18605798326298_1_alg».proof.Proof.Spec
import proofs.«109239_j18605798326298_1_alg».proof.Proof.KDefs
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

open scoped BigOperators

namespace Cert.KernelIdeal.TriK

open Idealize.ShloMosaic Idealize.ShloMosaic.TcCoe Idealize.SL.Sem Idealize.ShloMosaic.ValueIdx
open Cert.KernelIdeal Cert.KernelIdeal.Gen Cert.TriPlane

/-! Everything below down to the statement is local to this plane: it lives in its own namespace. -/
namespace P0

/-! ## The loads: a unit rectangle at a constant offset reads the block at offset + coordinate -/

/-- Column 0 of the points block at row `j`. -/
theorem ld_ptsCol0 (x1 : Vec Ideal S256x3 .f32) (j : Fin 256) :
    View.ld x1 ptsCol0 (ix2 j (0 : Fin 1)) = x1 (ix2 j (0 : Fin 3)) :=
  congrArg x1 (funext fun a => Fin.ext (by
    match a with
    | ⟨0, _⟩ => show 0 + 1 * j.val = j.val; omega
    | ⟨1, _⟩ => rfl))

/-- Row 1 of the transposed points block at column `j`. -/
theorem ld_ptsRow1 (x2 : Vec Ideal S3x256 .f32) (j : Fin 256) :
    View.ld x2 ptsRow1 (ix2 (0 : Fin 1) j) = x2 (ix2 (1 : Fin 3) j) :=
  congrArg x2 (funext fun a => Fin.ext (by
    match a with
    | ⟨0, _⟩ => rfl
    | ⟨1, _⟩ => show 0 + 1 * j.val = j.val; omega))

/-- Plane 0 of the coefficient block at channel `cb`, row `y`, column `x`. -/
theorem ld_coefPl0 (x0 : Vec Ideal S3x8x512x512 .bf16) (cb : Fin 8) (y x : Fin 512) :
    View.ld x0 coefPl0 (ix4 (0 : Fin 1) cb y x) = x0 (ix4 (0 : Fin 3) cb y x) :=
  congrArg x0 (funext fun a => Fin.ext (by
    match a with
    | ⟨0, _⟩ => rfl
    | ⟨1, _⟩ => show 0 + 1 * cb.val = cb.val; omega
    | ⟨2, _⟩ => show 0 + 1 * y.val = y.val; omega
    | ⟨3, _⟩ => show 0 + 1 * x.val = x.val; omega))

/-! ## The pixel coordinate, its fraction, its floor word and its capped successor, read at an index -/

theorem pay3_apply (v1 : Vec Ideal S256x1 .f32) (i : S256x1.Idx) : k0_pay3 v1 i = pixK (v1 i) := rfl

theorem pay4_apply (v2 : Vec Ideal S1x256 .f32) (i : S1x256.Idx) : k0_pay4 v2 i = pixK (v2 i) := by
  unfold k0_pay4
  rw [shapeCast_self]
  rfl

theorem pay7_apply (v1 : Vec Ideal S256x1 .f32) (i : S256x1.Idx) : k0_pay7 v1 i = frac (pixK (v1 i)) := rfl

theorem pay9_apply (v1 : Vec Ideal S256x1 .f32) (i : S256x1.Idx) : k0_pay9 v1 i = lo (pixK (v1 i)) := rfl

theorem pay11_apply (v1 : Vec Ideal S256x1 .f32) (i : S256x1.Idx) : k0_pay11 v1 i = hi (pixK (v1 i)) := rfl

theorem pay8_apply (v2 : Vec Ideal S1x256 .f32) (i : S1x256.Idx) : k0_pay8 v2 i = frac (pixK (v2 i)) := by
  show k0_pay4 v2 i - Ideal.liftRound Int.floor (k0_pay4 v2 i) = _
  rw [pay4_apply]; rfl

theorem pay10_apply (v2 : Vec Ideal S1x256 .f32) (i : S1x256.Idx) : k0_pay10 v2 i = lo (pixK (v2 i)) := by
  show Ideal.fptosi 32 (Ideal.liftRound Int.floor (k0_pay4 v2 i)) = _
  rw [pay4_apply]; rfl

theorem pay12_apply (v2 : Vec Ideal S1x256 .f32) (i : S1x256.Idx) : k0_pay12 v2 i = hi (pixK (v2 i)) := by
  show IntOp.minsi (IntOp.addi (k0_pay10 v2 i) 1#32) 511#32 = _
  rw [pay10_apply]; rfl

/-! ## Layout reads -/

section Layout
variable {α : Type}

/-- A column `[a, 1]` broadcast over `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` slab broadcast over `[a, b, c]` reads, at `(p, q, r)`, the slab at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- Row number `cb · 512 + y` of the 4096 rows. -/
abbrev rowOf (cb : Fin 8) (y : Fin 512) : Fin 4096 := ⟨cb.val * 512 + y.val, by omega⟩

/-- The channel and row axes of `[8, 512, 512]` merged: row `cb · 512 + y` is channel `cb`, row `y`. -/
theorem cast_merge_apply (v : S8x512x512.Idx → α) (cb : Fin 8) (y x : Fin 512) :
    shapeCast S4096x512 v shapeCasts_S8x512x512_S4096x512 (ix2 (rowOf cb y) x) = v (ix3 cb y x) :=
  shapeCast_apply v _ _ _ (by
    rw [Shape.rowMajor_val_three, Shape.rowMajor_val_two]
    rfl)

/-- The 4096 rows of `[4096, 256]` split back into channel and row. -/
theorem cast_split_apply (v : S4096x256.Idx → α) (cb : Fin 8) (y : Fin 512) (j : Fin 256) :
    shapeCast S8x512x256 v shapeCasts_S4096x256_S8x512x256 (ix3 cb y j) = v (ix2 (rowOf cb y) j) :=
  shapeCast_apply v _ _ _ (by
    rw [Shape.rowMajor_val_three, Shape.rowMajor_val_two]
    rfl)

end Layout

/-! ## The two iotas -/

theorem iota_cols_apply (x : Fin 512) :
    iota .tc S1x512 32 [1] iota_S1x512_d1_w32 (ix2 (0 : Fin 1) x) = BitVec.ofNat 32 x.val := by
  show BitVec.ofNat 32 (0 * 512 + x.val) = _
  rw [Nat.zero_mul, Nat.zero_add]

theorem iota_rows_apply (y : Fin 512) :
    iota .tc S512x1 32 [0] iota_S512x1_d0_w32 (ix2 y (0 : Fin 1)) = BitVec.ofNat 32 y.val := by
  show BitVec.ofNat 32 (0 * 512 + y.val) = _
  rw [Nat.zero_mul, Nat.zero_add]

/-! ## The weight matrices at an index -/

/-- The column weights `[256, 512]` as the payload builds them from its arguments. -/
def wX (v22 : FVec Ideal S256x1 .f32) (v29 : IVec S256x1 32) (v34 : IVec S1x512 32) (v38 : IVec S256x512 1)
    (v39 : FVec Ideal S256x1 .f32) : FVec Ideal S256x512 .bf16 :=
  truncf .bf16
    (select v38
      (broadcastTo S256x512 (shapeCast S256x1 (subf v39 v22) shapeCasts_S256x1_S256x1) broadcasts_S256x1_S256x512)
      (select (cmpi .eq (broadcastTo S256x512 v34 broadcasts_S1x512_S256x512) (broadcastTo S256x512 v29 broadcasts_S256x1_S256x512))
        (broadcastTo S256x512 (shapeCast S256x1 v22 shapeCasts_S256x1_S256x1) broadcasts_S256x1_S256x512)
        (broadcast S256x512 (Scalar.ofBits .f32 0x00000000#32))))
    bitsLt_bf16_f32

/-- The row weights `[512, 256]` as the payload builds them from its arguments. -/
def wY (v23 : FVec Ideal S1x256 .f32) (v25 : IVec S1x256 32) (v33 : IVec S1x256 32) (v35 : IVec S512x1 32) :
    FVec Ideal S512x256 .f32 :=
  select (cmpi .eq (broadcastTo S512x256 v35 broadcasts_S512x1_S512x256) (broadcastTo S512x256 v25 broadcasts_S1x256_S512x256))
    (broadcastTo S512x256
      (shapeCast S1x256 (subf (broadcast S1x256 (Scalar.ofBits .f32 0x3F800000#32)) v23) shapeCasts_S1x256_S1x256)
      broadcasts_S1x256_S512x256)
    (select (cmpi .eq (broadcastTo S512x256 v35 broadcasts_S512x1_S512x256) (broadcastTo S512x256 v33 broadcasts_S1x256_S512x256))
      (broadcastTo S512x256 (shapeCast S1x256 v23 shapeCasts_S1x256_S1x256) broadcasts_S1x256_S512x256)
      (broadcast S512x256 (Scalar.ofBits .f32 0x00000000#32)))

/-- The column weights at `(j, x)`: the mask picks `ones − frac`, else the comparison with the capped successor picks
    `frac`, else zero. -/
theorem wX_apply (v22 : FVec Ideal S256x1 .f32) (v29 : IVec S256x1 32) (v34 : IVec S1x512 32) (v38 : IVec S256x512 1)
    (v39 : FVec Ideal S256x1 .f32) (j : Fin 256) (x : Fin 512) :
    wX v22 v29 v34 v38 v39 (ix2 j x)
      = Scalar.select (v38 (ix2 j x)) (v39 (ix2 j (0 : Fin 1)) - v22 (ix2 j (0 : Fin 1)))
          (Scalar.select (IntOp.cmpi .eq (v34 (ix2 (0 : Fin 1) x)) (v29 (ix2 j (0 : Fin 1))))
            (v22 (ix2 j (0 : Fin 1))) c0) := by
  unfold wX
  rw [truncf_apply, select_apply, select_apply]
  rw [broadcastTo_a1_ab_apply, broadcastTo_a1_ab_apply, shapeCast_self, shapeCast_self]
  show Scalar.select _ _ (Scalar.select (IntOp.cmpi .eq
      (broadcastTo S256x512 v34 broadcasts_S1x512_S256x512 (ix2 j x))
      (broadcastTo S256x512 v29 broadcasts_S256x1_S256x512 (ix2 j x))) _ _) = _
  rw [broadcastTo_1b_ab_apply, broadcastTo_a1_ab_apply]
  rfl

/-- The row weights at `(y, j)`. -/
theorem wY_apply (v23 : FVec Ideal S1x256 .f32) (v25 : IVec S1x256 32) (v33 : IVec S1x256 32) (v35 : IVec S512x1 32)
    (y : Fin 512) (j : Fin 256) :
    wY v23 v25 v33 v35 (ix2 y j)
      = Scalar.select (IntOp.cmpi .eq (v35 (ix2 y (0 : Fin 1))) (v25 (ix2 (0 : Fin 1) j)))
          (c1 - v23 (ix2 (0 : Fin 1) j))
          (Scalar.select (IntOp.cmpi .eq (v35 (ix2 y (0 : Fin 1))) (v33 (ix2 (0 : Fin 1) j)))
            (v23 (ix2 (0 : Fin 1) j)) c0) := by
  unfold wY
  rw [select_apply, select_apply, shapeCast_self, shapeCast_self]
  show Scalar.select (IntOp.cmpi .eq
        (broadcastTo S512x256 v35 broadcasts_S512x1_S512x256 (ix2 y j))
        (broadcastTo S512x256 v25 broadcasts_S1x256_S512x256 (ix2 y j))) _
      (Scalar.select (IntOp.cmpi .eq
        (broadcastTo S512x256 v35 broadcasts_S512x1_S512x256 (ix2 y j))
        (broadcastTo S512x256 v33 broadcasts_S1x256_S512x256 (ix2 y j))) _ _) = _
  rw [broadcastTo_a1_ab_apply, broadcastTo_1b_ab_apply, broadcastTo_1b_ab_apply, broadcastTo_1b_ab_apply,
    broadcastTo_1b_ab_apply]
  rfl

/-! ## The contraction: the operand indices axis by axis, then the product at a row -/

theorem lhs_dot_0 (i : S4096x256.Idx) (q : dot_S4096x512_S256x512_S4096x256_1_1_0_0_n_n.contr.Idx) :
    (dot_S4096x512_S256x512_S4096x256_1_1_0_0_n_n.lhsIdx i q 0).val = (i 0).val := by
  unfold DotDims.lhsIdx
  rw [dif_neg (show ¬(0 : Fin S4096x512.rank) ∈ dot_S4096x512_S256x512_S4096x256_1_1_0_0_n_n.lhsBatch by decide),
    dif_pos (show (0 : Fin S4096x512.rank) ∈ dot_S4096x512_S256x512_S4096x256_1_1_0_0_n_n.lhsNonContracting by decide)]
  rfl

theorem lhs_dot_1 (i : S4096x256.Idx) (q : dot_S4096x512_S256x512_S4096x256_1_1_0_0_n_n.contr.Idx) :
    (dot_S4096x512_S256x512_S4096x256_1_1_0_0_n_n.lhsIdx i q 1).val = (q ⟨0, by decide⟩).val :=
  dot_S4096x512_S256x512_S4096x256_1_1_0_0_n_n.lhsIdx_val_of_single rfl i q

theorem rhs_dot_0 (i : S4096x256.Idx) (q : dot_S4096x512_S256x512_S4096x256_1_1_0_0_n_n.contr.Idx) :
    (dot_S4096x512_S256x512_S4096x256_1_1_0_0_n_n.rhsIdx i q 0).val = (i 1).val := by
  unfold DotDims.rhsIdx
  rw [dif_neg (show ¬(0 : Fin S256x512.rank) ∈ dot_S4096x512_S256x512_S4096x256_1_1_0_0_n_n.rhsBatch by decide),
    dif_pos (show (0 : Fin S256x512.rank) ∈ dot_S4096x512_S256x512_S4096x256_1_1_0_0_n_n.rhsNonContracting by decide)]
  rfl

theorem rhs_dot_1 (i : S4096x256.Idx) (q : dot_S4096x512_S256x512_S4096x256_1_1_0_0_n_n.contr.Idx) :
    (dot_S4096x512_S256x512_S4096x256_1_1_0_0_n_n.rhsIdx i q 1).val = (q ⟨0, by decide⟩).val :=
  dot_S4096x512_S256x512_S4096x256_1_1_0_0_n_n.rhsIdx_val_of_single rfl i q

/-- The product into a zero accumulator at `(r, j)`: row `r` of the left operand against row `j` of the right one,
    summed over the 512 columns. -/
theorem matmul_row_apply (A : FVec Ideal S4096x512 .bf16) (W : FVec Ideal S256x512 .bf16) (r : Fin 4096) (j : Fin 256) :
    matmul dot_S4096x512_S256x512_S4096x256_1_1_0_0_n_n none A W (constant (F := Ideal) S4096x256 .f32 0x00000000#32) (ix2 r j)
      = ∑ x : Fin 512, A (ix2 r x) * W (ix2 j x) := by
  simp only [matmul]
  rw [Ideal.matmul_constant_zero_apply,
    ← Equiv.sum_comp (contrEquiv1 dot_S4096x512_S256x512_S4096x256_1_1_0_0_n_n 512 rfl rfl).symm]
  refine Finset.sum_congr rfl fun k _ => ?_
  have hk := contrEquiv1_symm_val dot_S4096x512_S256x512_S4096x256_1_1_0_0_n_n 512 rfl rfl k
  have el : dot_S4096x512_S256x512_S4096x256_1_1_0_0_n_n.lhsIdx (ix2 r j) ((contrEquiv1 dot_S4096x512_S256x512_S4096x256_1_1_0_0_n_n 512 rfl rfl).symm k) = ix2 r k :=
    funext fun a => Fin.ext (by
      match a with
      | ⟨0, _⟩ => exact lhs_dot_0 _ _
      | ⟨1, _⟩ => exact (lhs_dot_1 _ _).trans hk)
  have er : dot_S4096x512_S256x512_S4096x256_1_1_0_0_n_n.rhsIdx (ix2 r j) ((contrEquiv1 dot_S4096x512_S256x512_S4096x256_1_1_0_0_n_n 512 rfl rfl).symm k) = ix2 j k :=
    funext fun a => Fin.ext (by
      match a with
      | ⟨0, _⟩ => exact rhs_dot_0 _ _
      | ⟨1, _⟩ => exact (rhs_dot_1 _ _).trans hk)
  rw [el, er]

/-! ## The payload over its arguments: zero-accumulated product, pointwise product with the row weights, row sum -/

/-- The payload is the accumulator plus the row sum of (plane × column weights) · row weights. -/
theorem pay15_eq (v0 : FVec Ideal S8x256 .f32) (v22 : FVec Ideal S256x1 .f32) (v23 : FVec Ideal S1x256 .f32)
    (v25 : IVec S1x256 32) (v29 : IVec S256x1 32) (v33 : IVec S1x256 32) (v34 : IVec S1x512 32) (v35 : IVec S512x1 32)
    (v38 : IVec S256x512 1) (v39 : FVec Ideal S256x1 .f32) (v67 : Vec Ideal S1x8x512x512 .bf16) :
    k0_pay15 (F := Ideal) v0 v22 v23 v25 v29 v33 v34 v35 v38 v39 v67
      = addf v0 (multiReduction (F := Ideal) .add [1] S8x256
          (mulf
            (shapeCast S8x512x256
              (matmul dot_S4096x512_S256x512_S4096x256_1_1_0_0_n_n none
                (shapeCast S4096x512
                  (shapeCast S8x512x512 v67 shapeCasts_S1x8x512x512_S8x512x512 : FVec Ideal S8x512x512 .bf16)
                  shapeCasts_S8x512x512_S4096x512 : FVec Ideal S4096x512 .bf16)
                (wX v22 v29 v34 v38 v39) (constant (F := Ideal) S4096x256 .f32 0x00000000#32))
              shapeCasts_S4096x256_S8x512x256)
            (broadcastTo S8x512x256 (shapeCast S1x512x256 (wY v23 v25 v33 v35) shapeCasts_S512x256_S1x512x256)
              broadcasts_S1x512x256_S8x512x256))
          0x00000000#32 reduces_S8x512x256_S8x256 (.inl rfl) rfl) := rfl

/-- The row sum at `(cb, j)`: the 512 rows `y` of channel `cb`, point `j`. -/
theorem rowsum_apply (T : FVec Ideal S8x512x256 .f32) (cb : Fin 8) (j : Fin 256) :
    multiReduction (F := Ideal) .add [1] S8x256 T 0x00000000#32 reduces_S8x512x256_S8x256 (.inl rfl) rfl (ix2 cb j)
      = ∑ y : Fin 512, T (ix3 cb y j) := by
  refine (Ideal.multiReduction_add_single T 0x00000000#32 reduces_S8x512x256_S8x256 (.inl rfl) rfl (ix2 cb j)).trans ?_
  show ∑ y : Fin 512, T (reduces_S8x512x256_S8x256.lift (ix2 cb j) y) = ∑ y : Fin 512, T (ix3 cb y j)
  refine Finset.sum_congr rfl fun y _ => congrArg T (funext fun a => Fin.ext ?_)
  match a with
  | ⟨0, _⟩ => rfl
  | ⟨1, _⟩ => rfl
  | ⟨2, _⟩ => rfl

/-- The payload at `(cb, j)`: the accumulator there plus, summed over the rows `y`, the contraction of row `y` of
    channel `cb` of the plane with the column weights of point `j`, times the row weight of `(y, j)`. -/
theorem pay15_apply (v0 : FVec Ideal S8x256 .f32) (v22 : FVec Ideal S256x1 .f32) (v23 : FVec Ideal S1x256 .f32)
    (v25 : IVec S1x256 32) (v29 : IVec S256x1 32) (v33 : IVec S1x256 32) (v34 : IVec S1x512 32) (v35 : IVec S512x1 32)
    (v38 : IVec S256x512 1) (v39 : FVec Ideal S256x1 .f32) (v67 : Vec Ideal S1x8x512x512 .bf16) (cb : Fin 8) (j : Fin 256) :
    k0_pay15 (F := Ideal) v0 v22 v23 v25 v29 v33 v34 v35 v38 v39 v67 (ix2 cb j)
      = v0 (ix2 cb j) + ∑ y : Fin 512,
          (∑ x : Fin 512, v67 (ix4 (0 : Fin 1) cb y x) * wX v22 v29 v34 v38 v39 (ix2 j x)) * wY v23 v25 v33 v35 (ix2 y j) := by
  rw [pay15_eq, addf_apply, rowsum_apply]
  refine congrArg (v0 (ix2 cb j) + ·) (Finset.sum_congr rfl fun y _ => ?_)
  rw [mulf_apply, cast_split_apply, matmul_row_apply, broadcastTo_1bc_abc_apply, shapeCast_ab_1ab_apply]
  refine congrArg (· * wY v23 v25 v33 v35 (ix2 y j)) (Finset.sum_congr rfl fun x _ => ?_)
  rw [cast_merge_apply, shapeCast_1abc_abc_apply]

/-! ## The weights at the arguments of the statement -/

/-- The mask "column = floor of the column pixel coordinate" at `(j, x)`. -/
theorem pay13_apply (v1 : Vec Ideal S256x1 .f32) (j : Fin 256) (x : Fin 512) :
    k0_pay13 v1 (ix2 j x) = IntOp.cmpi .eq (BitVec.ofNat 32 x.val) (lo (pixK (v1 (ix2 j (0 : Fin 1))))) := by
  show IntOp.cmpi .eq
      (broadcastTo S256x512 (iota .tc S1x512 32 [1] iota_S1x512_d1_w32) broadcasts_S1x512_S256x512 (ix2 j x))
      (broadcastTo S256x512 (k0_pay9 v1) broadcasts_S256x1_S256x512 (ix2 j x)) = _
  rw [broadcastTo_1b_ab_apply, broadcastTo_a1_ab_apply, iota_cols_apply, pay9_apply]

/-- The column weights of point `j` are the one-hot pair of the pixel coordinate of its coordinate 0. -/
theorem wX_args (x1 : Vec Ideal S256x3 .f32) (j : Fin 256) (x : Fin 512) :
    wX (k0_pay7 (View.ld x1 ptsCol0)) (k0_pay11 (View.ld x1 ptsCol0)) (iota .tc S1x512 32 [1] iota_S1x512_d1_w32)
        (k0_pay13 (View.ld x1 ptsCol0)) (k0_pay14 (F := Ideal)) (ix2 j x)
      = hot (pixK (x1 (ix2 j (0 : Fin 3)))) x := by
  rw [wX_apply, pay13_apply, pay7_apply, pay11_apply, iota_cols_apply, ld_ptsCol0]
  rfl

/-- The row weights of point `j` are the one-hot pair of the pixel coordinate of its coordinate 1. -/
theorem wY_args (x2 : Vec Ideal S3x256 .f32) (y : Fin 512) (j : Fin 256) :
    wY (k0_pay8 (View.ld x2 ptsRow1)) (k0_pay10 (View.ld x2 ptsRow1)) (k0_pay12 (View.ld x2 ptsRow1))
        (iota .tc S512x1 32 [0] iota_S512x1_d0_w32) (ix2 y j)
      = hot (pixK (x2 (ix2 (1 : Fin 3) j))) y := by
  rw [wY_apply, pay8_apply, pay10_apply, pay12_apply, iota_rows_apply, ld_ptsRow1]
  rfl

end P0

open P0

theorem plane0_apply (x0 : Vec Ideal S3x8x512x512 .bf16) (x1 : Vec Ideal S256x3 .f32) (x2 : Vec Ideal S3x256 .f32)
    (cb : Fin 8) (j : Fin 256) :
    k0_pay15 (F := Ideal) (k0_pay2 (F := Ideal)) (k0_pay7 (View.ld x1 ptsCol0)) (k0_pay8 (View.ld x2 ptsRow1))
        (k0_pay10 (View.ld x2 ptsRow1)) (k0_pay11 (View.ld x1 ptsCol0)) (k0_pay12 (View.ld x2 ptsRow1))
        (iota .tc S1x512 32 [1] iota_S1x512_d1_w32) (iota .tc S512x1 32 [0] iota_S512x1_d0_w32)
        (k0_pay13 (View.ld x1 ptsCol0)) (k0_pay14 (F := Ideal)) (View.ld x0 coefPl0) (ix2 cb j)
      = c0 + planeK (slab x0 0 cb) (pixK (x1 (ix2 j (0 : Fin 3)))) (pixK (x2 (ix2 (1 : Fin 3) j))) := by
  rw [pay15_apply]
  unfold planeK
  refine congrArg (c0 + ·) (Finset.sum_congr rfl fun y _ => ?_)
  rw [wY_args]
  refine congrArg (· * hot (pixK (x2 (ix2 (1 : Fin 3) j))) y) (Finset.sum_congr rfl fun x _ => ?_)
  rw [wX_args, ld_coefPl0]
  unfold slab
  rw [dif_pos ⟨y.isLt, x.isLt⟩]

end Cert.KernelIdeal.TriK

end
-- ==== Proof.KP1.lean ====
/-
  The second plane's contribution, read at one entry: what was accumulated so far plus the contraction of plane 1 of
  the coefficient block with the weights of point coordinates 0 (columns) and 2 (rows).
-/
import proofs.«109239_j18605798326298_1_alg».proof.Proof.Gen.KernelIdeal.Skeleton
import proofs.«109239_j18605798326298_1_alg».proof.Proof.Spec
import proofs.«109239_j18605798326298_1_alg».proof.Proof.KDefs
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

open scoped BigOperators

namespace Cert.KernelIdeal.TriK

open Idealize.ShloMosaic Idealize.ShloMosaic.TcCoe Idealize.SL.Sem Idealize.ShloMosaic.ValueIdx
open Cert.KernelIdeal Cert.KernelIdeal.Gen Cert.TriPlane

/-! The pieces of plane 1's contribution, each read at an index: the two weight vectors, the product with the coefficient plane on the matrix unit, and the sum over the rows. -/
namespace Plane1

/-! ## Layout reads at literal shapes -/

section Layout
variable {α : Type}

/-- A column [256, 1] spread over 512 columns reads, at (j, x), the column at j. -/
theorem spreadCol256_apply (v : S256x1.Idx → α) (h : S256x1.Broadcasts S256x512) (j : Fin 256) (x : Fin 512) :
    broadcastTo S256x512 v h (ix2 j x) = v (ix2 j (0 : Fin 1)) :=
  broadcastTo_apply v h (ix2 j x) (ix2 j (0 : Fin 1)) fun ax =>
    match ax with
    | ⟨0, _⟩ => rfl
    | ⟨1, _⟩ => rfl

/-- A column [512, 1] spread over 256 columns reads, at (y, j), the column at y. -/
theorem spreadCol512_apply (v : S512x1.Idx → α) (h : S512x1.Broadcasts S512x256) (y : Fin 512) (j : Fin 256) :
    broadcastTo S512x256 v h (ix2 y j) = v (ix2 y (0 : Fin 1)) :=
  broadcastTo_apply v h (ix2 y j) (ix2 y (0 : Fin 1)) fun ax =>
    match ax with
    | ⟨0, _⟩ => rfl
    | ⟨1, _⟩ => rfl

/-- One [512, 256] matrix repeated over 8 channels reads, at (cb, y, j), the matrix at (y, j). -/
theorem spreadChan_apply (v : S1x512x256.Idx → α) (h : S1x512x256.Broadcasts S8x512x256) (cb : Fin 8) (y : Fin 512)
    (j : Fin 256) : broadcastTo S8x512x256 v h (ix3 cb y j) = v (ix3 (0 : Fin 1) y j) :=
  broadcastTo_apply v h (ix3 cb y j) (ix3 (0 : Fin 1) y j) fun ax =>
    match ax with
    | ⟨0, _⟩ => rfl
    | ⟨1, _⟩ => rfl
    | ⟨2, _⟩ => rfl

/-- The stack [8, 512, 512] laid out as [4096, 512]: row cb · 512 + y is row y of channel cb. -/
theorem rows4096_apply (v : S8x512x512.Idx → α) (h : S8x512x512.ShapeCasts S4096x512) (cb : Fin 8) (y : Fin 512)
    (x : Fin 512) (r : Fin 4096) (hr : r.val = cb.val * 512 + y.val) :
    shapeCast S4096x512 v h (ix2 r x) = v (ix3 cb y x) :=
  shapeCast_apply v h (ix2 r x) (ix3 cb y x) (by
    rw [Shape.rowMajor_val_three, Shape.rowMajor_val_two]
    show (cb.val * 512 + y.val) * 512 + x.val = r.val * 512 + x.val
    rw [hr])

/-- The product [4096, 256] laid out as [8, 512, 256]: entry (cb, y, j) is row cb · 512 + y. -/
theorem chan8_apply (v : S4096x256.Idx → α) (h : S4096x256.ShapeCasts S8x512x256) (cb : Fin 8) (y : Fin 512)
    (j : Fin 256) (r : Fin 4096) (hr : r.val = cb.val * 512 + y.val) :
    shapeCast S8x512x256 v h (ix3 cb y j) = v (ix2 r j) :=
  shapeCast_apply v h (ix3 cb y j) (ix2 r j) (by
    rw [Shape.rowMajor_val_three, Shape.rowMajor_val_two]
    show r.val * 256 + j.val = (cb.val * 512 + y.val) * 256 + j.val
    rw [hr])

end Layout

/-! ## The product on the matrix unit, read at an entry -/

section Mxu

/-- The left operand's row is the result's row … -/
theorem dot_lhs_0 (i : S4096x256.Idx) (k : dot_S4096x512_S256x512_S4096x256_1_1_0_0_n_n.contr.Idx) :
    (dot_S4096x512_S256x512_S4096x256_1_1_0_0_n_n.lhsIdx i k (0 : Fin 2)).val = (i 0).val := by
  unfold DotDims.lhsIdx
  rw [dif_neg (show ¬(0 : Fin S4096x512.rank) ∈ dot_S4096x512_S256x512_S4096x256_1_1_0_0_n_n.lhsBatch by decide),
    dif_pos (show (0 : Fin S4096x512.rank) ∈ dot_S4096x512_S256x512_S4096x256_1_1_0_0_n_n.lhsNonContracting by decide)]
  rfl

/-- … its column the contraction coordinate; -/
theorem dot_lhs_1 (i : S4096x256.Idx) (k : dot_S4096x512_S256x512_S4096x256_1_1_0_0_n_n.contr.Idx) :
    (dot_S4096x512_S256x512_S4096x256_1_1_0_0_n_n.lhsIdx i k (1 : Fin 2)).val = (k ⟨0, Nat.one_pos⟩).val :=
  DotDims.lhsIdx_val_of_single (d := dot_S4096x512_S256x512_S4096x256_1_1_0_0_n_n) (cl := (1 : Fin 2)) rfl i k

/-- the right operand's row is the result's column … -/
theorem dot_rhs_0 (i : S4096x256.Idx) (k : dot_S4096x512_S256x512_S4096x256_1_1_0_0_n_n.contr.Idx) :
    (dot_S4096x512_S256x512_S4096x256_1_1_0_0_n_n.rhsIdx i k (0 : Fin 2)).val = (i 1).val := by
  unfold DotDims.rhsIdx
  rw [dif_neg (show ¬(0 : Fin S256x512.rank) ∈ dot_S4096x512_S256x512_S4096x256_1_1_0_0_n_n.rhsBatch by decide),
    dif_pos (show (0 : Fin S256x512.rank) ∈ dot_S4096x512_S256x512_S4096x256_1_1_0_0_n_n.rhsNonContracting by decide)]
  rfl

/-- … and its column the contraction coordinate. -/
theorem dot_rhs_1 (i : S4096x256.Idx) (k : dot_S4096x512_S256x512_S4096x256_1_1_0_0_n_n.contr.Idx) :
    (dot_S4096x512_S256x512_S4096x256_1_1_0_0_n_n.rhsIdx i k (1 : Fin 2)).val = (k ⟨0, Nat.one_pos⟩).val :=
  DotDims.rhsIdx_val_of_single (d := dot_S4096x512_S256x512_S4096x256_1_1_0_0_n_n) (cr := (1 : Fin 2)) rfl i k

/-- A [4096, 512] matrix times the transpose of a [256, 512] one, into zero: entry (r, j) is the sum over the 512
    columns of the products of row r of the first with row j of the second. -/
theorem mxu_apply (A : FVec Ideal S4096x512 .bf16) (B : FVec Ideal S256x512 .bf16) (r : Fin 4096) (j : Fin 256) :
    matmul dot_S4096x512_S256x512_S4096x256_1_1_0_0_n_n none A B (constant (F := Ideal) S4096x256 .f32 0x00000000#32)
        (ix2 r j)
      = ∑ x : Fin 512, A (ix2 r x) * B (ix2 j x) := by
  show FloatOps.matmul dot_S4096x512_S256x512_S4096x256_1_1_0_0_n_n none A B
      (constant (F := Ideal) S4096x256 .f32 0x00000000#32) (ix2 r j) = _
  rw [Ideal.matmul_constant_zero_apply,
    ← Equiv.sum_comp (contrEquiv1 dot_S4096x512_S256x512_S4096x256_1_1_0_0_n_n 512 rfl rfl).symm]
  refine Finset.sum_congr rfl fun x _ => ?_
  have hk := contrEquiv1_symm_val dot_S4096x512_S256x512_S4096x256_1_1_0_0_n_n 512 rfl rfl x
  have hl : dot_S4096x512_S256x512_S4096x256_1_1_0_0_n_n.lhsIdx (ix2 r j)
      ((contrEquiv1 dot_S4096x512_S256x512_S4096x256_1_1_0_0_n_n 512 rfl rfl).symm x) = ix2 r x := by
    funext ax; apply Fin.ext
    match ax with
    | ⟨0, _⟩ => exact dot_lhs_0 _ _
    | ⟨1, _⟩ => exact (dot_lhs_1 _ _).trans hk
  have hr : dot_S4096x512_S256x512_S4096x256_1_1_0_0_n_n.rhsIdx (ix2 r j)
      ((contrEquiv1 dot_S4096x512_S256x512_S4096x256_1_1_0_0_n_n 512 rfl rfl).symm x) = ix2 j x := by
    funext ax; apply Fin.ext
    match ax with
    | ⟨0, _⟩ => exact dot_rhs_0 _ _
    | ⟨1, _⟩ => exact (dot_rhs_1 _ _).trans hk
  rw [hl, hr]

end Mxu

/-! ## The row sum, and a select read argument by argument -/

/-- The sum over the row axis of an [8, 512, 256] array, read at (cb, j): the 512 entries (cb, y, j). -/
theorem rowSum_apply (v : FVec Ideal S8x512x256 .f32) (h : S8x512x256.Reduces [1] S8x256) (hφ : FKind.Formats .f32)
    (hacc : (0x00000000#32 : BitVec 32) = FKind.add.neutral .f32 hφ) (cb : Fin 8) (j : Fin 256) :
    multiReduction (F := Ideal) .add [1] S8x256 v 0x00000000#32 h hφ hacc (ix2 cb j)
      = ∑ y : Fin 512, v (ix3 cb y j) := by
  refine (Ideal.multiReduction_add_single v 0x00000000#32 h hφ hacc (ix2 cb j)).trans ?_
  refine Finset.sum_congr rfl fun y _ => congrArg v ?_
  funext ax; apply Fin.ext
  match ax with
  | ⟨0, _⟩ => rfl
  | ⟨1, _⟩ => rfl
  | ⟨2, _⟩ => rfl

/-- A select is determined by its condition and its two branches. -/
theorem select_congr {α : Type} {c c' : BitVec 1} {a a' b b' : α} (hc : c = c') (ha : a = a') (hb : b = b') :
    Scalar.select c a b = Scalar.select c' a' b' := by
  subst hc ha hb; rfl

/-! ## One plane's step over arbitrary operands -/

/-- The step read at (cb, j): the accumulator there, plus the sum over the rows y of (the sum over the columns x of
    the plane's entry (cb, y, x) times the column weight (j, x)) times the row weight at (y, j), the latter being the
    select chain over the row masks. -/
theorem step_apply (v76 : FVec Ideal S8x256 .f32) (v99 : FVec Ideal S1x256 .f32) (v109 : IVec S1x256 32)
    (v111 : IVec S512x1 32) (v126 : FVec Ideal S256x512 .f32) (v129 : IVec S512x256 1) (v131 : FVec Ideal S1x256 .f32)
    (v143 : Vec Ideal S1x8x512x512 .bf16) (cb : Fin 8) (j : Fin 256) :
    k0_pay26 (F := Ideal) v76 v99 v109 v111 v126 v129 v131 v143 (ix2 cb j)
      = v76 (ix2 cb j) + ∑ y : Fin 512, (∑ x : Fin 512, v143 (ix4 (0 : Fin 1) cb y x) * v126 (ix2 j x))
          * Scalar.select (v129 (ix2 y j)) (v131 (ix2 (0 : Fin 1) j))
              (Scalar.select (IntOp.cmpi .eq (v111 (ix2 y (0 : Fin 1))) (v109 (ix2 (0 : Fin 1) j)))
                (v99 (ix2 (0 : Fin 1) j)) (Ideal.ofBits .f32 0x00000000#32)) := by
  unfold k0_pay26
  refine (addf_apply _ _ _).trans (congrArg (v76 (ix2 cb j) + ·) ?_)
  refine (rowSum_apply _ _ _ _ cb j).trans ?_
  refine Finset.sum_congr rfl fun y _ => ?_
  refine (mulf_apply _ _ _).trans (congrArg₂ (· * ·) ?_ ?_)
  · refine (chan8_apply _ _ cb y j ⟨cb.val * 512 + y.val, by omega⟩ rfl).trans ?_
    refine (mxu_apply _ _ _ j).trans ?_
    refine Finset.sum_congr rfl fun x _ => congrArg₂ (· * ·) ?_ rfl
    refine (rows4096_apply _ _ cb y x _ rfl).trans ?_
    exact shapeCast_1abc_abc_apply _ _ cb y x
  · refine (spreadChan_apply _ _ cb y j).trans ?_
    refine (shapeCast_ab_1ab_apply _ _ (0 : Fin 1) y j).trans ?_
    refine (select_apply _ _ _ _).trans (select_congr rfl ?_ ?_)
    · refine (broadcastTo_1b_ab_apply _ _ y j).trans ?_
      exact congrFun (shapeCast_self v131 _) _
    · refine (select_apply _ _ _ _).trans (select_congr ?_ ?_ rfl)
      · refine congrArg₂ (IntOp.cmpi .eq) ?_ ?_
        · exact spreadCol512_apply _ _ y j
        · exact broadcastTo_1b_ab_apply _ _ y j
      · refine (broadcastTo_1b_ab_apply _ _ y j).trans ?_
        exact congrFun (shapeCast_self v99 _) _

/-! ## The loads -/

/-- Column 0 of the points block at (j, 0) is the block's entry (j, 0). -/
theorem ldCol0_apply (x1 : Vec Ideal S256x3 .f32) (j : Fin 256) :
    View.ld x1 ptsCol0 (ix2 j (0 : Fin 1)) = x1 (ix2 j (0 : Fin 3)) := by
  refine congrArg x1 ?_
  funext ax; apply Fin.ext
  match ax with
  | ⟨0, _⟩ => show 0 + 1 * j.val = j.val; omega
  | ⟨1, _⟩ => rfl

/-- Row 2 of the transposed points block at (0, j) is the block's entry (2, j). -/
theorem ldRow2_apply (x2 : Vec Ideal S3x256 .f32) (j : Fin 256) :
    View.ld x2 ptsRow2 (ix2 (0 : Fin 1) j) = x2 (ix2 (2 : Fin 3) j) := by
  refine congrArg x2 ?_
  funext ax; apply Fin.ext
  match ax with
  | ⟨0, _⟩ => rfl
  | ⟨1, _⟩ => show 0 + 1 * j.val = j.val; omega

/-- Plane 1 of the coefficient block at (0, cb, y, x) is the block's entry (1, cb, y, x), which is what the slab reads. -/
theorem ldPl1_apply (x0 : Vec Ideal S3x8x512x512 .bf16) (cb : Fin 8) (y x : Fin 512) :
    View.ld x0 coefPl1 (ix4 (0 : Fin 1) cb y x) = slab x0 1 cb y.val x.val := by
  have hs : slab x0 1 cb y.val x.val = x0 (ix4 (1 : Fin 3) cb y x) := by
    unfold slab; exact dif_pos ⟨y.isLt, x.isLt⟩
  rw [hs]
  refine congrArg x0 ?_
  funext ax; apply Fin.ext
  match ax with
  | ⟨0, _⟩ => rfl
  | ⟨1, _⟩ => show 0 + 1 * cb.val = cb.val; omega
  | ⟨2, _⟩ => show 0 + 1 * y.val = y.val; omega
  | ⟨3, _⟩ => show 0 + 1 * x.val = x.val; omega

/-! ## The weights -/

/-- The column iota at (0, x) is the word x; the row iota at (y, 0) is the word y. -/
theorem colIota_apply (x : Fin 512) :
    iota .tc S1x512 32 [1] iota_S1x512_d1_w32 (ix2 (0 : Fin 1) x) = BitVec.ofNat 32 x.val :=
  iota_single_apply .tc S1x512 32 (1 : Fin 2) iota_S1x512_d1_w32 (ix2 (0 : Fin 1) x)
theorem rowIota_apply (y : Fin 512) :
    iota .tc S512x1 32 [0] iota_S512x1_d0_w32 (ix2 y (0 : Fin 1)) = BitVec.ofNat 32 y.val :=
  iota_single_apply .tc S512x1 32 (0 : Fin 2) iota_S512x1_d0_w32 (ix2 y (0 : Fin 1))

/-- The column weights at (j, x): the weight pixel x gets from the pixel coordinate of the column coordinate of
    point j. -/
theorem colWeight_apply (v77 : Vec Ideal S256x1 .f32) (j : Fin 256) (x : Fin 512) :
    k0_pay23 (F := Ideal) (k0_pay17 v77) (Scalar.ofBits .f32 0x00000000#32) (ix2 j x)
      = hot (pixK (v77 (ix2 j (0 : Fin 1)))) x := by
  unfold k0_pay23 k0_pay17 hot
  refine (select_apply _ _ _ _).trans (select_congr ?_ ?_ ?_)
  · refine congrArg₂ (IntOp.cmpi .eq) ?_ ?_
    · exact (broadcastTo_1b_ab_apply _ _ j x).trans (colIota_apply x)
    · refine (spreadCol256_apply _ _ j x).trans ?_
      rfl
  · refine (spreadCol256_apply _ _ j x).trans ?_
    refine (congrFun (shapeCast_self _ _) _).trans ?_
    rfl
  · refine (select_apply _ _ _ _).trans (select_congr ?_ ?_ rfl)
    · refine congrArg₂ (IntOp.cmpi .eq) ?_ ?_
      · exact (broadcastTo_1b_ab_apply _ _ j x).trans (colIota_apply x)
      · refine (spreadCol256_apply _ _ j x).trans ?_
        rfl
    · refine (spreadCol256_apply _ _ j x).trans ?_
      refine (congrFun (shapeCast_self _ _) _).trans ?_
      rfl

/-- The row mask at (y, j): is y the floor of the pixel coordinate of the row coordinate of point j. -/
theorem rowMask_apply (v79 : FVec Ideal S1x256 .f32) (y : Fin 512) (j : Fin 256) :
    k0_pay24 (F := Ideal) v79 (ix2 y j)
      = IntOp.cmpi .eq (BitVec.ofNat 32 y.val) (lo (pixK (v79 (ix2 (0 : Fin 1) j)))) := by
  unfold k0_pay24
  refine congrArg₂ (IntOp.cmpi .eq) ?_ ?_
  · exact (spreadCol512_apply _ _ y j).trans (rowIota_apply y)
  · refine (broadcastTo_1b_ab_apply _ _ y j).trans ?_
    rfl

/-- The row's fractional part, its complement and its capped next pixel at (0, j). -/
theorem rowFrac_apply (v79 : FVec Ideal S1x256 .f32) (j : Fin 256) :
    k0_pay20 (F := Ideal) v79 (ix2 (0 : Fin 1) j) = frac (pixK (v79 (ix2 (0 : Fin 1) j))) := rfl
theorem rowCofrac_apply (v79 : FVec Ideal S1x256 .f32) (j : Fin 256) :
    k0_pay25 (F := Ideal) v79 (ix2 (0 : Fin 1) j) = c1 - frac (pixK (v79 (ix2 (0 : Fin 1) j))) := rfl
theorem rowHi_apply (v79 : FVec Ideal S1x256 .f32) (j : Fin 256) :
    k0_pay22 (F := Ideal) v79 (ix2 (0 : Fin 1) j) = hi (pixK (v79 (ix2 (0 : Fin 1) j))) := rfl

/-- The row coordinate after its cast to the same shape is row 2 of the transposed points block. -/
theorem rowCoord_apply (x2 : Vec Ideal S3x256 .f32) (j : Fin 256) :
    k0_pay16 (F := Ideal) (View.ld x2 ptsRow2) (ix2 (0 : Fin 1) j) = x2 (ix2 (2 : Fin 3) j) := by
  unfold k0_pay16
  exact (congrFun (shapeCast_self _ _) _).trans (ldRow2_apply x2 j)

end Plane1

open Plane1

/-! ## The statement -/

theorem plane1_apply (acc : FVec Ideal S8x256 .f32) (x0 : Vec Ideal S3x8x512x512 .bf16) (x1 : Vec Ideal S256x3 .f32)
    (x2 : Vec Ideal S3x256 .f32) (cb : Fin 8) (j : Fin 256) :
    k0_pay26 (F := Ideal) acc (k0_pay20 (k0_pay16 (View.ld x2 ptsRow2))) (k0_pay22 (k0_pay16 (View.ld x2 ptsRow2)))
        (iota .tc S512x1 32 [0] iota_S512x1_d0_w32)
        (k0_pay23 (k0_pay17 (View.ld x1 ptsCol0)) (Scalar.ofBits .f32 0x00000000#32))
        (k0_pay24 (k0_pay16 (View.ld x2 ptsRow2))) (k0_pay25 (k0_pay16 (View.ld x2 ptsRow2))) (View.ld x0 coefPl1) (ix2 cb j)
      = acc (ix2 cb j) + planeK (slab x0 1 cb) (pixK (x1 (ix2 j (0 : Fin 3)))) (pixK (x2 (ix2 (2 : Fin 3) j))) := by
  refine (step_apply _ _ _ _ _ _ _ _ cb j).trans (congrArg (acc (ix2 cb j) + ·) ?_)
  unfold planeK
  refine Finset.sum_congr rfl fun y _ => congrArg₂ (· * ·) (Finset.sum_congr rfl fun x _ => congrArg₂ (· * ·) ?_ ?_) ?_
  · exact ldPl1_apply x0 cb y x
  · refine (colWeight_apply _ j x).trans ?_
    exact congrArg (fun v => hot (pixK v) x) (ldCol0_apply x1 j)
  · have hv := rowCoord_apply x2 j
    unfold hot
    refine select_congr ?_ ?_ (select_congr ?_ ?_ rfl)
    · exact (rowMask_apply _ y j).trans (congrArg (fun v => IntOp.cmpi .eq (BitVec.ofNat 32 y.val) (lo (pixK v))) hv)
    · exact (rowCofrac_apply _ j).trans (congrArg (fun v => c1 - frac (pixK v)) hv)
    · refine congrArg₂ (IntOp.cmpi .eq) (rowIota_apply y) ?_
      exact (rowHi_apply _ j).trans (congrArg (fun v => hi (pixK v)) hv)
    · exact (rowFrac_apply _ j).trans (congrArg (fun v => frac (pixK v)) hv)

end Cert.KernelIdeal.TriK

end
-- ==== Proof.KP2.lean ====
/-
  The third plane's contribution, read at one entry: what was accumulated so far plus the contraction of plane 2 of
  the coefficient block with the weights of point coordinates 1 (columns) and 2 (rows).
-/
import proofs.«109239_j18605798326298_1_alg».proof.Proof.Gen.KernelIdeal.Skeleton
import proofs.«109239_j18605798326298_1_alg».proof.Proof.Spec
import proofs.«109239_j18605798326298_1_alg».proof.Proof.KDefs
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

open scoped BigOperators

namespace Cert.KernelIdeal.TriK

open Idealize.ShloMosaic Idealize.ShloMosaic.TcCoe Idealize.SL.Sem Idealize.ShloMosaic.ValueIdx
open Cert.KernelIdeal Cert.KernelIdeal.Gen Cert.TriPlane

namespace Plane2

/-! ## The contraction: the product's operand indices, axis by axis -/

/-- The row of the left operand is the row of the result. -/
theorem mmL_0 (i : S4096x256.Idx) (q : dot_S4096x512_S256x512_S4096x256_1_1_0_0_n_n.contr.Idx) :
    (dot_S4096x512_S256x512_S4096x256_1_1_0_0_n_n.lhsIdx i q 0).val = (i 0).val := by
  unfold DotDims.lhsIdx
  rw [dif_neg (show ¬(0 : Fin S4096x512.rank) ∈ dot_S4096x512_S256x512_S4096x256_1_1_0_0_n_n.lhsBatch by decide),
    dif_pos (show (0 : Fin S4096x512.rank) ∈ dot_S4096x512_S256x512_S4096x256_1_1_0_0_n_n.lhsNonContracting by decide)]
  rfl

/-- The column of the left operand is the contracted coordinate. -/
theorem mmL_1 (i : S4096x256.Idx) (q : dot_S4096x512_S256x512_S4096x256_1_1_0_0_n_n.contr.Idx) :
    (dot_S4096x512_S256x512_S4096x256_1_1_0_0_n_n.lhsIdx i q 1).val = (q ⟨0, by decide⟩).val :=
  dot_S4096x512_S256x512_S4096x256_1_1_0_0_n_n.lhsIdx_val_of_single rfl i q

/-- The row of the right operand is the column of the result. -/
theorem mmR_0 (i : S4096x256.Idx) (q : dot_S4096x512_S256x512_S4096x256_1_1_0_0_n_n.contr.Idx) :
    (dot_S4096x512_S256x512_S4096x256_1_1_0_0_n_n.rhsIdx i q 0).val = (i 1).val := by
  unfold DotDims.rhsIdx
  rw [dif_neg (show ¬(0 : Fin S256x512.rank) ∈ dot_S4096x512_S256x512_S4096x256_1_1_0_0_n_n.rhsBatch by decide),
    dif_pos (show (0 : Fin S256x512.rank) ∈ dot_S4096x512_S256x512_S4096x256_1_1_0_0_n_n.rhsNonContracting by decide)]
  rfl

/-- The column of the right operand is the contracted coordinate. -/
theorem mmR_1 (i : S4096x256.Idx) (q : dot_S4096x512_S256x512_S4096x256_1_1_0_0_n_n.contr.Idx) :
    (dot_S4096x512_S256x512_S4096x256_1_1_0_0_n_n.rhsIdx i q 1).val = (q ⟨0, by decide⟩).val :=
  dot_S4096x512_S256x512_S4096x256_1_1_0_0_n_n.rhsIdx_val_of_single rfl i q

/-- The product into a zero accumulator, read at row `r` and column `j`: the sum over the 512 contracted columns. -/
theorem mm_apply (A : FVec Ideal S4096x512 .bf16) (B : FVec Ideal S256x512 .bf16) (r : Fin 4096) (j : Fin 256) :
    matmul (F := Ideal) dot_S4096x512_S256x512_S4096x256_1_1_0_0_n_n none A B
        (constant (F := Ideal) S4096x256 .f32 0x00000000#32) (ix2 r j)
      = ∑ x : Fin 512, A (ix2 r x) * B (ix2 j x) := by
  show FloatOps.matmul dot_S4096x512_S256x512_S4096x256_1_1_0_0_n_n none A B
        (constant (F := Ideal) S4096x256 .f32 0x00000000#32) (ix2 r j) = _
  rw [Ideal.matmul_constant_zero_apply,
    ← Equiv.sum_comp (contrEquiv1 dot_S4096x512_S256x512_S4096x256_1_1_0_0_n_n 512 rfl rfl).symm]
  refine Finset.sum_congr rfl fun x _ => ?_
  have hk := contrEquiv1_symm_val dot_S4096x512_S256x512_S4096x256_1_1_0_0_n_n 512 rfl rfl x
  have el : dot_S4096x512_S256x512_S4096x256_1_1_0_0_n_n.lhsIdx (ix2 r j)
      ((contrEquiv1 dot_S4096x512_S256x512_S4096x256_1_1_0_0_n_n 512 rfl rfl).symm x) = ix2 r x :=
    funext fun a => Fin.ext (by
      match a with
      | ⟨0, _⟩ => exact mmL_0 _ _
      | ⟨1, _⟩ => exact (mmL_1 _ _).trans hk)
  have er : dot_S4096x512_S256x512_S4096x256_1_1_0_0_n_n.rhsIdx (ix2 r j)
      ((contrEquiv1 dot_S4096x512_S256x512_S4096x256_1_1_0_0_n_n 512 rfl rfl).symm x) = ix2 j x :=
    funext fun a => Fin.ext (by
      match a with
      | ⟨0, _⟩ => exact mmR_0 _ _
      | ⟨1, _⟩ => exact (mmR_1 _ _).trans hk)
  rw [el, er]

/-- The sum over the row axis of a [8, 512, 256] array, read at channel `cb` and point `j`. -/
theorem rowSum_apply (src : FVec Ideal S8x512x256 .f32) (cb : Fin 8) (j : Fin 256) :
    multiReduction (F := Ideal) .add [1] S8x256 src 0x00000000#32 reduces_S8x512x256_S8x256 (.inl rfl) rfl (ix2 cb j)
      = ∑ y : Fin 512, src (ix3 cb y j) := by
  refine (Ideal.multiReduction_add_single src 0x00000000#32 reduces_S8x512x256_S8x256 (.inl rfl) rfl (ix2 cb j)).trans ?_
  refine Finset.sum_congr rfl fun y _ => congrArg src ?_
  funext a
  match a with
  | ⟨0, _⟩ => rfl
  | ⟨1, _⟩ => rfl
  | ⟨2, _⟩ => rfl

/-- One plane's contraction at abstract operands: the accumulator plus, over the rows, the product of the plane with
    the column weights, times the row weight. -/
theorem pay1_apply (acc : FVec Ideal S8x256 .f32) (WY : FVec Ideal S512x256 .f32) (WXb : FVec Ideal S256x512 .bf16)
    (coefp : FVec Ideal S8x512x512 .bf16) (cb : Fin 8) (j : Fin 256) :
    k0_pay1 (F := Ideal) acc WY WXb coefp (ix2 cb j)
      = acc (ix2 cb j) + ∑ y : Fin 512, (∑ x : Fin 512, coefp (ix3 cb y x) * WXb (ix2 j x)) * WY (ix2 y j) := by
  unfold k0_pay1
  refine (addf_apply _ _ _).trans ?_
  refine congrArg (acc (ix2 cb j) + ·) ?_
  refine (rowSum_apply _ cb j).trans ?_
  refine Finset.sum_congr rfl fun y _ => ?_
  refine (mulf_apply _ _ _).trans ?_
  have hrow : cb.val * 512 + y.val < 4096 := by have := cb.isLt; have := y.isLt; omega
  have e1 : shapeCast S8x512x256
        (matmul (F := Ideal) dot_S4096x512_S256x512_S4096x256_1_1_0_0_n_n none
          (shapeCast S4096x512 coefp shapeCasts_S8x512x512_S4096x512) WXb
          (constant (F := Ideal) S4096x256 .f32 0x00000000#32)) shapeCasts_S4096x256_S8x512x256 (ix3 cb y j)
      = ∑ x : Fin 512, coefp (ix3 cb y x) * WXb (ix2 j x) := by
    refine (shapeCast_apply _ shapeCasts_S4096x256_S8x512x256 (ix3 cb y j) (ix2 (⟨cb.val * 512 + y.val, hrow⟩ : Fin 4096) j) (by
      rw [Shape.rowMajor_val_two, Shape.rowMajor_val_three]
      show (cb.val * 512 + y.val) * 256 + j.val = (cb.val * 512 + y.val) * 256 + j.val
      rfl)).trans ?_
    refine (mm_apply _ _ _ _).trans ?_
    refine Finset.sum_congr rfl fun x _ => ?_
    refine congrArg (· * WXb (ix2 j x)) ?_
    exact shapeCast_apply coefp shapeCasts_S8x512x512_S4096x512 (ix2 (⟨cb.val * 512 + y.val, hrow⟩ : Fin 4096) x) (ix3 cb y x) (by
      rw [Shape.rowMajor_val_two, Shape.rowMajor_val_three]
      show (cb.val * 512 + y.val) * 512 + x.val = (cb.val * 512 + y.val) * 512 + x.val
      rfl)
  have e2 : broadcastTo S8x512x256 (shapeCast S1x512x256 WY shapeCasts_S512x256_S1x512x256)
        broadcasts_S1x512x256_S8x512x256 (ix3 cb y j) = WY (ix2 y j) := by
    refine (broadcastTo_apply _ broadcasts_S1x512x256_S8x512x256 (ix3 cb y j) (ix3 (0 : Fin 1) y j) (fun a => by
      match a with
      | ⟨0, _⟩ => rfl
      | ⟨1, _⟩ => rfl
      | ⟨2, _⟩ => rfl)).trans ?_
    exact shapeCast_ab_1ab_apply WY shapeCasts_S512x256_S1x512x256 (0 : Fin 1) y j
  rw [e1, e2]

/-! ## The loads: a unit rectangle at a constant offset reads the block at offset plus coordinate -/

/-- Column 1 of the points block. -/
theorem ldCol1_apply (x1 : Vec Ideal S256x3 .f32) (j : Fin 256) :
    View.ld x1 ptsCol1 (ix2 j (0 : Fin 1)) = x1 (ix2 j (1 : Fin 3)) := by
  show x1 _ = x1 _
  refine congrArg x1 (funext fun a => Fin.ext ?_)
  match a with
  | ⟨0, _⟩ => show 0 + 1 * j.val = j.val; omega
  | ⟨1, _⟩ => rfl

/-- Row 2 of the transposed points block. -/
theorem ldRow2_apply (x2 : Vec Ideal S3x256 .f32) (j : Fin 256) :
    View.ld x2 ptsRow2 (ix2 (0 : Fin 1) j) = x2 (ix2 (2 : Fin 3) j) := by
  show x2 _ = x2 _
  refine congrArg x2 (funext fun a => Fin.ext ?_)
  match a with
  | ⟨0, _⟩ => rfl
  | ⟨1, _⟩ => show 0 + 1 * j.val = j.val; omega

/-- Plane 2 of the coefficient block. -/
theorem ldPl2_apply (x0 : Vec Ideal S3x8x512x512 .bf16) (cb : Fin 8) (y x : Fin 512) :
    View.ld x0 coefPl2 (ix4 (0 : Fin 1) cb y x) = x0 (ix4 (2 : Fin 3) cb y x) := by
  show x0 _ = x0 _
  refine congrArg x0 (funext fun a => Fin.ext ?_)
  match a with
  | ⟨0, _⟩ => rfl
  | ⟨1, _⟩ => show 0 + 1 * cb.val = cb.val; omega
  | ⟨2, _⟩ => show 0 + 1 * y.val = y.val; omega
  | ⟨3, _⟩ => show 0 + 1 * x.val = x.val; omega

/-! ## The pixel coordinates -/

/-- The column coordinate's pixel coordinate, point by point. -/
theorem pay27_apply (v : Vec Ideal S256x1 .f32) (j : Fin 256) :
    k0_pay27 (F := Ideal) v (ix2 j (0 : Fin 1)) = pixK (v (ix2 j (0 : Fin 1))) := rfl

/-- The row coordinate's pixel coordinate, point by point. -/
theorem pay28_apply (v : Vec Ideal S1x256 .f32) (j : Fin 256) :
    k0_pay28 (F := Ideal) v (ix2 (0 : Fin 1) j) = pixK (v (ix2 (0 : Fin 1) j)) := by
  unfold k0_pay28
  simp only [shapeCast_self]
  rfl

/-! ## The weight matrices are the one-hot weights -/

/-- The row weights: entry (y, j) is the weight pixel `y` gets from point `j`'s row pixel coordinate. -/
theorem pay30_apply (f : FVec Ideal S1x256 .f32) (y : Fin 512) (j : Fin 256) :
    k0_pay30 (F := Ideal) f (ix2 y j) = hot (f (ix2 (0 : Fin 1) j)) y := by
  have hI : broadcastTo S512x256 (iota .tc S512x1 32 [0] iota_S512x1_d0_w32) broadcasts_S512x1_S512x256 (ix2 y j)
      = BitVec.ofNat 32 y.val :=
    (broadcastTo_apply _ broadcasts_S512x1_S512x256 (ix2 y j) (ix2 y (0 : Fin 1)) (fun a => by
      match a with
      | ⟨0, _⟩ => rfl
      | ⟨1, _⟩ => rfl)).trans (iota_single_apply .tc S512x1 32 0 iota_S512x1_d0_w32 (ix2 y (0 : Fin 1)))
  have hR : ∀ {α : Type} (v : S1x256.Idx → α),
      broadcastTo S512x256 v broadcasts_S1x256_S512x256 (ix2 y j) = v (ix2 (0 : Fin 1) j) :=
    fun v => broadcastTo_1b_ab_apply v broadcasts_S1x256_S512x256 y j
  unfold k0_pay30
  show Scalar.select (IntOp.cmpi .eq (broadcastTo _ _ _ (ix2 y j)) (broadcastTo _ _ _ (ix2 y j)))
      (broadcastTo _ _ _ (ix2 y j))
      (Scalar.select (IntOp.cmpi .eq (broadcastTo _ _ _ (ix2 y j)) (broadcastTo _ _ _ (ix2 y j)))
        (broadcastTo _ _ _ (ix2 y j)) _) = _
  simp only [hI, hR, shapeCast_self]
  rfl

/-- The column weights: entry (j, x) is the weight pixel `x` gets from point `j`'s column pixel coordinate. -/
theorem pay31_apply (p : FVec Ideal S256x1 .f32) (j : Fin 256) (x : Fin 512) :
    k0_pay31 (F := Ideal) p (floor p) (ix2 j x) = hot (p (ix2 j (0 : Fin 1))) x := by
  have hI : broadcastTo S256x512 (iota .tc S1x512 32 [1] iota_S1x512_d1_w32) broadcasts_S1x512_S256x512 (ix2 j x)
      = BitVec.ofNat 32 x.val :=
    (broadcastTo_1b_ab_apply _ broadcasts_S1x512_S256x512 j x).trans
      (iota_single_apply .tc S1x512 32 1 iota_S1x512_d1_w32 (ix2 (0 : Fin 1) x))
  have hC : ∀ {α : Type} (v : S256x1.Idx → α),
      broadcastTo S256x512 v broadcasts_S256x1_S256x512 (ix2 j x) = v (ix2 j (0 : Fin 1)) :=
    fun v => broadcastTo_apply v broadcasts_S256x1_S256x512 (ix2 j x) (ix2 j (0 : Fin 1)) (fun a => by
      match a with
      | ⟨0, _⟩ => rfl
      | ⟨1, _⟩ => rfl)
  unfold k0_pay31
  show Scalar.select (IntOp.cmpi .eq (broadcastTo _ _ _ (ix2 j x)) (broadcastTo _ _ _ (ix2 j x)))
      (broadcastTo _ _ _ (ix2 j x))
      (Scalar.select (IntOp.cmpi .eq (broadcastTo _ _ _ (ix2 j x)) (broadcastTo _ _ _ (ix2 j x)))
        (broadcastTo _ _ _ (ix2 j x)) _) = _
  simp only [hI, hC, shapeCast_self]
  rfl

/-- The coefficient plane with its unit axis dropped. -/
theorem pay32_apply (v : Vec Ideal S1x8x512x512 .bf16) (cb : Fin 8) (y x : Fin 512) :
    k0_pay32 (F := Ideal) v (ix3 cb y x) = v (ix4 (0 : Fin 1) cb y x) :=
  shapeCast_1abc_abc_apply v shapeCasts_S1x8x512x512_S8x512x512 cb y x

end Plane2

/-! ## The third plane at an entry -/

theorem plane2_apply (acc : FVec Ideal S8x256 .f32) (x0 : Vec Ideal S3x8x512x512 .bf16) (x1 : Vec Ideal S256x3 .f32)
    (x2 : Vec Ideal S3x256 .f32) (cb : Fin 8) (j : Fin 256) :
    k0_pay1 (F := Ideal) acc (k0_pay30 (k0_pay28 (View.ld x2 ptsRow2)))
        (k0_pay31 (k0_pay27 (View.ld x1 ptsCol1)) (k0_pay29 (View.ld x1 ptsCol1))) (k0_pay32 (View.ld x0 coefPl2)) (ix2 cb j)
      = acc (ix2 cb j) + planeK (slab x0 2 cb) (pixK (x1 (ix2 j (1 : Fin 3)))) (pixK (x2 (ix2 (2 : Fin 3) j))) := by
  refine (Plane2.pay1_apply _ _ _ _ cb j).trans ?_
  refine congrArg (acc (ix2 cb j) + ·) ?_
  unfold planeK
  refine Finset.sum_congr rfl fun y _ => ?_
  have eY : k0_pay30 (F := Ideal) (k0_pay28 (View.ld x2 ptsRow2)) (ix2 y j) = hot (pixK (x2 (ix2 (2 : Fin 3) j))) y :=
    (Plane2.pay30_apply _ y j).trans (congrArg (fun f => hot f y) ((Plane2.pay28_apply _ j).trans (congrArg pixK (Plane2.ldRow2_apply x2 j))))
  refine congr (congrArg HMul.hMul ?_) eY
  refine Finset.sum_congr rfl fun x _ => ?_
  have eX : k0_pay31 (F := Ideal) (k0_pay27 (View.ld x1 ptsCol1)) (k0_pay29 (View.ld x1 ptsCol1)) (ix2 j x)
      = hot (pixK (x1 (ix2 j (1 : Fin 3)))) x :=
    (Plane2.pay31_apply (k0_pay27 (View.ld x1 ptsCol1)) j x).trans
      (congrArg (fun f => hot f x) ((Plane2.pay27_apply _ j).trans (congrArg pixK (Plane2.ldCol1_apply x1 j))))
  have eK : k0_pay32 (F := Ideal) (View.ld x0 coefPl2) (ix3 cb y x) = slab x0 2 cb y.val x.val := by
    refine ((Plane2.pay32_apply _ cb y x).trans (Plane2.ldPl2_apply x0 cb y x)).trans ?_
    unfold slab
    rw [dif_pos ⟨y.isLt, x.isLt⟩]
  exact congr (congrArg HMul.hMul eK) eX

end Cert.KernelIdeal.TriK

end
-- ==== Proof.KPay.lean ====
/-
  An output block read at one entry is `blockK` of the point's input blocks: the block's one store holds the three
  planes' contributions added in order.
-/
import proofs.«109239_j18605798326298_1_alg».proof.Proof.FrameKernelIdeal
import proofs.«109239_j18605798326298_1_alg».proof.Proof.Spec
import proofs.«109239_j18605798326298_1_alg».proof.Proof.KDefs
import proofs.«109239_j18605798326298_1_alg».proof.Proof.KP0
import proofs.«109239_j18605798326298_1_alg».proof.Proof.KP1
import proofs.«109239_j18605798326298_1_alg».proof.Proof.KP2
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.TriK

open Idealize.ShloMosaic Idealize.ShloMosaic.TcCoe Idealize.SL.Sem Idealize.ShloMosaic.ValueIdx
open Cert.KernelIdeal Cert.KernelIdeal.Gen Cert.TriPlane

/-- The offset of a store through the whole buffer. -/
theorem off_zero2 : (![0, 0] : Fin 2 → Nat) = fun _ => 0 := funext fun a => by fin_cases a <;> rfl

/-- The seven load rectangles named in KDefs are the ones the body's frame names. -/
example : ptsCol0 = r0_0 := rfl
example : ptsRow1 = r0_1 := rfl
example : coefPl0 = r0_2 := rfl
example : ptsRow2 = r0_3 := rfl
example : coefPl1 = r0_4 := rfl
example : ptsCol1 = r0_5 := rfl
example : coefPl2 = r0_6 := rfl

theorem out0_3_apply (x0 : Vec Ideal S3x8x512x512 .bf16) (x1 : Vec Ideal S256x3 .f32) (x2 : Vec Ideal S3x256 .f32)
    (cb : Fin 8) (j : Fin 256) :
    out0_3 (F := Ideal) x0 x1 x2 (ix2 cb j) = blockK x0 x1 x2 cb j := by
  unfold out0_3 blockK
  rw [View.canon_unit_zero off_zero2]
  refine (plane2_apply _ x0 x1 x2 cb j).trans ?_
  refine congrArg (· + planeK (slab x0 2 cb) (pixK (x1 (ix2 j (1 : Fin 3)))) (pixK (x2 (ix2 (2 : Fin 3) j)))) ?_
  refine (plane1_apply _ x0 x1 x2 cb j).trans ?_
  refine congrArg (· + planeK (slab x0 1 cb) (pixK (x1 (ix2 j (0 : Fin 3)))) (pixK (x2 (ix2 (2 : Fin 3) j)))) ?_
  exact plane0_apply x0 x1 x2 cb j

end Cert.KernelIdeal.TriK

end
-- ==== Proof.KRun.lean ====
/-
  The contraction program's run: every output block is `blockK` of its point's input blocks, the blocks tile the
  array [64, 1048576], and the last host operation transposes it; so the result array is `Cert.TriPlane.out` of the two
  argument arrays.

  Grid point `t` of the 8 × 4096 points has coordinates (t / 4096 % 8, t % 4096): it reads channels
  (t / 4096 % 8) · 8 … + 7 of the coefficient array (all planes, rows and columns) and points (t % 4096) · 256 … + 255 of
  the points array and of its transpose, and writes block (t / 4096 % 8, t % 4096) of the array [64, 1048576]. Entry
  (ch, n) of that array therefore lies in the block of the point (ch / 8) · 4096 + n / 256, at (ch % 8, n % 256), and holds
  `outK` of the two argument arrays at point `n`, channel `ch`. All index facts are proved by arithmetic on `t`.
-/
import proofs.«109239_j18605798326298_1_alg».proof.Proof.FrameKernelIdeal
import proofs.«109239_j18605798326298_1_alg».proof.Proof.Spec
import proofs.«109239_j18605798326298_1_alg».proof.Proof.KDefs
import proofs.«109239_j18605798326298_1_alg».proof.Proof.KPay
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.TriRun

open Idealize.ShloMosaic Idealize.ShloMosaic.TcCoe Idealize.SL.Sem Idealize.ShloMosaic.ValueIdx
open Cert.KernelIdeal Cert.KernelIdeal.Gen Cert.TriPlane
open Cert.KernelIdeal.TriK

/-! ## The grid: 8 channel blocks × 4096 point blocks, the point-block coordinate fastest -/

theorem stride0 : grid0.stride (0 : Fin 2) = 4096 := by decide
theorem stride1 : grid0.stride (1 : Fin 2) = 1 := by decide

/-- Point `t` of the grid has channel-block coordinate `t / 4096 % 8` and point-block coordinate `t % 4096`. -/
theorem coord0 (t : Fin cfg0.N) : ((grid0.coords t) (0 : Fin 2)).val = t.val / 4096 % 8 := by
  show t.val / grid0.stride (0 : Fin 2) % 8 = _
  rw [stride0]
theorem coord1 (t : Fin cfg0.N) : ((grid0.coords t) (1 : Fin 2)).val = t.val % 4096 := by
  show t.val / grid0.stride (1 : Fin 2) % 4096 = _
  rw [stride1, Nat.div_one]

/-! ## The four index maps in closed form: a coordinate read as a 32-bit word is itself, being far below 2^32 -/

/-- The output block of point `t` is block (t / 4096 % 8, t % 4096) of the array [64, 1048576]. -/
theorem outIdx (t : Fin cfg0.N) :
    win0_3.index t (0 : Fin 2) = t.val / 4096 % 8 ∧ win0_3.index t (1 : Fin 2) = t.val % 4096 := by
  constructor
  · show (BitVec.ofNat 32 ((grid0.coords t) (0 : Fin 2)).val).toNat = _
    rw [coord0, BitVec.toNat_ofNat]
    exact Nat.mod_eq_of_lt (by omega)
  · show (BitVec.ofNat 32 ((grid0.coords t) (1 : Fin 2)).val).toNat = _
    rw [coord1, BitVec.toNat_ofNat]
    exact Nat.mod_eq_of_lt (by omega)

/-- The coefficient block of point `t` is channel block `t / 4096 % 8` of all three planes, whole in rows and columns. -/
theorem coefIdx (t : Fin cfg0.N) :
    win0_0.index t (0 : Fin 4) = 0 ∧ win0_0.index t (1 : Fin 4) = t.val / 4096 % 8
      ∧ win0_0.index t (2 : Fin 4) = 0 ∧ win0_0.index t (3 : Fin 4) = 0 := by
  refine ⟨rfl, ?_, rfl, rfl⟩
  show (BitVec.ofNat 32 ((grid0.coords t) (0 : Fin 2)).val).toNat = _
  rw [coord0, BitVec.toNat_ofNat]
  exact Nat.mod_eq_of_lt (by omega)

/-- The points block of point `t` is point block `t % 4096`, all three coordinates. -/
theorem ptsIdx (t : Fin cfg0.N) :
    win0_1.index t (0 : Fin 2) = t.val % 4096 ∧ win0_1.index t (1 : Fin 2) = 0 := by
  refine ⟨?_, rfl⟩
  show (BitVec.ofNat 32 ((grid0.coords t) (1 : Fin 2)).val).toNat = _
  rw [coord1, BitVec.toNat_ofNat]
  exact Nat.mod_eq_of_lt (by omega)

/-- The transposed points block of point `t` is the same point block, the axes swapped. -/
theorem ptsTIdx (t : Fin cfg0.N) :
    win0_2.index t (0 : Fin 2) = 0 ∧ win0_2.index t (1 : Fin 2) = t.val % 4096 := by
  refine ⟨rfl, ?_⟩
  show (BitVec.ofNat 32 ((grid0.coords t) (1 : Fin 2)).val).toNat = _
  rw [coord1, BitVec.toNat_ofNat]
  exact Nat.mod_eq_of_lt (by omega)

/-! ## The output blocks tile the array [64, 1048576] -/

/-- Every point writes its block back: the next point's block index differs in its second coordinate, since
    `(t + 1) % 4096 ≠ t % 4096`. -/
theorem flushAll (t : Fin cfg0.N) : (cfg0.win 3).flush t = true := by
  have hN : grid0.N = 32768 := N_0
  show (win0_3.isOut && (decide (t.val + 1 = grid0.N)
    || decide (∃ h : t.val + 1 < grid0.N, win0_3.index ⟨t.val + 1, h⟩ ≠ win0_3.index t))) = true
  rw [show win0_3.isOut = true from rfl, Bool.true_and, Bool.or_eq_true, decide_eq_true_eq, decide_eq_true_eq]
  by_cases h : t.val + 1 = grid0.N
  · exact Or.inl h
  · have ht' : t.val < grid0.N := t.isLt
    have h' : t.val + 1 < grid0.N := by omega
    refine Or.inr ⟨h', fun e => ?_⟩
    have e1 := congrFun e (1 : Fin 2)
    rw [(outIdx ⟨t.val + 1, h'⟩).2, (outIdx t).2] at e1
    have : (t.val + 1) % 4096 = t.val % 4096 := e1
    omega

/-- An index of the array [64, 1048576] lies in point `t`'s block iff each coordinate lies in the block's range. -/
theorem mem_outBlk (t : Fin cfg0.N) (i : S64x1048576.Idx) :
    i ∈ ((cfg0.win 3).blk t).view.set ↔ ∀ a : Fin 2, win0_3.index t a * S8x256.size a ≤ (i a).val
      ∧ (i a).val < win0_3.index t a * S8x256.size a + S8x256.size a := by
  show i ∈ ((View.whole main_v2).slice (win0_3.rect t)).set ↔ _
  rw [View.set_slice_whole, Rect.mem_set_unit]
  exact Iff.rfl

/-- Entry (ch, n) lies in the block of the point (ch / 8) · 4096 + n / 256. -/
theorem cover (i : S64x1048576.Idx) :
    ∃ t : Fin cfg0.N, (cfg0.win 3).flush t = true ∧ i ∈ ((cfg0.win 3).blk t).view.set := by
  have h0 : (i 0).val < 64 := (i 0).isLt
  have h1 : (i 1).val < 1048576 := (i 1).isLt
  have hN : grid0.N = 32768 := N_0
  have ht : (i 0).val / 8 * 4096 + (i 1).val / 256 < grid0.N := by omega
  refine ⟨⟨(i 0).val / 8 * 4096 + (i 1).val / 256, ht⟩, flushAll _, ?_⟩
  rw [mem_outBlk]
  obtain ⟨e0, e1⟩ := outIdx ⟨(i 0).val / 8 * 4096 + (i 1).val / 256, ht⟩
  intro a
  match a with
  | ⟨0, _⟩ =>
    show win0_3.index _ (0 : Fin 2) * 8 ≤ (i 0).val ∧ (i 0).val < win0_3.index _ (0 : Fin 2) * 8 + 8
    rw [e0]; dsimp only; omega
  | ⟨1, _⟩ =>
    show win0_3.index _ (1 : Fin 2) * 256 ≤ (i 1).val ∧ (i 1).val < win0_3.index _ (1 : Fin 2) * 256 + 256
    rw [e1]; dsimp only; omega

/-! ## A block entry is an array entry -/

/-- When the coefficient block's channel `cb` is the array's channel `ch` and column `j` of both points blocks is
    point `n`, the block's function at (cb, j) is the array's at (n, ch): the planes' slabs are the same functions of a
    row and a column, and the pixel coordinates are of the same point coordinates. -/
theorem blockK_eq_outK (pts : SPts.Idx → EReal) (coef : SCoef.Idx → EReal)
    (x0 : Vec Ideal S3x8x512x512 .bf16) (x1 : Vec Ideal S256x3 .f32) (x2 : Vec Ideal S3x256 .f32)
    (cb : Fin 8) (j : Fin 256) (ch : Fin 64) (n : Fin 1048576)
    (h0 : ∀ (p : Fin 3) (y x : Fin 512), x0 (ix4 p cb y x) = coef (ix4 p ch y x))
    (h1 : ∀ k : Fin 3, x1 (ix2 j k) = pts (ix2 n k))
    (h2 : ∀ k : Fin 3, x2 (ix2 k j) = pts (ix2 n k)) :
    blockK x0 x1 x2 cb j = outK pts coef n ch := by
  have hs : ∀ p : Fin 3, slab x0 p cb = coefAt coef p ch := fun p => by
    funext y x
    unfold slab coefAt
    by_cases h : y < 512 ∧ x < 512
    · rw [dif_pos h, dif_pos h]; exact h0 p _ _
    · rw [dif_neg h, dif_neg h]
  unfold blockK outK
  rw [hs 0, hs 1, hs 2, h1 0, h1 1, h2 1, h2 2]

/-- The region's result array [64, 1048576]: channel `i 0`, point `i 1`. -/
abbrev chanMajor (pts : SPts.Idx → EReal) (coef : SCoef.Idx → EReal) : S64x1048576.Idx → EReal :=
  fun i => outK pts coef (i 1) (i 0)

section
variable (m : (ℓ : Loc nD τ sig) → Buf (Elt Ideal) ℓ)

/-! ## The arrays the region finds, and its input blocks read off them -/

/-- The coefficient array as the region finds it: the argument converted to the narrower format, which changes no value
    of the extended reals. -/
theorem coefArr_eq (c : Dev nD) :
    (V m c main_v0 : S3x64x512x512.Idx → EReal) = (m ((c.tc : Thread nD τ).loc main_arg1) : S3x64x512x512.Idx → EReal) := by
  show StableHlo.after hostOps0 (fun b => m (c, b)) (Proc.devRef .tc main_v0) = _
  after_results
  rfl

/-- The transposed points array as the region finds it. -/
theorem ptsTArr_eq (c : Dev nD) :
    (V m c main_v1 : S3x1048576.Idx → EReal)
      = transpose S3x1048576 [1, 0] (m ((c.tc : Thread nD τ).loc main_arg0) : S1048576x3.Idx → EReal)
          transposes_S1048576x3_S3x1048576_1_0 := by
  show StableHlo.after hostOps0 (fun b => m (c, b)) (Proc.devRef .tc main_v1) = _
  after_results

/-- An entry of the coefficient block at point `t`: the block holds channels (t / 4096 % 8) · 8 … + 7 of all three planes. -/
theorem coefBlk_apply (c : Dev nD) (t : Fin cfg0.N) (p : Fin 3) (cb : Fin 8) (y x : Fin 512) (ch : Fin 64)
    (hch : ch.val = t.val / 4096 % 8 * 8 + cb.val) :
    (iblk m c 0 t : Vec Ideal S3x8x512x512 .bf16) (ix4 p cb y x)
      = (m ((c.tc : Thread nD τ).loc main_arg1) : S3x64x512x512.Idx → EReal) (ix4 p ch y x) := by
  obtain ⟨e0, e1, e2, e3⟩ := coefIdx t
  unfold iblk
  rw [View.read_apply]
  show (V m c main_v0 : S3x64x512x512.Idx → EReal) _ = _
  rw [coefArr_eq]
  congr 1
  funext a
  apply Fin.ext
  match a with
  | ⟨0, _⟩ => show win0_0.index t (0 : Fin 4) * 3 + 1 * p.val = p.val; rw [e0]; omega
  | ⟨1, _⟩ => show win0_0.index t (1 : Fin 4) * 8 + 1 * cb.val = ch.val; rw [e1, hch]; omega
  | ⟨2, _⟩ => show win0_0.index t (2 : Fin 4) * 512 + 1 * y.val = y.val; rw [e2]; omega
  | ⟨3, _⟩ => show win0_0.index t (3 : Fin 4) * 512 + 1 * x.val = x.val; rw [e3]; omega

/-- An entry of the points block at point `t`: the block holds points (t % 4096) · 256 … + 255. -/
theorem ptsBlk_apply (c : Dev nD) (t : Fin cfg0.N) (j : Fin 256) (k : Fin 3) (n : Fin 1048576)
    (hn : n.val = t.val % 4096 * 256 + j.val) :
    (iblk m c 1 t : Vec Ideal S256x3 .f32) (ix2 j k)
      = (m ((c.tc : Thread nD τ).loc main_arg0) : S1048576x3.Idx → EReal) (ix2 n k) := by
  obtain ⟨e0, e1⟩ := ptsIdx t
  unfold iblk
  rw [View.read_apply]
  show (V m c main_arg0 : S1048576x3.Idx → EReal) _ = _
  rw [V_main_arg0]
  congr 1
  funext a
  apply Fin.ext
  match a with
  | ⟨0, _⟩ => show win0_1.index t (0 : Fin 2) * 256 + 1 * j.val = n.val; rw [e0, hn]; omega
  | ⟨1, _⟩ => show win0_1.index t (1 : Fin 2) * 3 + 1 * k.val = k.val; rw [e1]; omega

/-- An entry of the transposed points block at point `t` is the same point's coordinate. -/
theorem ptsTBlk_apply (c : Dev nD) (t : Fin cfg0.N) (k : Fin 3) (j : Fin 256) (n : Fin 1048576)
    (hn : n.val = t.val % 4096 * 256 + j.val) :
    (iblk m c 2 t : Vec Ideal S3x256 .f32) (ix2 k j)
      = (m ((c.tc : Thread nD τ).loc main_arg0) : S1048576x3.Idx → EReal) (ix2 n k) := by
  obtain ⟨e0, e1⟩ := ptsTIdx t
  unfold iblk
  rw [View.read_apply]
  show (V m c main_v1 : S3x1048576.Idx → EReal) _ = _
  rw [ptsTArr_eq]
  refine Eq.trans ?_ (transpose_ix2_apply (m ((c.tc : Thread nD τ).loc main_arg0) : S1048576x3.Idx → EReal)
    transposes_S1048576x3_S3x1048576_1_0 k n)
  congr 1
  funext a
  apply Fin.ext
  match a with
  | ⟨0, _⟩ => show win0_2.index t (0 : Fin 2) * 3 + 1 * k.val = k.val; rw [e0]; omega
  | ⟨1, _⟩ => show win0_2.index t (1 : Fin 2) * 256 + 1 * j.val = n.val; rw [e1, hn]; omega

/-! ## From blocks to the array -/

/-- One entry of what point `t` leaves in its output block: channel (t / 4096 % 8) · 8 + cb of point
    (t % 4096) · 256 + j. -/
theorem out_entry (c : Dev nD) (t : Fin cfg0.N) (cb : Fin 8) (jj : Fin 256) (ch : Fin 64) (n : Fin 1048576)
    (hch : ch.val = t.val / 4096 % 8 * 8 + cb.val) (hn : n.val = t.val % 4096 * 256 + jj.val) :
    out0_3 (F := Ideal) (iblk m c 0 t) (iblk m c 1 t) (iblk m c 2 t) (ix2 cb jj)
      = outK (m ((c.tc : Thread nD τ).loc main_arg0)) (m ((c.tc : Thread nD τ).loc main_arg1)) n ch := by
  refine (out0_3_apply (iblk m c 0 t) (iblk m c 1 t) (iblk m c 2 t) cb jj).trans ?_
  exact blockK_eq_outK (m ((c.tc : Thread nD τ).loc main_arg0)) (m ((c.tc : Thread nD τ).loc main_arg1))
    (iblk m c 0 t) (iblk m c 1 t) (iblk m c 2 t) cb jj ch n
    (fun p y x => coefBlk_apply m c t p cb y x ch hch) (fun k => ptsBlk_apply m c t jj k n hn)
    (fun k => ptsTBlk_apply m c t k jj n hn)

/-- What point `t` writes back is block `t` of the channel-major result. -/
theorem flushed_eq (c : Dev nD) (t : Fin cfg0.N) :
    (dats m 0 c).flushed 3 t = ((cfg0.win 3).blk t).view.read (Elt Ideal)
      (chanMajor (m ((c.tc : Thread nD τ).loc main_arg0)) (m ((c.tc : Thread nD τ).loc main_arg1))) := by
  show (cfg0.win 3).cut (grid0.coords t) ((dats m 0 c).after 3 t) = _
  rw [after0_3]
  funext j
  obtain ⟨cb, jj, rfl⟩ : ∃ (cb : Fin 8) (jj : Fin 256), j = ix2 cb jj := ⟨j 0, j 1, eq_ix2 j⟩
  obtain ⟨e0, e1⟩ := outIdx t
  have hN : grid0.N = 32768 := N_0
  have ht : t.val < grid0.N := t.isLt
  have hch : t.val / 4096 % 8 * 8 + cb.val < 64 := by omega
  have hn : t.val % 4096 * 256 + jj.val < 1048576 := by omega
  refine (out_entry m c t cb jj ⟨_, hch⟩ ⟨_, hn⟩ rfl rfl).trans ?_
  rw [View.read_apply]
  have k1 : ((cfg0.win 3).blk t).view.emb (ix2 cb jj) (1 : Fin 2) = (⟨t.val % 4096 * 256 + jj.val, hn⟩ : Fin 1048576) :=
    Fin.ext (by show win0_3.index t (1 : Fin 2) * 256 + 1 * jj.val = t.val % 4096 * 256 + jj.val; rw [e1]; omega)
  have k0 : ((cfg0.win 3).blk t).view.emb (ix2 cb jj) (0 : Fin 2) = (⟨t.val / 4096 % 8 * 8 + cb.val, hch⟩ : Fin 64) :=
    Fin.ext (by show win0_3.index t (0 : Fin 2) * 8 + 1 * cb.val = t.val / 4096 % 8 * 8 + cb.val; rw [e0]; omega)
  exact (congrArg₂ (outK (m ((c.tc : Thread nD τ).loc main_arg0)) (m ((c.tc : Thread nD τ).loc main_arg1))) k1 k0).symm

/-- So the region's result array ends at the channel-major result. -/
theorem final (c : Dev nD) : (dats m 0 c).arrAt 3 cfg0.N
    = chanMajor (m ((c.tc : Thread nD τ).loc main_arg0)) (m ((c.tc : Thread nD τ).loc main_arg1)) :=
  (dats m 0 c).arrAt_eq_of_cover 3 _ (fun t _ => flushed_eq m c t) cover

/-- The last host operation transposes it into the result [1048576, 64]. -/
theorem tail_eq (c : Dev nD) : Pipeline.afterTail₀ cfgs (dats m) 0 (V0 m) [hostOps1] c main_v3
    = Cert.TriPlane.out (m ((c.tc : Thread nD τ).loc main_arg0)) (m ((c.tc : Thread nD τ).loc main_arg1)) := by
  unfold Pipeline.afterTail₀
  show StableHlo.after hostOps1 _ (Proc.devRef .tc main_v3) = _
  after_results
  rw [Pipeline.withArrays_arr spec0 launch0.win.arr_inj c _ _ 3, final]
  funext i
  obtain ⟨n, ch, rfl⟩ : ∃ (n : Fin 1048576) (ch : Fin 64), i = ix2 n ch := ⟨i 0, i 1, eq_ix2 i⟩
  exact transpose_ix2_apply _ _ n ch

end

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.TriPlane.out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun r h c =>
    ⟨((h c).2 main_v3 (Pipeline.mem_restRefs_of main_v3 (by decide) (by decide))).trans (tail_eq m c),
     ((h c).1 1).trans (((dats m 0 c).arrAt_in 1 rfl _).trans ((A_eq m c 1).trans (V_main_arg0 m c))),
     ((h c).2 main_arg1 (Pipeline.mem_restRefs_of main_arg1 (by decide) (by decide))).trans (W_main_arg1 m (dats m) c)⟩)
    (run_main m ρ)

end Cert.KernelIdeal.TriRun

end
-- ==== Proof.RStages.lean ====
/-
  The corner-reading program's result as ONE term of its two argument arrays, stage by stage: the three planes'
  coordinate pairs picked out of the points array and stacked (`crd`), the column and row coordinates (`rawX`, `rawY`)
  made pixel coordinates (`fX`, `fY`), their floors, fractional parts and neighbouring pixels, the four corner reads of
  the flattened planes (`corner`), the weighted sum of the corners (`feats`), the sum over the planes and the transpose
  (`refVal`).
-/
import proofs.«109239_j18605798326298_1_alg».proof.Proof.Gen.ReferenceIdeal
import proofs.«109239_j18605798326298_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.TriRef

open Idealize.ShloMosaic Idealize.ShloMosaic.TcCoe Idealize.SL.Sem Idealize.ShloMosaic.ValueIdx
open Cert.ReferenceIdeal Cert.ReferenceIdeal.Gen Cert.TriPlane

/-- A word, and a float word, at every (plane, point). -/
abbrev bI (v : BitVec 32) : IVec S3x1048576 32 := broadcastInDim S3x1048576 ![] bcast_S_S3x1048576 (constantI S_ 32 v)
abbrev bF (w : BitVec 32) : FVec Ideal S3x1048576 .f32 :=
  broadcastInDim S3x1048576 ![] bcast_S_S3x1048576 (constant (F := Ideal) S_ .f32 w)

/-- A two-entry table of point-coordinate numbers as a start-index array, a negative entry wrapped by 3. -/
def colIdx (l : Fin 2 → BitVec 32) : IVec S2x1 32 :=
  broadcastInDim S2x1 ![0] bcast_S2_S2x1_0
    (select (cmpi .slt (fun i => l (S2.rowMajor i)) (broadcastInDim S2 ![] bcast_S_S2 (constantI S_ 32 0#32)))
      (addi (fun i => l (S2.rowMajor i)) (broadcastInDim S2 ![] bcast_S_S2 (constantI S_ 32 3#32)))
      (fun i => l (S2.rowMajor i)))

/-- The two coordinates a table names, for every point. -/
def pair (pts : FVec Ideal S1048576x3 .f32) (l : Fin 2 → BitVec 32) : FVec Ideal S1048576x2 .f32 :=
  Host.gather gather_S1048576x3_S2x1_S1048576x2_0_1_n_n_1_1_10485761 pts (colIdx l)

/-- The three planes' coordinate pairs stacked: [3, 1048576, 2]. -/
def crd (pts : FVec Ideal S1048576x3 .f32) : FVec Ideal S3x1048576x2 .f32 :=
  concatenate S3x1048576x2 0
    [⟨S1x1048576x2, broadcastInDim S1x1048576x2 ![1, 2] bcast_S1048576x2_S1x1048576x2_1_2 (pair pts lit0)⟩,
     ⟨S1x1048576x2, broadcastInDim S1x1048576x2 ![1, 2] bcast_S1048576x2_S1x1048576x2_1_2 (pair pts lit1)⟩,
     ⟨S1x1048576x2, broadcastInDim S1x1048576x2 ![1, 2] bcast_S1048576x2_S1x1048576x2_1_2 (pair pts lit2)⟩]
    concatenates_S1x1048576x2_S1x1048576x2_S1x1048576x2_S3x1048576x2_d0

/-- Each plane's column coordinate and row coordinate, per point. -/
def rawX (pts : FVec Ideal S1048576x3 .f32) : FVec Ideal S3x1048576 .f32 :=
  shapeCast S3x1048576 (extractStridedSlice S3x1048576x1 ![0, 0, 0] (crd pts) slices_S3x1048576x2_S3x1048576x1_0_0_0)
    shapeCasts_S3x1048576x1_S3x1048576
def rawY (pts : FVec Ideal S1048576x3 .f32) : FVec Ideal S3x1048576 .f32 :=
  shapeCast S3x1048576 (extractStridedSlice S3x1048576x1 ![0, 0, 1] (crd pts) slices_S3x1048576x2_S3x1048576x1_0_0_1)
    shapeCasts_S3x1048576x1_S3x1048576

/-- A coordinate made a pixel coordinate: ((v + 1) · 0.5) · 511 clamped below by 0 and above by the converted 511. -/
def pix (raw : FVec Ideal S3x1048576 .f32) : FVec Ideal S3x1048576 .f32 :=
  minimumf (broadcastInDim S3x1048576 ![] bcast_S_S3x1048576 (sitofp .f32 (constantI S_ 32 511#32)))
    (maximumf (broadcastInDim S3x1048576 ![] bcast_S_S3x1048576 (id (constant (F := Ideal) S_ .f32 0x00000000#32)))
      (mulf (mulf (addf raw (bF 0x3F800000#32)) (bF 0x3F000000#32)) (bF 0x43FF8000#32)))

def fX (pts : FVec Ideal S1048576x3 .f32) : FVec Ideal S3x1048576 .f32 := pix (rawX pts)
def fY (pts : FVec Ideal S1048576x3 .f32) : FVec Ideal S3x1048576 .f32 := pix (rawY pts)
def flX (pts : FVec Ideal S1048576x3 .f32) : FVec Ideal S3x1048576 .f32 := Host.floor (fX pts)
def flY (pts : FVec Ideal S1048576x3 .f32) : FVec Ideal S3x1048576 .f32 := Host.floor (fY pts)
def wX (pts : FVec Ideal S1048576x3 .f32) : FVec Ideal S3x1048576 .f32 := subf (fX pts) (flX pts)
def wY (pts : FVec Ideal S1048576x3 .f32) : FVec Ideal S3x1048576 .f32 := subf (fY pts) (flY pts)
def iX0 (pts : FVec Ideal S1048576x3 .f32) : IVec S3x1048576 32 := fptosi 32 (flX pts)
def iY0 (pts : FVec Ideal S1048576x3 .f32) : IVec S3x1048576 32 := fptosi 32 (flY pts)
def iX1 (pts : FVec Ideal S1048576x3 .f32) : IVec S3x1048576 32 := minsi (addi (iX0 pts) (bI 1#32)) (bI 511#32)
def iY1 (pts : FVec Ideal S1048576x3 .f32) : IVec S3x1048576 32 := minsi (addi (iY0 pts) (bI 1#32)) (bI 511#32)

/-- The planes flattened to [3, 64, 262144], and the start-index array of a (row, column) pair of pixel words. -/
def flatCoef (coef : FVec Ideal S3x64x512x512 .f32) : FVec Ideal S3x64x262144 .f32 :=
  shapeCast S3x64x262144 coef shapeCasts_S3x64x512x512_S3x64x262144
def flatIx (yy xx : IVec S3x1048576 32) : IVec S3x1048576x1 32 :=
  broadcastInDim S3x1048576x1 ![0, 1] bcast_S3x1048576_S3x1048576x1_0_1
    (select (cmpi .slt (addi (muli yy (bI 512#32)) xx) (bI 0#32))
      (addi (addi (muli yy (bI 512#32)) xx) (bI 262144#32)) (addi (muli yy (bI 512#32)) xx))

/-- One corner: every channel of every plane at the pixel (row, column) of every point. -/
def corner (coef : FVec Ideal S3x64x512x512 .f32) (yy xx : IVec S3x1048576 32) : FVec Ideal S3x64x1048576 .f32 :=
  Host.gather gather_S3x64x262144_S3x1048576x1_S3x64x1048576_1_2_0_0_2_2_1641 (flatCoef coef) (flatIx yy xx)

/-- A per-(plane, point) weight at every channel. -/
def spread (w : FVec Ideal S3x1048576 .f32) : FVec Ideal S3x64x1048576 .f32 :=
  broadcastInDim S3x64x1048576 ![0, 1, 2] bcast_S3x1x1048576_S3x64x1048576_0_1_2
    (broadcastInDim S3x1x1048576 ![0, 2] bcast_S3x1048576_S3x1x1048576_0_2 w)

/-- The four weighted corners added in order. -/
def feats (pts : FVec Ideal S1048576x3 .f32) (coef : FVec Ideal S3x64x512x512 .f32) : FVec Ideal S3x64x1048576 .f32 :=
  addf (addf (addf
      (mulf (corner coef (iY0 pts) (iX0 pts))
        (spread (mulf (subf (bF 0x3F800000#32) (wX pts)) (subf (bF 0x3F800000#32) (wY pts)))))
      (mulf (corner coef (iY0 pts) (iX1 pts)) (spread (mulf (wX pts) (subf (bF 0x3F800000#32) (wY pts))))))
      (mulf (corner coef (iY1 pts) (iX0 pts)) (spread (mulf (subf (bF 0x3F800000#32) (wX pts)) (wY pts)))))
    (mulf (corner coef (iY1 pts) (iX1 pts)) (spread (mulf (wX pts) (wY pts))))

/-- The planes summed onto zero, then transposed to [1048576, 64]. -/
def refVal (pts : FVec Ideal S1048576x3 .f32) (coef : FVec Ideal S3x64x512x512 .f32) : FVec Ideal S1048576x64 .f32 :=
  transpose S1048576x64 [1, 0]
    (Host.reduceAdd (feats pts coef) (constant (F := Ideal) S_ .f32 0x00000000#32) reducesTo_S3x64x1048576_S64x1048576_d0 h_S_)
    transposes_S64x1048576_S1048576x64_1_0

end Cert.ReferenceIdeal.TriRef

end
-- ==== Proof.RRun.lean ====
/-
  The corner-reading program's run: its @main is a straight line of host operations (the clamp function's six
  operations written out at its two calls), so every weakly fair execution ends with the result buffer at the
  operations' composed term `refVal` of the argument arrays, and the arguments unchanged.
-/
import proofs.«109239_j18605798326298_1_alg».proof.Proof.Gen.ReferenceIdeal
import proofs.«109239_j18605798326298_1_alg».proof.Proof.Spec
import proofs.«109239_j18605798326298_1_alg».proof.Proof.RStages
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.TriRef

open Idealize.ShloMosaic Idealize.ShloMosaic.TcCoe Idealize.SL.Sem Idealize.ShloMosaic.ValueIdx
open Cert.ReferenceIdeal Cert.ReferenceIdeal.Gen Cert.TriPlane
open Idealize.ShloMosaic.StableHlo

/-! ## The operations, in five stretches

The straight line is cut where few buffers are live: after the three stacked coordinate pairs are ready (before they are
concatenated), after the first pixel coordinate and the second one's scaled value, after the floors, fractional parts,
pixel words and the flattened planes, inside the second corner, and the rest. The clamp function's six operations stand
at its two calls over the call's own buffers. -/

section Lists

variable {F : FTy → Type} [FloatOps F]

/-- The three coordinate tables, their wrapped start indices, the three reads of the points array, each given a leading axis. -/
abbrev cA : List (HloOp τ sig (Elt F)) :=
  [ StableHlo.nullary main_c (fun i => lit0 (S2.rowMajor i)),
    StableHlo.nullary main_c_0 (fun i => lit1 (S2.rowMajor i)),
    StableHlo.nullary main_c_1 (fun i => lit2 (S2.rowMajor i)),
    StableHlo.nullary main_c_2 (constantI S_ 32 0#32),
    StableHlo.unary main_c_2 main_v0 (broadcastInDim S2 ![] bcast_S_S2 : (⟨S_, .i32⟩ : BufTy).Contents (Elt F) → (⟨S2, .i32⟩ : BufTy).Contents (Elt F)),
    StableHlo.binary main_c main_v0 main_v1 (cmpi .slt : (⟨S2, .i32⟩ : BufTy).Contents (Elt F) → (⟨S2, .i32⟩ : BufTy).Contents (Elt F) → (⟨S2, .i1⟩ : BufTy).Contents (Elt F)),
    StableHlo.nullary main_c_3 (constantI S_ 32 3#32),
    StableHlo.unary main_c_3 main_v2 (broadcastInDim S2 ![] bcast_S_S2 : (⟨S_, .i32⟩ : BufTy).Contents (Elt F) → (⟨S2, .i32⟩ : BufTy).Contents (Elt F)),
    StableHlo.binary main_c main_v2 main_v3 (addi : (⟨S2, .i32⟩ : BufTy).Contents (Elt F) → (⟨S2, .i32⟩ : BufTy).Contents (Elt F) → (⟨S2, .i32⟩ : BufTy).Contents (Elt F)),
    StableHlo.ternary main_v1 main_v3 main_c main_v4 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v4 main_v5 (broadcastInDim S2x1 ![0] bcast_S2_S2x1_0 : (⟨S2, .i32⟩ : BufTy).Contents (Elt F) → (⟨S2x1, .i32⟩ : BufTy).Contents (Elt F)),
    StableHlo.binary main_arg0 main_v5 main_v6 ((fun x i => Host.gather gather_S1048576x3_S2x1_S1048576x2_0_1_n_n_1_1_10485761 x i) : (⟨S1048576x3, .f32⟩ : BufTy).Contents (Elt F) → (⟨S2x1, .i32⟩ : BufTy).Contents (Elt F) → (⟨S1048576x2, .f32⟩ : BufTy).Contents (Elt F)),
    StableHlo.nullary main_c_4 (constantI S_ 32 0#32),
    StableHlo.unary main_c_4 main_v7 (broadcastInDim S2 ![] bcast_S_S2 : (⟨S_, .i32⟩ : BufTy).Contents (Elt F) → (⟨S2, .i32⟩ : BufTy).Contents (Elt F)),
    StableHlo.binary main_c_0 main_v7 main_v8 (cmpi .slt : (⟨S2, .i32⟩ : BufTy).Contents (Elt F) → (⟨S2, .i32⟩ : BufTy).Contents (Elt F) → (⟨S2, .i1⟩ : BufTy).Contents (Elt F)),
    StableHlo.nullary main_c_5 (constantI S_ 32 3#32),
    StableHlo.unary main_c_5 main_v9 (broadcastInDim S2 ![] bcast_S_S2 : (⟨S_, .i32⟩ : BufTy).Contents (Elt F) → (⟨S2, .i32⟩ : BufTy).Contents (Elt F)),
    StableHlo.binary main_c_0 main_v9 main_v10 (addi : (⟨S2, .i32⟩ : BufTy).Contents (Elt F) → (⟨S2, .i32⟩ : BufTy).Contents (Elt F) → (⟨S2, .i32⟩ : BufTy).Contents (Elt F)),
    StableHlo.ternary main_v8 main_v10 main_c_0 main_v11 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v11 main_v12 (broadcastInDim S2x1 ![0] bcast_S2_S2x1_0 : (⟨S2, .i32⟩ : BufTy).Contents (Elt F) → (⟨S2x1, .i32⟩ : BufTy).Contents (Elt F)),
    StableHlo.binary main_arg0 main_v12 main_v13 ((fun x i => Host.gather gather_S1048576x3_S2x1_S1048576x2_0_1_n_n_1_1_10485761 x i) : (⟨S1048576x3, .f32⟩ : BufTy).Contents (Elt F) → (⟨S2x1, .i32⟩ : BufTy).Contents (Elt F) → (⟨S1048576x2, .f32⟩ : BufTy).Contents (Elt F)),
    StableHlo.nullary main_c_6 (constantI S_ 32 0#32),
    StableHlo.unary main_c_6 main_v14 (broadcastInDim S2 ![] bcast_S_S2 : (⟨S_, .i32⟩ : BufTy).Contents (Elt F) → (⟨S2, .i32⟩ : BufTy).Contents (Elt F)),
    StableHlo.binary main_c_1 main_v14 main_v15 (cmpi .slt : (⟨S2, .i32⟩ : BufTy).Contents (Elt F) → (⟨S2, .i32⟩ : BufTy).Contents (Elt F) → (⟨S2, .i1⟩ : BufTy).Contents (Elt F)),
    StableHlo.nullary main_c_7 (constantI S_ 32 3#32),
    StableHlo.unary main_c_7 main_v16 (broadcastInDim S2 ![] bcast_S_S2 : (⟨S_, .i32⟩ : BufTy).Contents (Elt F) → (⟨S2, .i32⟩ : BufTy).Contents (Elt F)),
    StableHlo.binary main_c_1 main_v16 main_v17 (addi : (⟨S2, .i32⟩ : BufTy).Contents (Elt F) → (⟨S2, .i32⟩ : BufTy).Contents (Elt F) → (⟨S2, .i32⟩ : BufTy).Contents (Elt F)),
    StableHlo.ternary main_v15 main_v17 main_c_1 main_v18 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v18 main_v19 (broadcastInDim S2x1 ![0] bcast_S2_S2x1_0 : (⟨S2, .i32⟩ : BufTy).Contents (Elt F) → (⟨S2x1, .i32⟩ : BufTy).Contents (Elt F)),
    StableHlo.binary main_arg0 main_v19 main_v20 ((fun x i => Host.gather gather_S1048576x3_S2x1_S1048576x2_0_1_n_n_1_1_10485761 x i) : (⟨S1048576x3, .f32⟩ : BufTy).Contents (Elt F) → (⟨S2x1, .i32⟩ : BufTy).Contents (Elt F) → (⟨S1048576x2, .f32⟩ : BufTy).Contents (Elt F)),
    StableHlo.unary main_v6 main_v21 (broadcastInDim S1x1048576x2 ![1, 2] bcast_S1048576x2_S1x1048576x2_1_2 : (⟨S1048576x2, .f32⟩ : BufTy).Contents (Elt F) → (⟨S1x1048576x2, .f32⟩ : BufTy).Contents (Elt F)),
    StableHlo.unary main_v13 main_v22 (broadcastInDim S1x1048576x2 ![1, 2] bcast_S1048576x2_S1x1048576x2_1_2 : (⟨S1048576x2, .f32⟩ : BufTy).Contents (Elt F) → (⟨S1x1048576x2, .f32⟩ : BufTy).Contents (Elt F)),
    StableHlo.unary main_v20 main_v23 (broadcastInDim S1x1048576x2 ![1, 2] bcast_S1048576x2_S1x1048576x2_1_2 : (⟨S1048576x2, .f32⟩ : BufTy).Contents (Elt F) → (⟨S1x1048576x2, .f32⟩ : BufTy).Contents (Elt F)) ]

/-- The stacked pairs; the column coordinate scaled and clamped; the row coordinate scaled. -/
abbrev cB : List (HloOp τ sig (Elt F)) :=
  [ StableHlo.nary ![main_v21, main_v22, main_v23] main_v24 (fun u => concatenate S3x1048576x2 0 [⟨S1x1048576x2, u 0⟩, ⟨S1x1048576x2, u 1⟩, ⟨S1x1048576x2, u 2⟩] concatenates_S1x1048576x2_S1x1048576x2_S1x1048576x2_S3x1048576x2_d0),
    StableHlo.unary main_v24 main_v25 ((extractStridedSlice S3x1048576x1 ![0, 0, 0] · slices_S3x1048576x2_S3x1048576x1_0_0_0) : (⟨S3x1048576x2, .f32⟩ : BufTy).Contents (Elt F) → (⟨S3x1048576x1, .f32⟩ : BufTy).Contents (Elt F)),
    StableHlo.reshape main_v25 main_v26 rfl shapeCasts_S3x1048576x1_S3x1048576,
    StableHlo.nullary main_cst (constant S_ .f32 0x3F800000#32),
    StableHlo.unary main_cst main_v27 (broadcastInDim S3x1048576 ![] bcast_S_S3x1048576 : (⟨S_, .f32⟩ : BufTy).Contents (Elt F) → (⟨S3x1048576, .f32⟩ : BufTy).Contents (Elt F)),
    StableHlo.binary main_v26 main_v27 main_v28 (addf : (⟨S3x1048576, .f32⟩ : BufTy).Contents (Elt F) → (⟨S3x1048576, .f32⟩ : BufTy).Contents (Elt F) → (⟨S3x1048576, .f32⟩ : BufTy).Contents (Elt F)),
    StableHlo.nullary main_cst_8 (constant S_ .f32 0x3F000000#32),
    StableHlo.unary main_cst_8 main_v29 (broadcastInDim S3x1048576 ![] bcast_S_S3x1048576 : (⟨S_, .f32⟩ : BufTy).Contents (Elt F) → (⟨S3x1048576, .f32⟩ : BufTy).Contents (Elt F)),
    StableHlo.binary main_v28 main_v29 main_v30 (mulf : (⟨S3x1048576, .f32⟩ : BufTy).Contents (Elt F) → (⟨S3x1048576, .f32⟩ : BufTy).Contents (Elt F) → (⟨S3x1048576, .f32⟩ : BufTy).Contents (Elt F)),
    StableHlo.nullary main_cst_9 (constant S_ .f32 0x43FF8000#32),
    StableHlo.unary main_cst_9 main_v31 (broadcastInDim S3x1048576 ![] bcast_S_S3x1048576 : (⟨S_, .f32⟩ : BufTy).Contents (Elt F) → (⟨S3x1048576, .f32⟩ : BufTy).Contents (Elt F)),
    StableHlo.binary main_v30 main_v31 main_v32 (mulf : (⟨S3x1048576, .f32⟩ : BufTy).Contents (Elt F) → (⟨S3x1048576, .f32⟩ : BufTy).Contents (Elt F) → (⟨S3x1048576, .f32⟩ : BufTy).Contents (Elt F)),
    StableHlo.nullary main_cst_10 (constant S_ .f32 0x00000000#32),
    StableHlo.nullary main_c_11 (constantI S_ 32 511#32),
    TRef.unary (.of main_cst_10) main_call0.v0 id,
    TRef.unary main_call0.v0 main_call0.v1 (broadcastInDim S3x1048576 ![] bcast_S_S3x1048576),
    TRef.binary main_call0.v1 (.of main_v32) main_call0.v2 maximumf,
    TRef.unary (.of main_c_11) main_call0.v3 (sitofp .f32),
    TRef.unary main_call0.v3 main_call0.v4 (broadcastInDim S3x1048576 ![] bcast_S_S3x1048576),
    TRef.binary main_call0.v4 main_call0.v2 main_call0.v5 minimumf,
    StableHlo.unary main_v24 main_v34 ((extractStridedSlice S3x1048576x1 ![0, 0, 1] · slices_S3x1048576x2_S3x1048576x1_0_0_1) : (⟨S3x1048576x2, .f32⟩ : BufTy).Contents (Elt F) → (⟨S3x1048576x1, .f32⟩ : BufTy).Contents (Elt F)),
    StableHlo.reshape main_v34 main_v35 rfl shapeCasts_S3x1048576x1_S3x1048576,
    StableHlo.nullary main_cst_12 (constant S_ .f32 0x3F800000#32),
    StableHlo.unary main_cst_12 main_v36 (broadcastInDim S3x1048576 ![] bcast_S_S3x1048576 : (⟨S_, .f32⟩ : BufTy).Contents (Elt F) → (⟨S3x1048576, .f32⟩ : BufTy).Contents (Elt F)),
    StableHlo.binary main_v35 main_v36 main_v37 (addf : (⟨S3x1048576, .f32⟩ : BufTy).Contents (Elt F) → (⟨S3x1048576, .f32⟩ : BufTy).Contents (Elt F) → (⟨S3x1048576, .f32⟩ : BufTy).Contents (Elt F)),
    StableHlo.nullary main_cst_13 (constant S_ .f32 0x3F000000#32),
    StableHlo.unary main_cst_13 main_v38 (broadcastInDim S3x1048576 ![] bcast_S_S3x1048576 : (⟨S_, .f32⟩ : BufTy).Contents (Elt F) → (⟨S3x1048576, .f32⟩ : BufTy).Contents (Elt F)),
    StableHlo.binary main_v37 main_v38 main_v39 (mulf : (⟨S3x1048576, .f32⟩ : BufTy).Contents (Elt F) → (⟨S3x1048576, .f32⟩ : BufTy).Contents (Elt F) → (⟨S3x1048576, .f32⟩ : BufTy).Contents (Elt F)),
    StableHlo.nullary main_cst_14 (constant S_ .f32 0x43FF8000#32),
    StableHlo.unary main_cst_14 main_v40 (broadcastInDim S3x1048576 ![] bcast_S_S3x1048576 : (⟨S_, .f32⟩ : BufTy).Contents (Elt F) → (⟨S3x1048576, .f32⟩ : BufTy).Contents (Elt F)),
    StableHlo.binary main_v39 main_v40 main_v41 (mulf : (⟨S3x1048576, .f32⟩ : BufTy).Contents (Elt F) → (⟨S3x1048576, .f32⟩ : BufTy).Contents (Elt F) → (⟨S3x1048576, .f32⟩ : BufTy).Contents (Elt F)),
    StableHlo.nullary main_cst_15 (constant S_ .f32 0x00000000#32) ]

/-- The row coordinate clamped; floors, fractional parts, pixel words and their capped successors; the planes flattened. -/
abbrev cC : List (HloOp τ sig (Elt F)) :=
  [ StableHlo.nullary main_c_16 (constantI S_ 32 511#32),
    TRef.unary (.of main_cst_15) main_call1.v0 id,
    TRef.unary main_call1.v0 main_call1.v1 (broadcastInDim S3x1048576 ![] bcast_S_S3x1048576),
    TRef.binary main_call1.v1 (.of main_v41) main_call1.v2 maximumf,
    TRef.unary (.of main_c_16) main_call1.v3 (sitofp .f32),
    TRef.unary main_call1.v3 main_call1.v4 (broadcastInDim S3x1048576 ![] bcast_S_S3x1048576),
    TRef.binary main_call1.v4 main_call1.v2 main_call1.v5 minimumf,
    StableHlo.unary main_v33 main_v43 (Host.floor : (⟨S3x1048576, .f32⟩ : BufTy).Contents (Elt F) → (⟨S3x1048576, .f32⟩ : BufTy).Contents (Elt F)),
    StableHlo.unary main_v42 main_v44 (Host.floor : (⟨S3x1048576, .f32⟩ : BufTy).Contents (Elt F) → (⟨S3x1048576, .f32⟩ : BufTy).Contents (Elt F)),
    StableHlo.binary main_v33 main_v43 main_v45 (subf : (⟨S3x1048576, .f32⟩ : BufTy).Contents (Elt F) → (⟨S3x1048576, .f32⟩ : BufTy).Contents (Elt F) → (⟨S3x1048576, .f32⟩ : BufTy).Contents (Elt F)),
    StableHlo.binary main_v42 main_v44 main_v46 (subf : (⟨S3x1048576, .f32⟩ : BufTy).Contents (Elt F) → (⟨S3x1048576, .f32⟩ : BufTy).Contents (Elt F) → (⟨S3x1048576, .f32⟩ : BufTy).Contents (Elt F)),
    StableHlo.unary main_v43 main_v47 (fptosi 32 : (⟨S3x1048576, .f32⟩ : BufTy).Contents (Elt F) → (⟨S3x1048576, .i32⟩ : BufTy).Contents (Elt F)),
    StableHlo.unary main_v44 main_v48 (fptosi 32 : (⟨S3x1048576, .f32⟩ : BufTy).Contents (Elt F) → (⟨S3x1048576, .i32⟩ : BufTy).Contents (Elt F)),
    StableHlo.nullary main_c_17 (constantI S_ 32 1#32),
    StableHlo.unary main_c_17 main_v49 (broadcastInDim S3x1048576 ![] bcast_S_S3x1048576 : (⟨S_, .i32⟩ : BufTy).Contents (Elt F) → (⟨S3x1048576, .i32⟩ : BufTy).Contents (Elt F)),
    StableHlo.binary main_v47 main_v49 main_v50 (addi : (⟨S3x1048576, .i32⟩ : BufTy).Contents (Elt F) → (⟨S3x1048576, .i32⟩ : BufTy).Contents (Elt F) → (⟨S3x1048576, .i32⟩ : BufTy).Contents (Elt F)),
    StableHlo.nullary main_c_18 (constantI S_ 32 511#32),
    StableHlo.unary main_c_18 main_v51 (broadcastInDim S3x1048576 ![] bcast_S_S3x1048576 : (⟨S_, .i32⟩ : BufTy).Contents (Elt F) → (⟨S3x1048576, .i32⟩ : BufTy).Contents (Elt F)),
    StableHlo.binary main_v50 main_v51 main_v52 (minsi : (⟨S3x1048576, .i32⟩ : BufTy).Contents (Elt F) → (⟨S3x1048576, .i32⟩ : BufTy).Contents (Elt F) → (⟨S3x1048576, .i32⟩ : BufTy).Contents (Elt F)),
    StableHlo.nullary main_c_19 (constantI S_ 32 1#32),
    StableHlo.unary main_c_19 main_v53 (broadcastInDim S3x1048576 ![] bcast_S_S3x1048576 : (⟨S_, .i32⟩ : BufTy).Contents (Elt F) → (⟨S3x1048576, .i32⟩ : BufTy).Contents (Elt F)),
    StableHlo.binary main_v48 main_v53 main_v54 (addi : (⟨S3x1048576, .i32⟩ : BufTy).Contents (Elt F) → (⟨S3x1048576, .i32⟩ : BufTy).Contents (Elt F) → (⟨S3x1048576, .i32⟩ : BufTy).Contents (Elt F)),
    StableHlo.nullary main_c_20 (constantI S_ 32 511#32),
    StableHlo.unary main_c_20 main_v55 (broadcastInDim S3x1048576 ![] bcast_S_S3x1048576 : (⟨S_, .i32⟩ : BufTy).Contents (Elt F) → (⟨S3x1048576, .i32⟩ : BufTy).Contents (Elt F)),
    StableHlo.binary main_v54 main_v55 main_v56 (minsi : (⟨S3x1048576, .i32⟩ : BufTy).Contents (Elt F) → (⟨S3x1048576, .i32⟩ : BufTy).Contents (Elt F) → (⟨S3x1048576, .i32⟩ : BufTy).Contents (Elt F)),
    StableHlo.reshape main_arg1 main_v57 rfl shapeCasts_S3x64x512x512_S3x64x262144 ]

/-- The first weighted corner; the second corner's read and the row weight it takes. -/
abbrev cD : List (HloOp τ sig (Elt F)) :=
  [ StableHlo.nullary main_c_21 (constantI S_ 32 512#32),
    StableHlo.unary main_c_21 main_v58 (broadcastInDim S3x1048576 ![] bcast_S_S3x1048576 : (⟨S_, .i32⟩ : BufTy).Contents (Elt F) → (⟨S3x1048576, .i32⟩ : BufTy).Contents (Elt F)),
    StableHlo.binary main_v48 main_v58 main_v59 (muli : (⟨S3x1048576, .i32⟩ : BufTy).Contents (Elt F) → (⟨S3x1048576, .i32⟩ : BufTy).Contents (Elt F) → (⟨S3x1048576, .i32⟩ : BufTy).Contents (Elt F)),
    StableHlo.binary main_v59 main_v47 main_v60 (addi : (⟨S3x1048576, .i32⟩ : BufTy).Contents (Elt F) → (⟨S3x1048576, .i32⟩ : BufTy).Contents (Elt F) → (⟨S3x1048576, .i32⟩ : BufTy).Contents (Elt F)),
    StableHlo.nullary main_c_22 (constantI S_ 32 0#32),
    StableHlo.unary main_c_22 main_v61 (broadcastInDim S3x1048576 ![] bcast_S_S3x1048576 : (⟨S_, .i32⟩ : BufTy).Contents (Elt F) → (⟨S3x1048576, .i32⟩ : BufTy).Contents (Elt F)),
    StableHlo.binary main_v60 main_v61 main_v62 (cmpi .slt : (⟨S3x1048576, .i32⟩ : BufTy).Contents (Elt F) → (⟨S3x1048576, .i32⟩ : BufTy).Contents (Elt F) → (⟨S3x1048576, .i1⟩ : BufTy).Contents (Elt F)),
    StableHlo.nullary main_c_23 (constantI S_ 32 262144#32),
    StableHlo.unary main_c_23 main_v63 (broadcastInDim S3x1048576 ![] bcast_S_S3x1048576 : (⟨S_, .i32⟩ : BufTy).Contents (Elt F) → (⟨S3x1048576, .i32⟩ : BufTy).Contents (Elt F)),
    StableHlo.binary main_v60 main_v63 main_v64 (addi : (⟨S3x1048576, .i32⟩ : BufTy).Contents (Elt F) → (⟨S3x1048576, .i32⟩ : BufTy).Contents (Elt F) → (⟨S3x1048576, .i32⟩ : BufTy).Contents (Elt F)),
    StableHlo.ternary main_v62 main_v64 main_v60 main_v65 (select : (⟨S3x1048576, .i1⟩ : BufTy).Contents (Elt F) → (⟨S3x1048576, .i32⟩ : BufTy).Contents (Elt F) → (⟨S3x1048576, .i32⟩ : BufTy).Contents (Elt F) → (⟨S3x1048576, .i32⟩ : BufTy).Contents (Elt F)),
    StableHlo.unary main_v65 main_v66 (broadcastInDim S3x1048576x1 ![0, 1] bcast_S3x1048576_S3x1048576x1_0_1 : (⟨S3x1048576, .i32⟩ : BufTy).Contents (Elt F) → (⟨S3x1048576x1, .i32⟩ : BufTy).Contents (Elt F)),
    StableHlo.binary main_v57 main_v66 main_v67 ((fun x i => Host.gather gather_S3x64x262144_S3x1048576x1_S3x64x1048576_1_2_0_0_2_2_1641 x i) : (⟨S3x64x262144, .f32⟩ : BufTy).Contents (Elt F) → (⟨S3x1048576x1, .i32⟩ : BufTy).Contents (Elt F) → (⟨S3x64x1048576, .f32⟩ : BufTy).Contents (Elt F)),
    StableHlo.nullary main_cst_24 (constant S_ .f32 0x3F800000#32),
    StableHlo.unary main_cst_24 main_v68 (broadcastInDim S3x1048576 ![] bcast_S_S3x1048576 : (⟨S_, .f32⟩ : BufTy).Contents (Elt F) → (⟨S3x1048576, .f32⟩ : BufTy).Contents (Elt F)),
    StableHlo.binary main_v68 main_v45 main_v69 (subf : (⟨S3x1048576, .f32⟩ : BufTy).Contents (Elt F) → (⟨S3x1048576, .f32⟩ : BufTy).Contents (Elt F) → (⟨S3x1048576, .f32⟩ : BufTy).Contents (Elt F)),
    StableHlo.nullary main_cst_25 (constant S_ .f32 0x3F800000#32),
    StableHlo.unary main_cst_25 main_v70 (broadcastInDim S3x1048576 ![] bcast_S_S3x1048576 : (⟨S_, .f32⟩ : BufTy).Contents (Elt F) → (⟨S3x1048576, .f32⟩ : BufTy).Contents (Elt F)),
    StableHlo.binary main_v70 main_v46 main_v71 (subf : (⟨S3x1048576, .f32⟩ : BufTy).Contents (Elt F) → (⟨S3x1048576, .f32⟩ : BufTy).Contents (Elt F) → (⟨S3x1048576, .f32⟩ : BufTy).Contents (Elt F)),
    StableHlo.binary main_v69 main_v71 main_v72 (mulf : (⟨S3x1048576, .f32⟩ : BufTy).Contents (Elt F) → (⟨S3x1048576, .f32⟩ : BufTy).Contents (Elt F) → (⟨S3x1048576, .f32⟩ : BufTy).Contents (Elt F)),
    StableHlo.unary main_v72 main_v73 (broadcastInDim S3x1x1048576 ![0, 2] bcast_S3x1048576_S3x1x1048576_0_2 : (⟨S3x1048576, .f32⟩ : BufTy).Contents (Elt F) → (⟨S3x1x1048576, .f32⟩ : BufTy).Contents (Elt F)),
    StableHlo.unary main_v73 main_v74 (broadcastInDim S3x64x1048576 ![0, 1, 2] bcast_S3x1x1048576_S3x64x1048576_0_1_2 : (⟨S3x1x1048576, .f32⟩ : BufTy).Contents (Elt F) → (⟨S3x64x1048576, .f32⟩ : BufTy).Contents (Elt F)),
    StableHlo.binary main_v67 main_v74 main_v75 (mulf : (⟨S3x64x1048576, .f32⟩ : BufTy).Contents (Elt F) → (⟨S3x64x1048576, .f32⟩ : BufTy).Contents (Elt F) → (⟨S3x64x1048576, .f32⟩ : BufTy).Contents (Elt F)),
    StableHlo.nullary main_c_26 (constantI S_ 32 512#32),
    StableHlo.unary main_c_26 main_v76 (broadcastInDim S3x1048576 ![] bcast_S_S3x1048576 : (⟨S_, .i32⟩ : BufTy).Contents (Elt F) → (⟨S3x1048576, .i32⟩ : BufTy).Contents (Elt F)),
    StableHlo.binary main_v48 main_v76 main_v77 (muli : (⟨S3x1048576, .i32⟩ : BufTy).Contents (Elt F) → (⟨S3x1048576, .i32⟩ : BufTy).Contents (Elt F) → (⟨S3x1048576, .i32⟩ : BufTy).Contents (Elt F)),
    StableHlo.binary main_v77 main_v52 main_v78 (addi : (⟨S3x1048576, .i32⟩ : BufTy).Contents (Elt F) → (⟨S3x1048576, .i32⟩ : BufTy).Contents (Elt F) → (⟨S3x1048576, .i32⟩ : BufTy).Contents (Elt F)),
    StableHlo.nullary main_c_27 (constantI S_ 32 0#32),
    StableHlo.unary main_c_27 main_v79 (broadcastInDim S3x1048576 ![] bcast_S_S3x1048576 : (⟨S_, .i32⟩ : BufTy).Contents (Elt F) → (⟨S3x1048576, .i32⟩ : BufTy).Contents (Elt F)),
    StableHlo.binary main_v78 main_v79 main_v80 (cmpi .slt : (⟨S3x1048576, .i32⟩ : BufTy).Contents (Elt F) → (⟨S3x1048576, .i32⟩ : BufTy).Contents (Elt F) → (⟨S3x1048576, .i1⟩ : BufTy).Contents (Elt F)),
    StableHlo.nullary main_c_28 (constantI S_ 32 262144#32),
    StableHlo.unary main_c_28 main_v81 (broadcastInDim S3x1048576 ![] bcast_S_S3x1048576 : (⟨S_, .i32⟩ : BufTy).Contents (Elt F) → (⟨S3x1048576, .i32⟩ : BufTy).Contents (Elt F)),
    StableHlo.binary main_v78 main_v81 main_v82 (addi : (⟨S3x1048576, .i32⟩ : BufTy).Contents (Elt F) → (⟨S3x1048576, .i32⟩ : BufTy).Contents (Elt F) → (⟨S3x1048576, .i32⟩ : BufTy).Contents (Elt F)),
    StableHlo.ternary main_v80 main_v82 main_v78 main_v83 (select : (⟨S3x1048576, .i1⟩ : BufTy).Contents (Elt F) → (⟨S3x1048576, .i32⟩ : BufTy).Contents (Elt F) → (⟨S3x1048576, .i32⟩ : BufTy).Contents (Elt F) → (⟨S3x1048576, .i32⟩ : BufTy).Contents (Elt F)),
    StableHlo.unary main_v83 main_v84 (broadcastInDim S3x1048576x1 ![0, 1] bcast_S3x1048576_S3x1048576x1_0_1 : (⟨S3x1048576, .i32⟩ : BufTy).Contents (Elt F) → (⟨S3x1048576x1, .i32⟩ : BufTy).Contents (Elt F)),
    StableHlo.binary main_v57 main_v84 main_v85 ((fun x i => Host.gather gather_S3x64x262144_S3x1048576x1_S3x64x1048576_1_2_0_0_2_2_1641 x i) : (⟨S3x64x262144, .f32⟩ : BufTy).Contents (Elt F) → (⟨S3x1048576x1, .i32⟩ : BufTy).Contents (Elt F) → (⟨S3x64x1048576, .f32⟩ : BufTy).Contents (Elt F)),
    StableHlo.nullary main_cst_29 (constant S_ .f32 0x3F800000#32),
    StableHlo.unary main_cst_29 main_v86 (broadcastInDim S3x1048576 ![] bcast_S_S3x1048576 : (⟨S_, .f32⟩ : BufTy).Contents (Elt F) → (⟨S3x1048576, .f32⟩ : BufTy).Contents (Elt F)),
    StableHlo.binary main_v86 main_v46 main_v87 (subf : (⟨S3x1048576, .f32⟩ : BufTy).Contents (Elt F) → (⟨S3x1048576, .f32⟩ : BufTy).Contents (Elt F) → (⟨S3x1048576, .f32⟩ : BufTy).Contents (Elt F)) ]

/-- The second, third and fourth weighted corners added on, the sum over the planes, the transpose. -/
abbrev cE : List (HloOp τ sig (Elt F)) :=
  [ StableHlo.binary main_v45 main_v87 main_v88 (mulf : (⟨S3x1048576, .f32⟩ : BufTy).Contents (Elt F) → (⟨S3x1048576, .f32⟩ : BufTy).Contents (Elt F) → (⟨S3x1048576, .f32⟩ : BufTy).Contents (Elt F)),
    StableHlo.unary main_v88 main_v89 (broadcastInDim S3x1x1048576 ![0, 2] bcast_S3x1048576_S3x1x1048576_0_2 : (⟨S3x1048576, .f32⟩ : BufTy).Contents (Elt F) → (⟨S3x1x1048576, .f32⟩ : BufTy).Contents (Elt F)),
    StableHlo.unary main_v89 main_v90 (broadcastInDim S3x64x1048576 ![0, 1, 2] bcast_S3x1x1048576_S3x64x1048576_0_1_2 : (⟨S3x1x1048576, .f32⟩ : BufTy).Contents (Elt F) → (⟨S3x64x1048576, .f32⟩ : BufTy).Contents (Elt F)),
    StableHlo.binary main_v85 main_v90 main_v91 (mulf : (⟨S3x64x1048576, .f32⟩ : BufTy).Contents (Elt F) → (⟨S3x64x1048576, .f32⟩ : BufTy).Contents (Elt F) → (⟨S3x64x1048576, .f32⟩ : BufTy).Contents (Elt F)),
    StableHlo.binary main_v75 main_v91 main_v92 (addf : (⟨S3x64x1048576, .f32⟩ : BufTy).Contents (Elt F) → (⟨S3x64x1048576, .f32⟩ : BufTy).Contents (Elt F) → (⟨S3x64x1048576, .f32⟩ : BufTy).Contents (Elt F)),
    StableHlo.nullary main_c_30 (constantI S_ 32 512#32),
    StableHlo.unary main_c_30 main_v93 (broadcastInDim S3x1048576 ![] bcast_S_S3x1048576 : (⟨S_, .i32⟩ : BufTy).Contents (Elt F) → (⟨S3x1048576, .i32⟩ : BufTy).Contents (Elt F)),
    StableHlo.binary main_v56 main_v93 main_v94 (muli : (⟨S3x1048576, .i32⟩ : BufTy).Contents (Elt F) → (⟨S3x1048576, .i32⟩ : BufTy).Contents (Elt F) → (⟨S3x1048576, .i32⟩ : BufTy).Contents (Elt F)),
    StableHlo.binary main_v94 main_v47 main_v95 (addi : (⟨S3x1048576, .i32⟩ : BufTy).Contents (Elt F) → (⟨S3x1048576, .i32⟩ : BufTy).Contents (Elt F) → (⟨S3x1048576, .i32⟩ : BufTy).Contents (Elt F)),
    StableHlo.nullary main_c_31 (constantI S_ 32 0#32),
    StableHlo.unary main_c_31 main_v96 (broadcastInDim S3x1048576 ![] bcast_S_S3x1048576 : (⟨S_, .i32⟩ : BufTy).Contents (Elt F) → (⟨S3x1048576, .i32⟩ : BufTy).Contents (Elt F)),
    StableHlo.binary main_v95 main_v96 main_v97 (cmpi .slt : (⟨S3x1048576, .i32⟩ : BufTy).Contents (Elt F) → (⟨S3x1048576, .i32⟩ : BufTy).Contents (Elt F) → (⟨S3x1048576, .i1⟩ : BufTy).Contents (Elt F)),
    StableHlo.nullary main_c_32 (constantI S_ 32 262144#32),
    StableHlo.unary main_c_32 main_v98 (broadcastInDim S3x1048576 ![] bcast_S_S3x1048576 : (⟨S_, .i32⟩ : BufTy).Contents (Elt F) → (⟨S3x1048576, .i32⟩ : BufTy).Contents (Elt F)),
    StableHlo.binary main_v95 main_v98 main_v99 (addi : (⟨S3x1048576, .i32⟩ : BufTy).Contents (Elt F) → (⟨S3x1048576, .i32⟩ : BufTy).Contents (Elt F) → (⟨S3x1048576, .i32⟩ : BufTy).Contents (Elt F)),
    StableHlo.ternary main_v97 main_v99 main_v95 main_v100 (select : (⟨S3x1048576, .i1⟩ : BufTy).Contents (Elt F) → (⟨S3x1048576, .i32⟩ : BufTy).Contents (Elt F) → (⟨S3x1048576, .i32⟩ : BufTy).Contents (Elt F) → (⟨S3x1048576, .i32⟩ : BufTy).Contents (Elt F)),
    StableHlo.unary main_v100 main_v101 (broadcastInDim S3x1048576x1 ![0, 1] bcast_S3x1048576_S3x1048576x1_0_1 : (⟨S3x1048576, .i32⟩ : BufTy).Contents (Elt F) → (⟨S3x1048576x1, .i32⟩ : BufTy).Contents (Elt F)),
    StableHlo.binary main_v57 main_v101 main_v102 ((fun x i => Host.gather gather_S3x64x262144_S3x1048576x1_S3x64x1048576_1_2_0_0_2_2_1641 x i) : (⟨S3x64x262144, .f32⟩ : BufTy).Contents (Elt F) → (⟨S3x1048576x1, .i32⟩ : BufTy).Contents (Elt F) → (⟨S3x64x1048576, .f32⟩ : BufTy).Contents (Elt F)),
    StableHlo.nullary main_cst_33 (constant S_ .f32 0x3F800000#32),
    StableHlo.unary main_cst_33 main_v103 (broadcastInDim S3x1048576 ![] bcast_S_S3x1048576 : (⟨S_, .f32⟩ : BufTy).Contents (Elt F) → (⟨S3x1048576, .f32⟩ : BufTy).Contents (Elt F)),
    StableHlo.binary main_v103 main_v45 main_v104 (subf : (⟨S3x1048576, .f32⟩ : BufTy).Contents (Elt F) → (⟨S3x1048576, .f32⟩ : BufTy).Contents (Elt F) → (⟨S3x1048576, .f32⟩ : BufTy).Contents (Elt F)),
    StableHlo.binary main_v104 main_v46 main_v105 (mulf : (⟨S3x1048576, .f32⟩ : BufTy).Contents (Elt F) → (⟨S3x1048576, .f32⟩ : BufTy).Contents (Elt F) → (⟨S3x1048576, .f32⟩ : BufTy).Contents (Elt F)),
    StableHlo.unary main_v105 main_v106 (broadcastInDim S3x1x1048576 ![0, 2] bcast_S3x1048576_S3x1x1048576_0_2 : (⟨S3x1048576, .f32⟩ : BufTy).Contents (Elt F) → (⟨S3x1x1048576, .f32⟩ : BufTy).Contents (Elt F)),
    StableHlo.unary main_v106 main_v107 (broadcastInDim S3x64x1048576 ![0, 1, 2] bcast_S3x1x1048576_S3x64x1048576_0_1_2 : (⟨S3x1x1048576, .f32⟩ : BufTy).Contents (Elt F) → (⟨S3x64x1048576, .f32⟩ : BufTy).Contents (Elt F)),
    StableHlo.binary main_v102 main_v107 main_v108 (mulf : (⟨S3x64x1048576, .f32⟩ : BufTy).Contents (Elt F) → (⟨S3x64x1048576, .f32⟩ : BufTy).Contents (Elt F) → (⟨S3x64x1048576, .f32⟩ : BufTy).Contents (Elt F)),
    StableHlo.binary main_v92 main_v108 main_v109 (addf : (⟨S3x64x1048576, .f32⟩ : BufTy).Contents (Elt F) → (⟨S3x64x1048576, .f32⟩ : BufTy).Contents (Elt F) → (⟨S3x64x1048576, .f32⟩ : BufTy).Contents (Elt F)),
    StableHlo.nullary main_c_34 (constantI S_ 32 512#32),
    StableHlo.unary main_c_34 main_v110 (broadcastInDim S3x1048576 ![] bcast_S_S3x1048576 : (⟨S_, .i32⟩ : BufTy).Contents (Elt F) → (⟨S3x1048576, .i32⟩ : BufTy).Contents (Elt F)),
    StableHlo.binary main_v56 main_v110 main_v111 (muli : (⟨S3x1048576, .i32⟩ : BufTy).Contents (Elt F) → (⟨S3x1048576, .i32⟩ : BufTy).Contents (Elt F) → (⟨S3x1048576, .i32⟩ : BufTy).Contents (Elt F)),
    StableHlo.binary main_v111 main_v52 main_v112 (addi : (⟨S3x1048576, .i32⟩ : BufTy).Contents (Elt F) → (⟨S3x1048576, .i32⟩ : BufTy).Contents (Elt F) → (⟨S3x1048576, .i32⟩ : BufTy).Contents (Elt F)),
    StableHlo.nullary main_c_35 (constantI S_ 32 0#32),
    StableHlo.unary main_c_35 main_v113 (broadcastInDim S3x1048576 ![] bcast_S_S3x1048576 : (⟨S_, .i32⟩ : BufTy).Contents (Elt F) → (⟨S3x1048576, .i32⟩ : BufTy).Contents (Elt F)),
    StableHlo.binary main_v112 main_v113 main_v114 (cmpi .slt : (⟨S3x1048576, .i32⟩ : BufTy).Contents (Elt F) → (⟨S3x1048576, .i32⟩ : BufTy).Contents (Elt F) → (⟨S3x1048576, .i1⟩ : BufTy).Contents (Elt F)),
    StableHlo.nullary main_c_36 (constantI S_ 32 262144#32),
    StableHlo.unary main_c_36 main_v115 (broadcastInDim S3x1048576 ![] bcast_S_S3x1048576 : (⟨S_, .i32⟩ : BufTy).Contents (Elt F) → (⟨S3x1048576, .i32⟩ : BufTy).Contents (Elt F)),
    StableHlo.binary main_v112 main_v115 main_v116 (addi : (⟨S3x1048576, .i32⟩ : BufTy).Contents (Elt F) → (⟨S3x1048576, .i32⟩ : BufTy).Contents (Elt F) → (⟨S3x1048576, .i32⟩ : BufTy).Contents (Elt F)),
    StableHlo.ternary main_v114 main_v116 main_v112 main_v117 (select : (⟨S3x1048576, .i1⟩ : BufTy).Contents (Elt F) → (⟨S3x1048576, .i32⟩ : BufTy).Contents (Elt F) → (⟨S3x1048576, .i32⟩ : BufTy).Contents (Elt F) → (⟨S3x1048576, .i32⟩ : BufTy).Contents (Elt F)),
    StableHlo.unary main_v117 main_v118 (broadcastInDim S3x1048576x1 ![0, 1] bcast_S3x1048576_S3x1048576x1_0_1 : (⟨S3x1048576, .i32⟩ : BufTy).Contents (Elt F) → (⟨S3x1048576x1, .i32⟩ : BufTy).Contents (Elt F)),
    StableHlo.binary main_v57 main_v118 main_v119 ((fun x i => Host.gather gather_S3x64x262144_S3x1048576x1_S3x64x1048576_1_2_0_0_2_2_1641 x i) : (⟨S3x64x262144, .f32⟩ : BufTy).Contents (Elt F) → (⟨S3x1048576x1, .i32⟩ : BufTy).Contents (Elt F) → (⟨S3x64x1048576, .f32⟩ : BufTy).Contents (Elt F)),
    StableHlo.binary main_v45 main_v46 main_v120 (mulf : (⟨S3x1048576, .f32⟩ : BufTy).Contents (Elt F) → (⟨S3x1048576, .f32⟩ : BufTy).Contents (Elt F) → (⟨S3x1048576, .f32⟩ : BufTy).Contents (Elt F)),
    StableHlo.unary main_v120 main_v121 (broadcastInDim S3x1x1048576 ![0, 2] bcast_S3x1048576_S3x1x1048576_0_2 : (⟨S3x1048576, .f32⟩ : BufTy).Contents (Elt F) → (⟨S3x1x1048576, .f32⟩ : BufTy).Contents (Elt F)),
    StableHlo.unary main_v121 main_v122 (broadcastInDim S3x64x1048576 ![0, 1, 2] bcast_S3x1x1048576_S3x64x1048576_0_1_2 : (⟨S3x1x1048576, .f32⟩ : BufTy).Contents (Elt F) → (⟨S3x64x1048576, .f32⟩ : BufTy).Contents (Elt F)),
    StableHlo.binary main_v119 main_v122 main_v123 (mulf : (⟨S3x64x1048576, .f32⟩ : BufTy).Contents (Elt F) → (⟨S3x64x1048576, .f32⟩ : BufTy).Contents (Elt F) → (⟨S3x64x1048576, .f32⟩ : BufTy).Contents (Elt F)),
    StableHlo.binary main_v109 main_v123 main_v124 (addf : (⟨S3x64x1048576, .f32⟩ : BufTy).Contents (Elt F) → (⟨S3x64x1048576, .f32⟩ : BufTy).Contents (Elt F) → (⟨S3x64x1048576, .f32⟩ : BufTy).Contents (Elt F)),
    StableHlo.nullary main_cst_37 (constant S_ .f32 0x00000000#32),
    StableHlo.binary main_v124 main_cst_37 main_v125 ((fun x v => Host.reduceAdd x v reducesTo_S3x64x1048576_S64x1048576_d0 h_S_) : (⟨S3x64x1048576, .f32⟩ : BufTy).Contents (Elt F) → (⟨S_, .f32⟩ : BufTy).Contents (Elt F) → (⟨S64x1048576, .f32⟩ : BufTy).Contents (Elt F)),
    StableHlo.unary main_v125 main_v126 ((transpose S1048576x64 [1, 0] · transposes_S64x1048576_S1048576x64_1_0) : (⟨S64x1048576, .f32⟩ : BufTy).Contents (Elt F) → (⟨S1048576x64, .f32⟩ : BufTy).Contents (Elt F)) ]

/-- The whole line. -/
abbrev ops : List (HloOp τ sig (Elt F)) := cA ++ cB ++ cC ++ cD ++ cE

set_option maxRecDepth 4096 in
set_option maxHeartbeats 4000000 in
theorem part0_eq (c : Dev nD) : main_part0 (F := F) c = seq (cA ++ cB) := rfl
set_option maxRecDepth 4096 in
set_option maxHeartbeats 4000000 in
theorem part1_eq (c : Dev nD) : main_part1 (F := F) c = seq (cC ++ cD) := rfl
set_option maxRecDepth 4096 in
set_option maxHeartbeats 4000000 in
theorem part2_eq (c : Dev nD) : main_part2 (F := F) c = seq cE := rfl

/-- @main is that line: its three windows are the stretches in order, and sequencing re-associates. -/
theorem main_eq (c : Dev nD) : main (F := F) c = seq ops := by
  have h : main (F := F) c = (main_part0 c >>= fun _ => main_part1 c >>= fun _ => main_part2 c) := rfl
  rw [h, part0_eq, part1_eq, part2_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem cA_sub : (cA : List (HloOp τ sig (Elt F))).Forall fun op => op.bufs ⊆ tcRefs τ sig :=
  ⟨nullary_bufs_sub .., nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub ..⟩
theorem cA_fresh : ∀ op ∈ (cA : List (HloOp τ sig (Elt F))), op.fresh = ∅ := by
  intro _ h; (repeat (cases h with | head => rfl | tail _ h => ?_)); exact nomatch h

theorem cB_sub : (cB : List (HloOp τ sig (Elt F))).Forall fun op => op.bufs ⊆ tcRefs τ sig :=
  ⟨nary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub ..⟩
theorem cB_fresh : ∀ op ∈ (cB : List (HloOp τ sig (Elt F))), op.fresh = ∅ := by
  intro _ h; (repeat (cases h with | head => rfl | tail _ h => ?_)); exact nomatch h

theorem cC_sub : (cC : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., reshape_bufs_sub ..⟩
theorem cC_fresh : ∀ op ∈ (cC : List (HloOp τ sig (Elt F))), op.fresh = ∅ := by
  intro _ h; (repeat (cases h with | head => rfl | tail _ h => ?_)); exact nomatch h

theorem cD_sub : (cD : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩
theorem cD_fresh : ∀ op ∈ (cD : List (HloOp τ sig (Elt F))), op.fresh = ∅ := by
  intro _ h; (repeat (cases h with | head => rfl | tail _ h => ?_)); exact nomatch h

theorem cE_sub : (cE : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., nullary_bufs_sub .., binary_bufs_sub .., unary_bufs_sub ..⟩
theorem cE_fresh : ∀ op ∈ (cE : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with (((h | h) | h) | h) | h
    exacts [List.forall_iff_forall_mem.mp cA_sub op h, List.forall_iff_forall_mem.mp cB_sub op h,
      List.forall_iff_forall_mem.mp cC_sub op h, List.forall_iff_forall_mem.mp cD_sub op h,
      List.forall_iff_forall_mem.mp cE_sub op h]

theorem ops_fresh : ∀ op ∈ (ops : List (HloOp τ sig (Elt F))), op.fresh = ∅ := by
  intro op h
  simp only [ops, List.mem_append] at h
  rcases h with (((h | h) | h) | h) | h
  exacts [cA_fresh op h, cB_fresh op h, cC_fresh op h, cD_fresh op h, cE_fresh op h]

/-! ## Each stretch's live results as terms of what it reads

For any float family: the closing comparison is then between two copies of one term. The big reads and folds are kept
folded while the chain of writes is opened. -/

/-- A float word at every (plane, point); the clamp to [z, 511]; one corner's read; a weight at every channel. -/
abbrev bFg (w : BitVec 32) : FVec F S3x1048576 .f32 :=
  broadcastInDim S3x1048576 ![] bcast_S_S3x1048576 (constant (F := F) S_ .f32 w)
abbrev clipG (z : FVec F S_ .f32) (r : FVec F S3x1048576 .f32) : FVec F S3x1048576 .f32 :=
  minimumf (broadcastInDim S3x1048576 ![] bcast_S_S3x1048576 (sitofp (F := F) .f32 (constantI S_ 32 511#32)))
    (maximumf (broadcastInDim S3x1048576 ![] bcast_S_S3x1048576 (id z)) r)
abbrev scaleG (raw : FVec F S3x1048576 .f32) : FVec F S3x1048576 .f32 :=
  mulf (mulf (addf raw (bFg 0x3F800000#32)) (bFg 0x3F000000#32)) (bFg 0x43FF8000#32)
abbrev cornerG (c : FVec F S3x64x262144 .f32) (yy xx : IVec S3x1048576 32) : FVec F S3x64x1048576 .f32 :=
  Host.gather gather_S3x64x262144_S3x1048576x1_S3x64x1048576_1_2_0_0_2_2_1641 c (flatIx yy xx)
abbrev spreadG (w : FVec F S3x1048576 .f32) : FVec F S3x64x1048576 .f32 :=
  broadcastInDim S3x64x1048576 ![0, 1, 2] bcast_S3x1x1048576_S3x64x1048576_0_1_2
    (broadcastInDim S3x1x1048576 ![0, 2] bcast_S3x1048576_S3x1x1048576_0_2 w)

attribute [local irreducible] Host.gather Host.reduceAdd Host.floor

set_option maxRecDepth 8192 in
set_option maxHeartbeats 1000000 in
theorem cA_v21 (V : Valuation τ sig (Elt F)) :
    after cA V (main_v21 : DevRef τ sig)
      = broadcastInDim S1x1048576x2 ![1, 2] bcast_S1048576x2_S1x1048576x2_1_2
          (Host.gather gather_S1048576x3_S2x1_S1048576x2_0_1_n_n_1_1_10485761 (V (main_arg0 : DevRef τ sig)) (colIdx lit0)) := by
  after_results_simp <;> rfl

set_option maxRecDepth 8192 in
set_option maxHeartbeats 1000000 in
theorem cA_v22 (V : Valuation τ sig (Elt F)) :
    after cA V (main_v22 : DevRef τ sig)
      = broadcastInDim S1x1048576x2 ![1, 2] bcast_S1048576x2_S1x1048576x2_1_2
          (Host.gather gather_S1048576x3_S2x1_S1048576x2_0_1_n_n_1_1_10485761 (V (main_arg0 : DevRef τ sig)) (colIdx lit1)) := by
  after_results_simp <;> rfl

set_option maxRecDepth 8192 in
set_option maxHeartbeats 1000000 in
theorem cA_v23 (V : Valuation τ sig (Elt F)) :
    after cA V (main_v23 : DevRef τ sig)
      = broadcastInDim S1x1048576x2 ![1, 2] bcast_S1048576x2_S1x1048576x2_1_2
          (Host.gather gather_S1048576x3_S2x1_S1048576x2_0_1_n_n_1_1_10485761 (V (main_arg0 : DevRef τ sig)) (colIdx lit2)) := by
  after_results_simp <;> rfl

set_option maxRecDepth 8192 in
set_option maxHeartbeats 1000000 in
theorem cA_arg0 (V : Valuation τ sig (Elt F)) :
    after cA V (main_arg0 : DevRef τ sig) = V (main_arg0 : DevRef τ sig) := by
  after_results_simp

set_option maxRecDepth 8192 in
set_option maxHeartbeats 1000000 in
theorem cA_arg1 (V : Valuation τ sig (Elt F)) :
    after cA V (main_arg1 : DevRef τ sig) = V (main_arg1 : DevRef τ sig) := by
  after_results_simp

set_option maxRecDepth 8192 in
set_option maxHeartbeats 1000000 in
theorem cB_v33 (V : Valuation τ sig (Elt F)) :
    after cB V (main_v33 : DevRef τ sig)
      = clipG (constant (F := F) S_ .f32 0x00000000#32) (scaleG (shapeCast S3x1048576 (extractStridedSlice S3x1048576x1 ![0, 0, 0] (concatenate S3x1048576x2 0 [⟨S1x1048576x2, (V (main_v21 : DevRef τ sig))⟩, ⟨S1x1048576x2, (V (main_v22 : DevRef τ sig))⟩, ⟨S1x1048576x2, (V (main_v23 : DevRef τ sig))⟩]
          concatenates_S1x1048576x2_S1x1048576x2_S1x1048576x2_S3x1048576x2_d0)
          slices_S3x1048576x2_S3x1048576x1_0_0_0) shapeCasts_S3x1048576x1_S3x1048576)) := by
  after_results_simp <;> rfl

set_option maxRecDepth 8192 in
set_option maxHeartbeats 1000000 in
theorem cB_v41 (V : Valuation τ sig (Elt F)) :
    after cB V (main_v41 : DevRef τ sig)
      = scaleG (shapeCast S3x1048576 (extractStridedSlice S3x1048576x1 ![0, 0, 1] (concatenate S3x1048576x2 0 [⟨S1x1048576x2, (V (main_v21 : DevRef τ sig))⟩, ⟨S1x1048576x2, (V (main_v22 : DevRef τ sig))⟩, ⟨S1x1048576x2, (V (main_v23 : DevRef τ sig))⟩]
          concatenates_S1x1048576x2_S1x1048576x2_S1x1048576x2_S3x1048576x2_d0)
          slices_S3x1048576x2_S3x1048576x1_0_0_1) shapeCasts_S3x1048576x1_S3x1048576) := by
  after_results_simp <;> rfl

set_option maxRecDepth 8192 in
set_option maxHeartbeats 1000000 in
theorem cB_cst_15 (V : Valuation τ sig (Elt F)) :
    after cB V (main_cst_15 : DevRef τ sig)
      = constant (F := F) S_ .f32 0x00000000#32 := by
  after_results_simp

set_option maxRecDepth 8192 in
set_option maxHeartbeats 1000000 in
theorem cB_arg0 (V : Valuation τ sig (Elt F)) :
    after cB V (main_arg0 : DevRef τ sig) = V (main_arg0 : DevRef τ sig) := by
  after_results_simp

set_option maxRecDepth 8192 in
set_option maxHeartbeats 1000000 in
theorem cB_arg1 (V : Valuation τ sig (Elt F)) :
    after cB V (main_arg1 : DevRef τ sig) = V (main_arg1 : DevRef τ sig) := by
  after_results_simp

set_option maxRecDepth 8192 in
set_option maxHeartbeats 1000000 in
theorem cC_v45 (V : Valuation τ sig (Elt F)) :
    after cC V (main_v45 : DevRef τ sig)
      = subf (V (main_v33 : DevRef τ sig)) (Host.floor (V (main_v33 : DevRef τ sig))) := by
  after_results_simp <;> rfl

set_option maxRecDepth 8192 in
set_option maxHeartbeats 1000000 in
theorem cC_v46 (V : Valuation τ sig (Elt F)) :
    after cC V (main_v46 : DevRef τ sig)
      = subf (clipG (V (main_cst_15 : DevRef τ sig)) (V (main_v41 : DevRef τ sig))) (Host.floor (clipG (V (main_cst_15 : DevRef τ sig)) (V (main_v41 : DevRef τ sig)))) := by
  after_results_simp <;> rfl

set_option maxRecDepth 8192 in
set_option maxHeartbeats 1000000 in
theorem cC_v47 (V : Valuation τ sig (Elt F)) :
    after cC V (main_v47 : DevRef τ sig)
      = fptosi 32 (Host.floor (V (main_v33 : DevRef τ sig))) := by
  after_results_simp <;> rfl

set_option maxRecDepth 8192 in
set_option maxHeartbeats 1000000 in
theorem cC_v48 (V : Valuation τ sig (Elt F)) :
    after cC V (main_v48 : DevRef τ sig)
      = fptosi 32 (Host.floor (clipG (V (main_cst_15 : DevRef τ sig)) (V (main_v41 : DevRef τ sig)))) := by
  after_results_simp <;> rfl

set_option maxRecDepth 8192 in
set_option maxHeartbeats 1000000 in
theorem cC_v52 (V : Valuation τ sig (Elt F)) :
    after cC V (main_v52 : DevRef τ sig)
      = minsi (addi (fptosi 32 (Host.floor (V (main_v33 : DevRef τ sig)))) (bI 1#32)) (bI 511#32) := by
  after_results_simp <;> rfl

set_option maxRecDepth 8192 in
set_option maxHeartbeats 1000000 in
theorem cC_v56 (V : Valuation τ sig (Elt F)) :
    after cC V (main_v56 : DevRef τ sig)
      = minsi (addi (fptosi 32 (Host.floor (clipG (V (main_cst_15 : DevRef τ sig)) (V (main_v41 : DevRef τ sig))))) (bI 1#32)) (bI 511#32) := by
  after_results_simp <;> rfl

set_option maxRecDepth 8192 in
set_option maxHeartbeats 1000000 in
theorem cC_v57 (V : Valuation τ sig (Elt F)) :
    after cC V (main_v57 : DevRef τ sig)
      = shapeCast S3x64x262144 (V (main_arg1 : DevRef τ sig)) shapeCasts_S3x64x512x512_S3x64x262144 := by
  after_results_simp <;> rfl

set_option maxRecDepth 8192 in
set_option maxHeartbeats 1000000 in
theorem cC_arg0 (V : Valuation τ sig (Elt F)) :
    after cC V (main_arg0 : DevRef τ sig) = V (main_arg0 : DevRef τ sig) := by
  after_results_simp

set_option maxRecDepth 8192 in
set_option maxHeartbeats 1000000 in
theorem cC_arg1 (V : Valuation τ sig (Elt F)) :
    after cC V (main_arg1 : DevRef τ sig) = V (main_arg1 : DevRef τ sig) := by
  after_results_simp

set_option maxRecDepth 8192 in
set_option maxHeartbeats 1000000 in
theorem cD_v75 (V : Valuation τ sig (Elt F)) :
    after cD V (main_v75 : DevRef τ sig)
      = mulf (cornerG (V (main_v57 : DevRef τ sig)) (V (main_v48 : DevRef τ sig)) (V (main_v47 : DevRef τ sig)))
          (spreadG (mulf (subf (bFg 0x3F800000#32) (V (main_v45 : DevRef τ sig))) (subf (bFg 0x3F800000#32) (V (main_v46 : DevRef τ sig))))) := by
  after_results_simp <;> rfl

set_option maxRecDepth 8192 in
set_option maxHeartbeats 1000000 in
theorem cD_v85 (V : Valuation τ sig (Elt F)) :
    after cD V (main_v85 : DevRef τ sig)
      = cornerG (V (main_v57 : DevRef τ sig)) (V (main_v48 : DevRef τ sig)) (V (main_v52 : DevRef τ sig)) := by
  after_results_simp <;> rfl

set_option maxRecDepth 8192 in
set_option maxHeartbeats 1000000 in
theorem cD_v87 (V : Valuation τ sig (Elt F)) :
    after cD V (main_v87 : DevRef τ sig)
      = subf (bFg 0x3F800000#32) (V (main_v46 : DevRef τ sig)) := by
  after_results_simp <;> rfl

set_option maxRecDepth 8192 in
set_option maxHeartbeats 1000000 in
theorem cD_v45 (V : Valuation τ sig (Elt F)) :
    after cD V (main_v45 : DevRef τ sig) = V (main_v45 : DevRef τ sig) := by
  after_results_simp

set_option maxRecDepth 8192 in
set_option maxHeartbeats 1000000 in
theorem cD_v46 (V : Valuation τ sig (Elt F)) :
    after cD V (main_v46 : DevRef τ sig) = V (main_v46 : DevRef τ sig) := by
  after_results_simp

set_option maxRecDepth 8192 in
set_option maxHeartbeats 1000000 in
theorem cD_v47 (V : Valuation τ sig (Elt F)) :
    after cD V (main_v47 : DevRef τ sig) = V (main_v47 : DevRef τ sig) := by
  after_results_simp

set_option maxRecDepth 8192 in
set_option maxHeartbeats 1000000 in
theorem cD_v52 (V : Valuation τ sig (Elt F)) :
    after cD V (main_v52 : DevRef τ sig) = V (main_v52 : DevRef τ sig) := by
  after_results_simp

set_option maxRecDepth 8192 in
set_option maxHeartbeats 1000000 in
theorem cD_v56 (V : Valuation τ sig (Elt F)) :
    after cD V (main_v56 : DevRef τ sig) = V (main_v56 : DevRef τ sig) := by
  after_results_simp

set_option maxRecDepth 8192 in
set_option maxHeartbeats 1000000 in
theorem cD_v57 (V : Valuation τ sig (Elt F)) :
    after cD V (main_v57 : DevRef τ sig) = V (main_v57 : DevRef τ sig) := by
  after_results_simp

set_option maxRecDepth 8192 in
set_option maxHeartbeats 1000000 in
theorem cD_arg0 (V : Valuation τ sig (Elt F)) :
    after cD V (main_arg0 : DevRef τ sig) = V (main_arg0 : DevRef τ sig) := by
  after_results_simp

set_option maxRecDepth 8192 in
set_option maxHeartbeats 1000000 in
theorem cD_arg1 (V : Valuation τ sig (Elt F)) :
    after cD V (main_arg1 : DevRef τ sig) = V (main_arg1 : DevRef τ sig) := by
  after_results_simp

set_option maxRecDepth 8192 in
set_option maxHeartbeats 1000000 in
theorem cE_v126 (V : Valuation τ sig (Elt F)) :
    after cE V (main_v126 : DevRef τ sig)
      = transpose S1048576x64 [1, 0]
          (Host.reduceAdd
            (addf (addf (addf (V (main_v75 : DevRef τ sig))
                (mulf (V (main_v85 : DevRef τ sig)) (spreadG (mulf (V (main_v45 : DevRef τ sig)) (V (main_v87 : DevRef τ sig))))))
                (mulf (cornerG (V (main_v57 : DevRef τ sig)) (V (main_v56 : DevRef τ sig)) (V (main_v47 : DevRef τ sig))) (spreadG (mulf (subf (bFg 0x3F800000#32) (V (main_v45 : DevRef τ sig))) (V (main_v46 : DevRef τ sig))))))
              (mulf (cornerG (V (main_v57 : DevRef τ sig)) (V (main_v56 : DevRef τ sig)) (V (main_v52 : DevRef τ sig))) (spreadG (mulf (V (main_v45 : DevRef τ sig)) (V (main_v46 : DevRef τ sig))))))
            (constant (F := F) S_ .f32 0x00000000#32) reducesTo_S3x64x1048576_S64x1048576_d0 h_S_)
          transposes_S64x1048576_S1048576x64_1_0 := by
  after_results_simp <;> rfl

set_option maxRecDepth 8192 in
set_option maxHeartbeats 1000000 in
theorem cE_arg0 (V : Valuation τ sig (Elt F)) :
    after cE V (main_arg0 : DevRef τ sig) = V (main_arg0 : DevRef τ sig) := by
  after_results_simp

set_option maxRecDepth 8192 in
set_option maxHeartbeats 1000000 in
theorem cE_arg1 (V : Valuation τ sig (Elt F)) :
    after cE V (main_arg1 : DevRef τ sig) = V (main_arg1 : DevRef τ sig) := by
  after_results_simp

end Lists

/-! ## The stretches composed, at the extended reals

Each stretch's results, read after the stretches before it, are the named stages of the result term. -/

section Composed

attribute [local irreducible] Host.gather Host.reduceAdd Host.floor

theorem s2_v33 (V : Valuation τ sig (Elt Ideal)) :
    after cB (after cA V) (main_v33 : DevRef τ sig)
      = fX (V (main_arg0 : DevRef τ sig)) := by
  rw [cB_v33, cA_v21, cA_v22, cA_v23]
  rfl

theorem s2_v41 (V : Valuation τ sig (Elt Ideal)) :
    after cB (after cA V) (main_v41 : DevRef τ sig)
      = scaleG (rawY (V (main_arg0 : DevRef τ sig))) := by
  rw [cB_v41, cA_v21, cA_v22, cA_v23]
  rfl

theorem s2_cst_15 (V : Valuation τ sig (Elt Ideal)) :
    after cB (after cA V) (main_cst_15 : DevRef τ sig)
      = constant (F := Ideal) S_ .f32 0x00000000#32 := by
  rw [cB_cst_15]

theorem s2_arg1 (V : Valuation τ sig (Elt Ideal)) :
    after cB (after cA V) (main_arg1 : DevRef τ sig)
      = (V (main_arg1 : DevRef τ sig)) := by
  rw [cB_arg1, cA_arg1]

theorem s3_v45 (V : Valuation τ sig (Elt Ideal)) :
    after cC (after cB (after cA V)) (main_v45 : DevRef τ sig)
      = wX (V (main_arg0 : DevRef τ sig)) := by
  rw [cC_v45, s2_v33]
  rfl

theorem s3_v46 (V : Valuation τ sig (Elt Ideal)) :
    after cC (after cB (after cA V)) (main_v46 : DevRef τ sig)
      = wY (V (main_arg0 : DevRef τ sig)) := by
  rw [cC_v46, s2_cst_15, s2_v41]
  rfl

theorem s3_v47 (V : Valuation τ sig (Elt Ideal)) :
    after cC (after cB (after cA V)) (main_v47 : DevRef τ sig)
      = iX0 (V (main_arg0 : DevRef τ sig)) := by
  rw [cC_v47, s2_v33]
  rfl

theorem s3_v48 (V : Valuation τ sig (Elt Ideal)) :
    after cC (after cB (after cA V)) (main_v48 : DevRef τ sig)
      = iY0 (V (main_arg0 : DevRef τ sig)) := by
  rw [cC_v48, s2_cst_15, s2_v41]
  rfl

theorem s3_v52 (V : Valuation τ sig (Elt Ideal)) :
    after cC (after cB (after cA V)) (main_v52 : DevRef τ sig)
      = iX1 (V (main_arg0 : DevRef τ sig)) := by
  rw [cC_v52, s2_v33]
  rfl

theorem s3_v56 (V : Valuation τ sig (Elt Ideal)) :
    after cC (after cB (after cA V)) (main_v56 : DevRef τ sig)
      = iY1 (V (main_arg0 : DevRef τ sig)) := by
  rw [cC_v56, s2_cst_15, s2_v41]
  rfl

theorem s3_v57 (V : Valuation τ sig (Elt Ideal)) :
    after cC (after cB (after cA V)) (main_v57 : DevRef τ sig)
      = flatCoef (V (main_arg1 : DevRef τ sig)) := by
  rw [cC_v57, s2_arg1]
  rfl

theorem s4_v75 (V : Valuation τ sig (Elt Ideal)) :
    after cD (after cC (after cB (after cA V))) (main_v75 : DevRef τ sig)
      = mulf (corner (V (main_arg1 : DevRef τ sig)) (iY0 (V (main_arg0 : DevRef τ sig))) (iX0 (V (main_arg0 : DevRef τ sig))))
          (spread (mulf (subf (bF 0x3F800000#32) (wX (V (main_arg0 : DevRef τ sig)))) (subf (bF 0x3F800000#32) (wY (V (main_arg0 : DevRef τ sig)))))) := by
  rw [cD_v75, s3_v57, s3_v48, s3_v47, s3_v45, s3_v46]
  rfl

theorem s4_v85 (V : Valuation τ sig (Elt Ideal)) :
    after cD (after cC (after cB (after cA V))) (main_v85 : DevRef τ sig)
      = corner (V (main_arg1 : DevRef τ sig)) (iY0 (V (main_arg0 : DevRef τ sig))) (iX1 (V (main_arg0 : DevRef τ sig))) := by
  rw [cD_v85, s3_v57, s3_v48, s3_v52]
  rfl

theorem s4_v87 (V : Valuation τ sig (Elt Ideal)) :
    after cD (after cC (after cB (after cA V))) (main_v87 : DevRef τ sig)
      = subf (bF 0x3F800000#32) (wY (V (main_arg0 : DevRef τ sig))) := by
  rw [cD_v87, s3_v46]

theorem s4_v45 (V : Valuation τ sig (Elt Ideal)) :
    after cD (after cC (after cB (after cA V))) (main_v45 : DevRef τ sig)
      = wX (V (main_arg0 : DevRef τ sig)) := by
  rw [cD_v45, s3_v45]

theorem s4_v46 (V : Valuation τ sig (Elt Ideal)) :
    after cD (after cC (after cB (after cA V))) (main_v46 : DevRef τ sig)
      = wY (V (main_arg0 : DevRef τ sig)) := by
  rw [cD_v46, s3_v46]

theorem s4_v47 (V : Valuation τ sig (Elt Ideal)) :
    after cD (after cC (after cB (after cA V))) (main_v47 : DevRef τ sig)
      = iX0 (V (main_arg0 : DevRef τ sig)) := by
  rw [cD_v47, s3_v47]

theorem s4_v52 (V : Valuation τ sig (Elt Ideal)) :
    after cD (after cC (after cB (after cA V))) (main_v52 : DevRef τ sig)
      = iX1 (V (main_arg0 : DevRef τ sig)) := by
  rw [cD_v52, s3_v52]

theorem s4_v56 (V : Valuation τ sig (Elt Ideal)) :
    after cD (after cC (after cB (after cA V))) (main_v56 : DevRef τ sig)
      = iY1 (V (main_arg0 : DevRef τ sig)) := by
  rw [cD_v56, s3_v56]

theorem s4_v57 (V : Valuation τ sig (Elt Ideal)) :
    after cD (after cC (after cB (after cA V))) (main_v57 : DevRef τ sig)
      = flatCoef (V (main_arg1 : DevRef τ sig)) := by
  rw [cD_v57, s3_v57]

set_option maxRecDepth 8192 in
theorem s5_v126 (V : Valuation τ sig (Elt Ideal)) :
    after cE (after cD (after cC (after cB (after cA V)))) (main_v126 : DevRef τ sig)
      = refVal (V (main_arg0 : DevRef τ sig)) (V (main_arg1 : DevRef τ sig)) := by
  rw [cE_v126, s4_v75, s4_v85, s4_v87, s4_v45, s4_v46, s4_v47, s4_v52, s4_v56, s4_v57]
  rfl

theorem after_ops (V : Valuation τ sig (Elt Ideal)) :
    after ops V = after cE (after cD (after cC (after cB (after cA V)))) := by
  simp only [ops, after_append]

/-- The result buffer after the whole line is the result term of the two argument arrays. -/
theorem val (V : Valuation τ sig (Elt Ideal)) :
    after ops V (main_v126 : DevRef τ sig) = refVal (V (main_arg0 : DevRef τ sig)) (V (main_arg1 : DevRef τ sig)) := by
  rw [after_ops]; exact s5_v126 V

/-- No operation writes an argument array. -/
theorem arg0_eq (V : Valuation τ sig (Elt Ideal)) : after ops V (main_arg0 : DevRef τ sig) = V (main_arg0 : DevRef τ sig) := by
  rw [after_ops, cE_arg0, cD_arg0, cC_arg0, cB_arg0, cA_arg0]
theorem arg1_eq (V : Valuation τ sig (Elt Ideal)) : after ops V (main_arg1 : DevRef τ sig) = V (main_arg1 : DevRef τ sig) := by
  rw [after_ops, cE_arg1, cD_arg1, cC_arg1, cB_arg1, cA_arg1]

end Composed

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v126)
          = refVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v126).trans (val _), (h c main_arg0).trans (arg0_eq _),
      (h c main_arg1).trans (arg1_eq _)⟩)
    (run_seq scopedRefs_eq scopedSems_eq defs main (fun _ => ops) main_eq (fun _ => ops_sub) m ρ (fun _ => ops_fresh))

end Cert.ReferenceIdeal.TriRef

end
-- ==== Proof.RGatherA.lean ====
/-
  The stacked coordinate pairs read at an index: plane `p`'s column coordinate of point `n` is the points array's
  coordinate `axA p`, its row coordinate `axB p` (planes 0, 1, 2 use the pairs (0,1), (0,2), (1,2)).
-/
import proofs.«109239_j18605798326298_1_alg».proof.Proof.Gen.ReferenceIdeal
import proofs.«109239_j18605798326298_1_alg».proof.Proof.Spec
import proofs.«109239_j18605798326298_1_alg».proof.Proof.RStages
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.TriRef

open Idealize.ShloMosaic Idealize.ShloMosaic.TcCoe Idealize.SL.Sem Idealize.ShloMosaic.ValueIdx
open Cert.ReferenceIdeal Cert.ReferenceIdeal.Gen Cert.TriPlane

/-- The dimension numbers of the read that picks two coordinates of every point: the point axis is kept whole, the
    coordinate axis is collapsed to the one coordinate a start index names. -/
abbrev pairDims := gather_S1048576x3_S2x1_S1048576x2_0_1_n_n_1_1_10485761

/-! ## The start indices and the two-coordinate read -/

/-- The start-index array at (k, ·) is the table's entry `k`, with 3 added when it is negative. -/
theorem colIdx_apply (l : Fin 2 → BitVec 32) (k : Fin 2) (u : Fin 1) :
    colIdx l (ix2 k u) = Scalar.select (IntOp.cmpi .slt (l k) 0#32) (IntOp.addi (l k) 3#32) (l k) := by
  have key : ∀ i : S2.Idx, (i 0).val = k.val →
      Scalar.select (IntOp.cmpi .slt (l (S2.rowMajor i)) 0#32) (IntOp.addi (l (S2.rowMajor i)) 3#32) (l (S2.rowMajor i))
        = Scalar.select (IntOp.cmpi .slt (l k) 0#32) (IntOp.addi (l k) 3#32) (l k) := by
    intro i hi
    have e : S2.rowMajor i = k := Fin.ext ((Shape.rowMajor_val_one i).trans hi)
    rw [e]
  exact key _ rfl

/-- Column `k` of the pair read at point `n` is the points array at (n, c), `c` being start index `k` read as a signed
    integer and capped at 2 (the last coordinate): on the point axis the operand index is the offset `n` alone, on the
    coordinate axis the clamped start alone. -/
theorem pair_apply (pts : FVec Ideal S1048576x3 .f32) (l : Fin 2 → BitVec 32) (n : Fin 1048576) (k : Fin 2) :
    pair pts l (ix2 n k)
      = pts (ix2 n ⟨min (colIdx l (ix2 k (0 : Fin 1))).toInt.toNat 2, by omega⟩) := by
  unfold pair Host.gather
  congr 1
  funext a
  refine Fin.ext ?_
  match a with
  | ⟨0, _⟩ =>
    show pairDims.start (ix2 n k) (colIdx l) 0 + pairDims.batchCoord (ix2 n k) 0 + pairDims.offCoord (ix2 n k) 0 = n.val
    have h1 : pairDims.start (ix2 n k) (colIdx l) 0 = 0 := by
      unfold GatherDims.start; exact dif_neg (by decide)
    have h2 : pairDims.batchCoord (ix2 n k) 0 = 0 := GatherDims.batchCoord_eq_zero _ _ _ List.not_mem_nil
    have h3 : pairDims.offCoord (ix2 n k) 0 = n.val := rfl
    rw [h1, h2, h3]
    omega
  | ⟨1, _⟩ =>
    show pairDims.start (ix2 n k) (colIdx l) 1 + pairDims.batchCoord (ix2 n k) 1 + pairDims.offCoord (ix2 n k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin S1048576x3.rank) ∈ pairDims.startIndexMap from List.mem_singleton.mpr rfl)]
    -- the start index of column `k` sits at (k, 0) of the start-index array
    have hsi : pairDims.siIdx (ix2 n k) ⟨List.idxOf (1 : Fin S1048576x3.rank) pairDims.startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

/-- When the wrapped and capped entry `k` of a table is the coordinate number `c`, column `k` of the pair is the points
    array's coordinate `c`. -/
theorem pair_lit (pts : FVec Ideal S1048576x3 .f32) (l : Fin 2 → BitVec 32) (n : Fin 1048576) (k : Fin 2) (c : Fin 3)
    (h : min (Scalar.select (IntOp.cmpi .slt (l k) 0#32) (IntOp.addi (l k) 3#32) (l k)).toInt.toNat 2 = c.val) :
    pair pts l (ix2 n k) = pts (ix2 n c) := by
  refine (pair_apply pts l n k).trans ?_
  refine congrArg (fun c : Fin 3 => pts (ix2 n c)) (Fin.ext ?_)
  show min (colIdx l (ix2 k (0 : Fin 1))).toInt.toNat 2 = c.val
  rw [colIdx_apply]
  exact h

/-! ## The stack of the three planes' pairs

Plane `p` of the stack is piece `p` of three pieces of extent one along the first axis, each a pair array under a new
leading unit axis. -/

theorem crd_plane0 (pts : FVec Ideal S1048576x3 .f32) (n : Fin 1048576) (k : Fin 2) :
    crd pts (ix3 (0 : Fin 3) n k) = pair pts lit0 (ix2 n k) := by
  unfold crd
  refine (concatenate_apply_piece (0 : Fin S3x1048576x2.rank) _ _ (ix3 (0 : Fin 3) n k) 0 (by show 0 < 3; omega)
    S1x1048576x2 _ rfl rfl 0 rfl (ix3 (0 : Fin 1) n k) ?_ rfl).trans ?_
  · intro b hb
    match b with
    | ⟨0, _⟩ => exact absurd rfl hb
    | ⟨1, _⟩ => rfl
    | ⟨2, _⟩ => rfl
  · exact broadcastInDim_apply _ _ _ _ (ix2 n k) (fun a => match a with | ⟨0, _⟩ => rfl | ⟨1, _⟩ => rfl)

theorem crd_plane1 (pts : FVec Ideal S1048576x3 .f32) (n : Fin 1048576) (k : Fin 2) :
    crd pts (ix3 (1 : Fin 3) n k) = pair pts lit1 (ix2 n k) := by
  unfold crd
  refine (concatenate_apply_piece (0 : Fin S3x1048576x2.rank) _ _ (ix3 (1 : Fin 3) n k) 1 (by show 1 < 3; omega)
    S1x1048576x2 _ rfl rfl 1 rfl (ix3 (0 : Fin 1) n k) ?_ rfl).trans ?_
  · intro b hb
    match b with
    | ⟨0, _⟩ => exact absurd rfl hb
    | ⟨1, _⟩ => rfl
    | ⟨2, _⟩ => rfl
  · exact broadcastInDim_apply _ _ _ _ (ix2 n k) (fun a => match a with | ⟨0, _⟩ => rfl | ⟨1, _⟩ => rfl)

theorem crd_plane2 (pts : FVec Ideal S1048576x3 .f32) (n : Fin 1048576) (k : Fin 2) :
    crd pts (ix3 (2 : Fin 3) n k) = pair pts lit2 (ix2 n k) := by
  unfold crd
  refine (concatenate_apply_piece (0 : Fin S3x1048576x2.rank) _ _ (ix3 (2 : Fin 3) n k) 2 (by show 2 < 3; omega)
    S1x1048576x2 _ rfl rfl 2 rfl (ix3 (0 : Fin 1) n k) ?_ rfl).trans ?_
  · intro b hb
    match b with
    | ⟨0, _⟩ => exact absurd rfl hb
    | ⟨1, _⟩ => rfl
    | ⟨2, _⟩ => rfl
  · exact broadcastInDim_apply _ _ _ _ (ix2 n k) (fun a => match a with | ⟨0, _⟩ => rfl | ⟨1, _⟩ => rfl)

/-! ## The column and row coordinates: column 0 and column 1 of the stack

The cut at offset `o` on the last axis has extent one there, and dropping that unit axis keeps the row-major position:
(p · 1048576 + n) · 1 + 0 = p · 1048576 + n. -/

theorem rawX_eq_crd (pts : FVec Ideal S1048576x3 .f32) (p : Fin 3) (n : Fin 1048576) :
    rawX pts (ix2 p n) = crd pts (ix3 p n (0 : Fin 2)) := by
  unfold rawX
  refine (shapeCast_apply _ _ (ix2 p n) (ix3 p n (0 : Fin 1)) ?_).trans ?_
  · rw [Shape.rowMajor_val_three, Shape.rowMajor_val_two]
    show (p.val * 1048576 + n.val) * 1 + 0 = p.val * 1048576 + n.val
    omega
  · exact extractStridedSlice_apply _ _ _ (ix3 p n (0 : Fin 1)) (ix3 p n (0 : Fin 2)) (fun a =>
      match a with
      | ⟨0, _⟩ => (Nat.zero_add _).symm
      | ⟨1, _⟩ => (Nat.zero_add _).symm
      | ⟨2, _⟩ => rfl)

theorem rawY_eq_crd (pts : FVec Ideal S1048576x3 .f32) (p : Fin 3) (n : Fin 1048576) :
    rawY pts (ix2 p n) = crd pts (ix3 p n (1 : Fin 2)) := by
  unfold rawY
  refine (shapeCast_apply _ _ (ix2 p n) (ix3 p n (0 : Fin 1)) ?_).trans ?_
  · rw [Shape.rowMajor_val_three, Shape.rowMajor_val_two]
    show (p.val * 1048576 + n.val) * 1 + 0 = p.val * 1048576 + n.val
    omega
  · exact extractStridedSlice_apply _ _ _ (ix3 p n (0 : Fin 1)) (ix3 p n (1 : Fin 2)) (fun a =>
      match a with
      | ⟨0, _⟩ => (Nat.zero_add _).symm
      | ⟨1, _⟩ => (Nat.zero_add _).symm
      | ⟨2, _⟩ => rfl)

/-! ## The two coordinates of a plane

The tables are (0, 1), (0, 2), (1, 2): no entry is negative, none exceeds 2, so entry `k` of plane `p`'s table is the
coordinate number itself, `axA p` for `k = 0` and `axB p` for `k = 1`. -/

theorem rawX_apply (pts : FVec Ideal S1048576x3 .f32) (p : Fin 3) (n : Fin 1048576) :
    rawX pts (ix2 p n) = pts (ix2 n (axA p)) := by
  refine (rawX_eq_crd pts p n).trans ?_
  match p with
  | ⟨0, _⟩ => exact (crd_plane0 pts n 0).trans (pair_lit pts lit0 n 0 (axA 0) (by decide))
  | ⟨1, _⟩ => exact (crd_plane1 pts n 0).trans (pair_lit pts lit1 n 0 (axA 1) (by decide))
  | ⟨2, _⟩ => exact (crd_plane2 pts n 0).trans (pair_lit pts lit2 n 0 (axA 2) (by decide))

theorem rawY_apply (pts : FVec Ideal S1048576x3 .f32) (p : Fin 3) (n : Fin 1048576) :
    rawY pts (ix2 p n) = pts (ix2 n (axB p)) := by
  refine (rawY_eq_crd pts p n).trans ?_
  match p with
  | ⟨0, _⟩ => exact (crd_plane0 pts n 1).trans (pair_lit pts lit0 n 1 (axB 0) (by decide))
  | ⟨1, _⟩ => exact (crd_plane1 pts n 1).trans (pair_lit pts lit1 n 1 (axB 1) (by decide))
  | ⟨2, _⟩ => exact (crd_plane2 pts n 1).trans (pair_lit pts lit2 n 1 (axB 2) (by decide))

end Cert.ReferenceIdeal.TriRef

end
-- ==== Proof.RGatherB.lean ====
/-
  A corner read at an index: for pixel words in range, channel `c` of plane `p` at point `n` is the coefficient
  array at (p, c, row, column) — the flat pixel number `row · 512 + column` is in range of the flattened plane, and
  flattening sends (row, column) to it.
-/
import proofs.«109239_j18605798326298_1_alg».proof.Proof.Gen.ReferenceIdeal
import proofs.«109239_j18605798326298_1_alg».proof.Proof.Spec
import proofs.«109239_j18605798326298_1_alg».proof.Proof.RStages
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.TriRef

open Idealize.ShloMosaic Idealize.ShloMosaic.TcCoe Idealize.SL.Sem Idealize.ShloMosaic.ValueIdx
open Cert.ReferenceIdeal Cert.ReferenceIdeal.Gen Cert.TriPlane

/-- The start-index array at (p, n, 0) is the flat pixel number of the two pixel words at (p, n). -/
theorem flatIx_apply (yy xx : IVec S3x1048576 32) (p : Fin 3) (n : Fin 1048576) (u : Fin 1) :
    flatIx yy xx (ix3 p n u) = flat (yy (ix2 p n)) (xx (ix2 p n)) := by
  unfold flatIx
  refine (broadcastInDim_apply _ _ _ (ix3 p n u) (ix2 p n) fun a => ?_).trans ?_
  · match a with
    | ⟨0, _⟩ => rfl
    | ⟨1, _⟩ => rfl
  · rfl

/-- The flattened planes at (p, c, row · 512 + column) are the coefficient array at (p, c, row, column). -/
theorem flatCoef_apply (coef : FVec Ideal S3x64x512x512 .f32) (p : Fin 3) (c : Fin 64) (y x : Fin 512)
    (q : Fin 262144) (hq : q.val = y.val * 512 + x.val) :
    flatCoef coef (ix3 p c q) = coef (ix4 p c y x) := by
  unfold flatCoef
  refine shapeCast_apply coef _ (ix3 p c q) (ix4 p c y x) ?_
  rw [Shape.rowMajor_val_four, Shape.rowMajor_val_three]
  show ((p.val * 64 + c.val) * 512 + y.val) * 512 + x.val = (p.val * 64 + c.val) * 262144 + q.val
  omega

/-- On the plane axis a corner read keeps the result's plane: the start is zero there and no offset applies. -/
theorem corner_axis0 (idx : IVec S3x1048576x1 32) (p : Fin 3) (c : Fin 64) (n : Fin 1048576) :
    (gather_S3x64x262144_S3x1048576x1_S3x64x1048576_1_2_0_0_2_2_1641.operandIdx (ix3 p c n) idx (0 : Fin 3)).val
      = p.val := by
  show gather_S3x64x262144_S3x1048576x1_S3x64x1048576_1_2_0_0_2_2_1641.start (ix3 p c n) idx 0
      + gather_S3x64x262144_S3x1048576x1_S3x64x1048576_1_2_0_0_2_2_1641.batchCoord (ix3 p c n) 0
      + gather_S3x64x262144_S3x1048576x1_S3x64x1048576_1_2_0_0_2_2_1641.offCoord (ix3 p c n) 0 = p.val
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 3) ∈ gather_S3x64x262144_S3x1048576x1_S3x64x1048576_1_2_0_0_2_2_1641.operandBatchingDims
    from List.mem_singleton.mpr rfl)]
  rfl

/-- On the channel axis a corner read keeps the result's channel: the whole axis is one slice starting at zero. -/
theorem corner_axis1 (idx : IVec S3x1048576x1 32) (p : Fin 3) (c : Fin 64) (n : Fin 1048576) :
    (gather_S3x64x262144_S3x1048576x1_S3x64x1048576_1_2_0_0_2_2_1641.operandIdx (ix3 p c n) idx (1 : Fin 3)).val
      = c.val := by
  show gather_S3x64x262144_S3x1048576x1_S3x64x1048576_1_2_0_0_2_2_1641.start (ix3 p c n) idx 1
      + gather_S3x64x262144_S3x1048576x1_S3x64x1048576_1_2_0_0_2_2_1641.batchCoord (ix3 p c n) 1
      + gather_S3x64x262144_S3x1048576x1_S3x64x1048576_1_2_0_0_2_2_1641.offCoord (ix3 p c n) 1 = c.val
  rw [GatherDims.batchCoord_eq_zero _ _ _ (by decide)]
  unfold GatherDims.start
  rw [dif_neg (by decide)]
  simp only [Nat.zero_add, Nat.add_zero]
  unfold GatherDims.offCoord
  rw [dif_pos (by decide)]
  rfl

/-- On the pixel axis a corner read lands on the start index at (p, n, 0), read signed and clamped into
    [0, 262144 − 1]: the slice there has one element and the axis carries no batch or offset coordinate. -/
theorem corner_axis2 (idx : IVec S3x1048576x1 32) (p : Fin 3) (c : Fin 64) (n : Fin 1048576) :
    (gather_S3x64x262144_S3x1048576x1_S3x64x1048576_1_2_0_0_2_2_1641.operandIdx (ix3 p c n) idx (2 : Fin 3)).val
      = min (idx (ix3 p n (0 : Fin 1))).toInt.toNat (262144 - 1) := by
  show gather_S3x64x262144_S3x1048576x1_S3x64x1048576_1_2_0_0_2_2_1641.start (ix3 p c n) idx 2
      + gather_S3x64x262144_S3x1048576x1_S3x64x1048576_1_2_0_0_2_2_1641.batchCoord (ix3 p c n) 2
      + gather_S3x64x262144_S3x1048576x1_S3x64x1048576_1_2_0_0_2_2_1641.offCoord (ix3 p c n) 2 = _
  rw [GatherDims.batchCoord_eq_zero _ _ _ (by decide),
    GatherDims.offCoord_eq_zero _ _ _ (fun h => ((GatherDims.mem_sKept _ _).mp h).1 (List.mem_singleton.mpr rfl))]
  simp only [Nat.add_zero]
  unfold GatherDims.start
  rw [dif_pos (show (2 : Fin 3) ∈ gather_S3x64x262144_S3x1048576x1_S3x64x1048576_1_2_0_0_2_2_1641.startIndexMap
    from List.mem_singleton.mpr rfl)]
  have hsi : gather_S3x64x262144_S3x1048576x1_S3x64x1048576_1_2_0_0_2_2_1641.siIdx (ix3 p c n)
      ⟨List.idxOf (2 : Fin 3) gather_S3x64x262144_S3x1048576x1_S3x64x1048576_1_2_0_0_2_2_1641.startIndexMap,
        List.idxOf_lt_length_iff.2 (List.mem_singleton.mpr rfl)⟩ = ix3 p n (0 : Fin 1) := by
    funext b; refine Fin.ext ?_
    match b with
    | ⟨0, _⟩ => rfl
    | ⟨1, _⟩ => rfl
    | ⟨2, _⟩ => rfl
  rw [hsi]
  rfl

/-- The operand index a corner read uses at (p, c, n): plane p, channel c, and the start index at (p, n, 0)
    read signed and clamped into the flattened plane. -/
theorem corner_operandIdx (idx : IVec S3x1048576x1 32) (p : Fin 3) (c : Fin 64) (n : Fin 1048576) :
    gather_S3x64x262144_S3x1048576x1_S3x64x1048576_1_2_0_0_2_2_1641.operandIdx (ix3 p c n) idx
      = ix3 p c (⟨min (idx (ix3 p n (0 : Fin 1))).toInt.toNat (262144 - 1), by omega⟩ : Fin 262144) := by
  funext a
  match a with
  | ⟨0, _⟩ => exact Fin.ext (corner_axis0 idx p c n)
  | ⟨1, _⟩ => exact Fin.ext (corner_axis1 idx p c n)
  | ⟨2, _⟩ => exact Fin.ext (corner_axis2 idx p c n)

/-- A corner at (p, c, n), for pixel words in range: the flat number is row · 512 + column, below 262144, so the
    clamp keeps it, and the flattened plane there is the coefficient array at (p, c, row, column). -/
theorem corner_apply (coef : FVec Ideal S3x64x512x512 .f32) (yy xx : IVec S3x1048576 32) (p : Fin 3) (c : Fin 64)
    (n : Fin 1048576) (hy : (yy (ix2 p n)).toNat < 512) (hx : (xx (ix2 p n)).toNat < 512) :
    corner coef yy xx (ix3 p c n) = coefAt coef p c (yy (ix2 p n)).toNat (xx (ix2 p n)).toNat := by
  have hf := flat_toInt (yy (ix2 p n)) (xx (ix2 p n)) hy hx
  have hq : min (flatIx yy xx (ix3 p n (0 : Fin 1))).toInt.toNat (262144 - 1)
      = (yy (ix2 p n)).toNat * 512 + (xx (ix2 p n)).toNat := by
    rw [flatIx_apply, hf, Int.toNat_natCast]; omega
  unfold corner Host.gather
  rw [corner_operandIdx]
  refine (flatCoef_apply coef p c ⟨_, hy⟩ ⟨_, hx⟩ _ hq).trans ?_
  unfold coefAt
  rw [dif_pos ⟨hy, hx⟩]

end Cert.ReferenceIdeal.TriRef

end
-- ==== Proof.RRead.lean ====
/-
  The corner-reading program's result read at an index is `Cert.TriPlane.outR`: the stages are pointwise but for the
  coordinate pick (`rawX_apply`, `rawY_apply`), the corner reads (`corner_apply`), the sum over the three planes and
  the transpose.

  Each per-(plane, point) stage is read at an index as the matching function of `Spec` (`pixR`, `fl`, `frac`, `lo`,
  `hi`), first for an arbitrary input array and then at the stage's own input, so that no equation ever has to look
  inside the coordinate pick. The four weighted corners are then `planeR` of the two pixel coordinates, and the sum over
  the first axis followed by the transpose is the `Fin 3`-indexed sum of `outR`.
-/
import proofs.«109239_j18605798326298_1_alg».proof.Proof.Gen.ReferenceIdeal
import proofs.«109239_j18605798326298_1_alg».proof.Proof.Spec
import proofs.«109239_j18605798326298_1_alg».proof.Proof.RStages
import proofs.«109239_j18605798326298_1_alg».proof.Proof.RGatherA
import proofs.«109239_j18605798326298_1_alg».proof.Proof.RGatherB
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.TriRef

open Idealize.ShloMosaic Idealize.ShloMosaic.TcCoe Idealize.SL.Sem Idealize.ShloMosaic.ValueIdx
open Cert.ReferenceIdeal Cert.ReferenceIdeal.Gen Cert.TriPlane

/-! ## The per-(plane, point) stages -/

/-- A splat float word reads the extended real it encodes, a splat integer word reads itself. -/
theorem bF_apply (w : BitVec 32) (i : S3x1048576.Idx) : bF w i = Ideal.ofBits .f32 w := rfl
theorem bI_apply (v : BitVec 32) (i : S3x1048576.Idx) : bI v i = v := rfl

/-- The pixel-coordinate stage is `pixR` element by element: the converted integer 511 is `pixR`'s upper bound and
    the three float words are 1, 0.5 and 511. -/
theorem pix_apply (raw : FVec Ideal S3x1048576 .f32) (i : S3x1048576.Idx) : pix raw i = pixR (raw i) := rfl

/-- Plane `p`'s column pixel coordinate at point `n`, and its row pixel coordinate. -/
theorem fX_apply (pts : FVec Ideal S1048576x3 .f32) (p : Fin 3) (n : Fin 1048576) :
    fX pts (ix2 p n) = pixR (pts (ix2 n (axA p))) :=
  (pix_apply (rawX pts) (ix2 p n)).trans (congrArg pixR (rawX_apply pts p n))
theorem fY_apply (pts : FVec Ideal S1048576x3 .f32) (p : Fin 3) (n : Fin 1048576) :
    fY pts (ix2 p n) = pixR (pts (ix2 n (axB p))) :=
  (pix_apply (rawY pts) (ix2 p n)).trans (congrArg pixR (rawY_apply pts p n))

/-- For ANY array of pixel coordinates: its floor, its fractional part, the floor as a word and the next pixel capped
    at 511, each read at an index. -/
theorem floor_apply (x : FVec Ideal S3x1048576 .f32) (i : S3x1048576.Idx) : Host.floor x i = fl (x i) := rfl
theorem frac_apply (x : FVec Ideal S3x1048576 .f32) (i : S3x1048576.Idx) : subf x (Host.floor x) i = frac (x i) := rfl
theorem lo_apply (x : FVec Ideal S3x1048576 .f32) (i : S3x1048576.Idx) : fptosi 32 (Host.floor x) i = lo (x i) := rfl
theorem hi_apply (x : FVec Ideal S3x1048576 .f32) (i : S3x1048576.Idx) :
    minsi (addi (fptosi 32 (Host.floor x)) (bI 1#32)) (bI 511#32) i = hi (x i) := rfl

/-- The same at the two pixel-coordinate arrays of the program. -/
theorem wX_apply (pts : FVec Ideal S1048576x3 .f32) (i : S3x1048576.Idx) : wX pts i = frac (fX pts i) := frac_apply (fX pts) i
theorem wY_apply (pts : FVec Ideal S1048576x3 .f32) (i : S3x1048576.Idx) : wY pts i = frac (fY pts i) := frac_apply (fY pts) i
theorem iX0_apply (pts : FVec Ideal S1048576x3 .f32) (i : S3x1048576.Idx) : iX0 pts i = lo (fX pts i) := lo_apply (fX pts) i
theorem iY0_apply (pts : FVec Ideal S1048576x3 .f32) (i : S3x1048576.Idx) : iY0 pts i = lo (fY pts i) := lo_apply (fY pts) i
theorem iX1_apply (pts : FVec Ideal S1048576x3 .f32) (i : S3x1048576.Idx) : iX1 pts i = hi (fX pts i) := hi_apply (fX pts) i
theorem iY1_apply (pts : FVec Ideal S1048576x3 .f32) (i : S3x1048576.Idx) : iY1 pts i = hi (fY pts i) := hi_apply (fY pts) i

/-- A per-(plane, point) weight spread over the channels reads, at (plane, channel, point), the weight at
    (plane, point): the first broadcast reads the middle array at (plane, 0, point), the second the weight. -/
theorem spread_apply (w : FVec Ideal S3x1048576 .f32) (p : Fin 3) (c : Fin 64) (n : Fin 1048576) :
    spread w (ix3 p c n) = w (ix2 p n) := by
  unfold spread
  refine (broadcastInDim_apply _ bcast_S3x1x1048576_S3x64x1048576_0_1_2 _ (ix3 p c n) (ix3 p (0 : Fin 1) n) ?_).trans ?_
  · intro a
    match a with
    | ⟨0, _⟩ => rfl
    | ⟨1, _⟩ => rfl
    | ⟨2, _⟩ => rfl
  · refine broadcastInDim_apply _ bcast_S3x1048576_S3x1x1048576_0_2 w (ix3 p (0 : Fin 1) n) (ix2 p n) ?_
    intro a
    match a with
    | ⟨0, _⟩ => rfl
    | ⟨1, _⟩ => rfl

/-! ## The four weighted corners -/

/-- The weighted sum of four corner arrays read at (plane, channel, point), the corner arrays and the two
    fractional-part arrays being any arrays: products and sums are pointwise and a weight does not depend on the channel. -/
theorem feats_form (k00 k01 k10 k11 : FVec Ideal S3x64x1048576 .f32) (wx wy : FVec Ideal S3x1048576 .f32)
    (p : Fin 3) (c : Fin 64) (n : Fin 1048576) :
    addf (addf (addf
        (mulf k00 (spread (mulf (subf (bF 0x3F800000#32) wx) (subf (bF 0x3F800000#32) wy))))
        (mulf k01 (spread (mulf wx (subf (bF 0x3F800000#32) wy)))))
        (mulf k10 (spread (mulf (subf (bF 0x3F800000#32) wx) wy))))
      (mulf k11 (spread (mulf wx wy))) (ix3 p c n)
      = ((k00 (ix3 p c n) * ((c1 - (wx (ix2 p n) : EReal)) * (c1 - (wy (ix2 p n) : EReal)))
          + k01 (ix3 p c n) * ((wx (ix2 p n) : EReal) * (c1 - (wy (ix2 p n) : EReal))))
        + k10 (ix3 p c n) * ((c1 - (wx (ix2 p n) : EReal)) * (wy (ix2 p n) : EReal)))
      + k11 (ix3 p c n) * ((wx (ix2 p n) : EReal) * (wy (ix2 p n) : EReal)) := by
  have s00 := spread_apply (mulf (subf (bF 0x3F800000#32) wx) (subf (bF 0x3F800000#32) wy)) p c n
  have s01 := spread_apply (mulf wx (subf (bF 0x3F800000#32) wy)) p c n
  have s10 := spread_apply (mulf (subf (bF 0x3F800000#32) wx) wy) p c n
  have s11 := spread_apply (mulf wx wy) p c n
  simp only [addf_apply, mulf_apply]
  rw [s00, s01, s10, s11]
  rfl

attribute [local irreducible] iX0 iY0 iX1 iY1 wX wY fX fY flX flY corner spread rawX rawY pix

/-- Plane `p`, channel `c` at point `n`: the four corners of the plane weighted by the two pixel coordinates' fractional
    parts. -/
theorem feats_apply (pts : FVec Ideal S1048576x3 .f32) (coef : FVec Ideal S3x64x512x512 .f32) (p : Fin 3) (c : Fin 64)
    (n : Fin 1048576) :
    feats pts coef (ix3 p c n)
      = planeR (coefAt coef p c) (pixR (pts (ix2 n (axA p)))) (pixR (pts (ix2 n (axB p)))) := by
  have hx := fX_apply pts p n
  have hy := fY_apply pts p n
  have hx0 : (iX0 pts (ix2 p n)).toNat < 512 := by
    rw [iX0_apply, hx, pixR_eq_pixK]; exact lo_pixK_lt _
  have hy0 : (iY0 pts (ix2 p n)).toNat < 512 := by
    rw [iY0_apply, hy, pixR_eq_pixK]; exact lo_pixK_lt _
  have hx1 : (iX1 pts (ix2 p n)).toNat < 512 := by
    rw [iX1_apply, hx, pixR_eq_pixK]; exact hi_pixK_lt _
  have hy1 : (iY1 pts (ix2 p n)).toNat < 512 := by
    rw [iY1_apply, hy, pixR_eq_pixK]; exact hi_pixK_lt _
  have e00 := corner_apply coef (iY0 pts) (iX0 pts) p c n hy0 hx0
  have e01 := corner_apply coef (iY0 pts) (iX1 pts) p c n hy0 hx1
  have e10 := corner_apply coef (iY1 pts) (iX0 pts) p c n hy1 hx0
  have e11 := corner_apply coef (iY1 pts) (iX1 pts) p c n hy1 hx1
  refine (feats_form (corner coef (iY0 pts) (iX0 pts)) (corner coef (iY0 pts) (iX1 pts)) (corner coef (iY1 pts) (iX0 pts))
    (corner coef (iY1 pts) (iX1 pts)) (wX pts) (wY pts) p c n).trans ?_
  rw [e00, e01, e10, e11, wX_apply, wY_apply, iX0_apply, iY0_apply, iX1_apply, iY1_apply, hx, hy]
  rfl

/-! ## The sum over the planes and the transpose -/

/-- Any [3, 64, N] array summed over its first axis onto the zero word and transposed reads, at (point, channel), zero plus
    the sum over the three planes of the array at (plane, channel, point). -/
theorem sumPlanes_apply (x : FVec Ideal S3x64x1048576 .f32) (n : Fin 1048576) (c : Fin 64) :
    transpose S1048576x64 [1, 0]
        (Host.reduceAdd x (constant (F := Ideal) S_ .f32 0x00000000#32) reducesTo_S3x64x1048576_S64x1048576_d0 h_S_)
        transposes_S64x1048576_S1048576x64_1_0 (ix2 n c)
      = c0 + ∑ p : Fin 3, x (ix3 p c n) := by
  have h : S3x64x1048576.Reduces [0] S64x1048576 := by decide
  refine (transpose_ix2_apply _ transposes_S64x1048576_S1048576x64_1_0 n c).trans ?_
  refine (Ideal.hostReduceAdd_single reducesTo_S3x64x1048576_S64x1048576_d0 h x c0 (ix2 c n)).trans ?_
  refine congrArg (fun s : EReal => c0 + s) (Finset.sum_congr rfl fun k _ => congrArg x ?_)
  funext a
  match a with
  | ⟨0, _⟩ => rfl
  | ⟨1, _⟩ => rfl
  | ⟨2, _⟩ => rfl

/-- The result at (point, channel): zero plus the three planes' weighted corners. -/
theorem refVal_apply (pts : FVec Ideal S1048576x3 .f32) (coef : FVec Ideal S3x64x512x512 .f32) (n : Fin 1048576)
    (c : Fin 64) : refVal pts coef (ix2 n c) = outR pts coef n c :=
  (sumPlanes_apply (feats pts coef) n c).trans
    (congrArg (fun s : EReal => c0 + s) (Finset.sum_congr rfl fun p _ => feats_apply pts coef p c n))

end Cert.ReferenceIdeal.TriRef

end
-- ==== Proof.lean ====
/-
  The certificate of the tri-plane sampling kernel against its corner-reading reference.

  Both programs compute, for every point and channel, the bilinear sample of three coefficient planes at the point's
  three coordinate pairs, summed over the planes.  The kernel contracts each plane with two one-hot weight vectors
  (two non-zero weights each) on the matrix unit, block by block over a grid of 8 × 4096 points; the reference reads
  the four corner pixels and weights them.  At the extended reals the two results are one function of the argument
  arrays on finite inputs (Proof/Spec.lean, `outK_eq_outR`): the clamp of the pixel coordinate to [0, 511] makes the
  fractional part zero exactly where the two neighbouring pixels coincide, and the rest is distributivity.

  The kernel's side: an output block at an entry is the three planes' contractions added in order (Proof/KP0, KP1, KP2,
  KPay), the blocks tile the transposed result and the last host operation transposes it (Proof/KRun).  The
  reference's side: its @main is a straight line of host operations (Proof/RRun) whose composed term (Proof/RStages) read
  at an index is the corner form (Proof/RGatherA, RGatherB, RRead).  Finiteness of the coefficients comes from the
  precondition (Proof/Finite).  The two kernel programs' frames are the generated ones.
-/
import proofs.«109239_j18605798326298_1_alg».proof.Defs
import proofs.«109239_j18605798326298_1_alg».proof.Proof.Gen.Kernel
import proofs.«109239_j18605798326298_1_alg».proof.Proof.Gen.KernelIdeal
import proofs.«109239_j18605798326298_1_alg».proof.Proof.Gen.ReferenceIdeal
import proofs.«109239_j18605798326298_1_alg».proof.Proof.Gen.Pre_finite_inputs
import proofs.«109239_j18605798326298_1_alg».proof.Proof.FrameKernel
import proofs.«109239_j18605798326298_1_alg».proof.Proof.FrameKernelIdeal
import proofs.«109239_j18605798326298_1_alg».proof.Proof.Spec
import proofs.«109239_j18605798326298_1_alg».proof.Proof.Finite
import proofs.«109239_j18605798326298_1_alg».proof.Proof.KRun
import proofs.«109239_j18605798326298_1_alg».proof.Proof.RRun
import proofs.«109239_j18605798326298_1_alg».proof.Proof.RRead
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel and its idealization run and keep their arguments: the generated frames. -/
theorem frame_k : Cert.frame_Kernel := fun m ρ _ => Cert.Kernel.Gen.frame m ρ
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.TriRef.run m ρ)

/-- The idealization rewrote nothing. -/
theorem preserves : Cert.preserves_Kernel_KernelIdeal := trivial

/-- From memories agreeing on the arguments both programs end at `Cert.TriPlane.out` of them: the kernel's run gives it
    directly, the reference's run gives the corner form, equal to it index by index on finite coefficients. -/
theorem algebraic : Cert.algebraic_KernelIdeal_ReferenceIdeal := by
  intro m ρ m' ρ' hpre hagree
  refine ⟨fun c => Cert.TriPlane.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.TriRun.run m ρ, ?_⟩
  refine (θ_run Cert.ReferenceIdeal.defs _ _).mono (fun _ h c => ⟨(h c).1.trans ?_, (h c).2⟩)
    (Cert.ReferenceIdeal.TriRef.run m' ρ')
  rw [(hagree c).1, (hagree c).2]
  funext i
  obtain ⟨n, ch, rfl⟩ : ∃ (n : Fin 1048576) (ch : Fin 64), i = ix2 n ch := ⟨i 0, i 1, eq_ix2 i⟩
  rw [Cert.ReferenceIdeal.TriRef.refVal_apply]
  exact (Cert.TriPlane.outK_eq_outR _ _ (Cert.Proof.Finite.coef_real _ _ (hpre c)) n ch).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
